-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : FVec F S64x64 .f32) (main_arg2 : FVec F S64 .f32) (main_arg3 : FVec F S64x64 .f32) (main_arg4 : FVec F S64 .f32) (main_arg5 : IVec S2x1600000 32) (main_arg6 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_v13 main_v16
-- ==== Kernel.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S1000 : Shape := ⟨1, ![1000]⟩
abbrev S1000x1 : Shape := ⟨2, ![1000, 1]⟩
abbrev S1x64 : Shape := ⟨2, ![1, 64]⟩
abbrev S1700000x64 : Shape := ⟨2, ![1700000, 64]⟩
abbrev S1000x64 : Shape := ⟨2, ![1000, 64]⟩
abbrev S5000x64 : Shape := ⟨2, ![5000, 64]⟩
abbrev S5000x1 : Shape := ⟨2, ![5000, 1]⟩
abbrev S2000x64 : Shape := ⟨2, ![2000, 64]⟩
abbrev S2000x1 : Shape := ⟨2, ![2000, 1]⟩
abbrev S2000x1000 : Shape := ⟨2, ![2000, 1000]⟩

abbrev nBuf : Space → Nat
  | .hbm => 72
  | .vmem => 25
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .f32⟩
  | .hbm, ⟨26, _⟩ => ⟨S100000, .f32⟩
  | .hbm, ⟨27, _⟩ => ⟨S_, .f32⟩
  | .hbm, ⟨28, _⟩ => ⟨S1000, .f32⟩
  | .hbm, ⟨29, _⟩ => ⟨S100000x1, .i32⟩
  | .hbm, ⟨30, _⟩ => ⟨S1000, .f32⟩
  | .hbm, ⟨31, _⟩ => ⟨S_, .f32⟩
  | .hbm, ⟨32, _⟩ => ⟨S1000, .f32⟩
  | .hbm, ⟨33, _⟩ => ⟨S1000, .f32⟩
  | .hbm, ⟨34, _⟩ => ⟨S_, .f32⟩
  | .hbm, ⟨35, _⟩ => ⟨S1000, .f32⟩
  | .hbm, ⟨36, _⟩ => ⟨S1000, .f32⟩
  | .hbm, ⟨37, _⟩ => ⟨S1000x1, .f32⟩
  | .hbm, ⟨38, _⟩ => ⟨S100000x1, .i32⟩
  | .hbm, ⟨39, _⟩ => ⟨S1x64, .f32⟩
  | .hbm, ⟨40, _⟩ => ⟨S1x64, .f32⟩
  | .hbm, ⟨41, _⟩ => ⟨S100000x64, .bf16⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .bf16⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S100000x64, .bf16⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .bf16⟩
  | .hbm, ⟨66, _⟩ => ⟨S1700000x64, .f32⟩
  | .hbm, ⟨67, _⟩ => ⟨S_, .f32⟩
  | .hbm, ⟨68, _⟩ => ⟨S100000x64, .f32⟩
  | .hbm, ⟨69, _⟩ => ⟨S1700000x1, .i32⟩
  | .hbm, ⟨70, _⟩ => ⟨S100000x64, .f32⟩
  | .hbm, ⟨71, _⟩ => ⟨S1000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x64, .bf16⟩
  | .local _ .vmem, ⟨14, _⟩ => ⟨S5000x64, .bf16⟩
  | .local _ .vmem, ⟨15, _⟩ => ⟨S2000x64, .f32⟩
  | .local _ .vmem, ⟨16, _⟩ => ⟨S2000x64, .f32⟩
  | .local _ .vmem, ⟨17, _⟩ => ⟨S2000x1, .f32⟩
  | .local _ .vmem, ⟨18, _⟩ => ⟨S2000x1, .f32⟩
  | .local _ .vmem, ⟨19, _⟩ => ⟨S1x64, .f32⟩
  | .local _ .vmem, ⟨20, _⟩ => ⟨S2000x1, .i32⟩
  | .local _ .vmem, ⟨21, _⟩ => ⟨S2000x1, .i32⟩
  | .local _ .vmem, ⟨22, _⟩ => ⟨S1000x1, .f32⟩
  | .local _ .vmem, ⟨23, _⟩ => ⟨S1000x64, .f32⟩
  | .local _ .vmem, ⟨24, _⟩ => ⟨S1000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst : Ref sig .tc := ⟨.hbm, 14, rfl⟩
abbrev main_call0_v7 : Ref sig .tc := ⟨.hbm, 15, rfl⟩
abbrev main_call0_cst_0 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_cst_1 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst_2 : Ref sig .tc := ⟨.hbm, 25, rfl⟩
abbrev main_call0_v15 : Ref sig .tc := ⟨.hbm, 26, rfl⟩
abbrev main_call0_cst_3 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_cst_4 : Ref sig .tc := ⟨.hbm, 31, rfl⟩
abbrev main_call0_v19 : Ref sig .tc := ⟨.hbm, 32, rfl⟩
abbrev main_call0_v20 : Ref sig .tc := ⟨.hbm, 33, rfl⟩
abbrev main_call0_cst_5 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_c : Ref sig .tc := ⟨.hbm, 42, rfl⟩
abbrev main_call0_v28 : Ref sig .tc := ⟨.hbm, 43, rfl⟩
abbrev main_call0_v29 : Ref sig .tc := ⟨.hbm, 44, rfl⟩
abbrev main_call0_c_6 : Ref sig .tc := ⟨.hbm, 45, rfl⟩
abbrev main_call0_v30 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_call0_v35 : Ref sig .tc := ⟨.hbm, 51, rfl⟩
abbrev main_call0_cst_7 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_v39 : Ref sig .tc := ⟨.hbm, 56, rfl⟩
abbrev main_call0_c_8 : Ref sig .tc := ⟨.hbm, 57, rfl⟩
abbrev main_call0_v40 : Ref sig .tc := ⟨.hbm, 58, rfl⟩
abbrev main_call0_v41 : Ref sig .tc := ⟨.hbm, 59, rfl⟩
abbrev main_call0_c_9 : Ref sig .tc := ⟨.hbm, 60, rfl⟩
abbrev main_call0_v42 : Ref sig .tc := ⟨.hbm, 61, rfl⟩
abbrev main_call0_v43 : Ref sig .tc := ⟨.hbm, 62, rfl⟩
abbrev main_call0_v44 : Ref sig .tc := ⟨.hbm, 63, rfl⟩
abbrev main_call0_v45 : Ref sig .tc := ⟨.hbm, 64, rfl⟩
abbrev main_call0_v46 : Ref sig .tc := ⟨.hbm, 65, rfl⟩
abbrev main_call0_v47 : Ref sig .tc := ⟨.hbm, 66, rfl⟩
abbrev main_call0_cst_10 : Ref sig .tc := ⟨.hbm, 67, rfl⟩
abbrev main_call0_v48 : Ref sig .tc := ⟨.hbm, 68, rfl⟩
abbrev main_call0_v49 : Ref sig .tc := ⟨.hbm, 69, rfl⟩
abbrev main_call0_v50 : Ref sig .tc := ⟨.hbm, 70, rfl⟩
abbrev main_v0 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v30 : BitVec 1 := Scalar.cmpi .eq arg0 c49_i32
  let v31 : BitVec 32 := Scalar.extui v30
  let c0_i32_13 : BitVec 32 := 0#32
  let v32 : BitVec 1 := Scalar.cmpi .ne v31 c0_i32_13
  v32

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1000x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1000x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  bcast_S_S1000 : S_.BroadcastsInDim S1000 (![] : Fin 0 → Fin S1000.rank)
  bcast_S100000_S100000x1_0 : S100000.BroadcastsInDim S100000x1 (![0] : Fin 1 → Fin S100000x1.rank)
  shapeCasts_S1000_S1000x1 : S1000.ShapeCasts S1000x1
  shapeCasts_S64_S1x64 : S64.ShapeCasts S1x64
  bitsLt_bf16_f32 : FTy.bits .bf16 < FTy.bits .f32
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  packedbf16_S5000x64_S5000x64_0_0 : (Rect.unit (s := S5000x64) ![0, 0] S5000x64.size inb_S5000x64_S5000x64_0_0).PackedRows (EltTy.packing .bf16)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S2000x1_S2000x64 : S2000x1.Broadcasts S2000x64
  broadcasts_S1x64_S2000x64 : S1x64.Broadcasts S2000x64
  iota_S2000x1000_d1_w32 : S2000x1000.Iotas .tc 32 [1]
  broadcasts_S2000x1_S2000x1000 : S2000x1.Broadcasts S2000x1000
  natLt_1_32 : 1 < 32
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  scatter_S100000_S1700000x1_S1700000_n_0_0_1_wf : ScatterDims.WF S100000 S1700000x1 S1700000 [] [0] [0] 1
  scatter_S1000_S100000x1_S100000_n_0_0_1_wf : ScatterDims.WF S1000 S100000x1 S100000 [] [0] [0] 1
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S2000x1000_S2000x64_S1000x64_0_0_1_1_n_n_wf : DotDims.WF S2000x1000 S2000x64 S1000x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .bf16 = 32 ∨ (Rect.block (s := S100000x64) S5000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S100000x1.size a
  hwx2_3 : ∀ i : grid2.Coords, EltTy.bits .i32 = 32 ∨ (Rect.block (s := S100000x1) S2000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1000x1.size a ≤ S1000x1.size a
  hwx2_4 : ∀ i : grid2.Coords, EltTy.bits .f32 = 32 ∨ (Rect.block (s := S1000x1) S1000x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1000x64.size a ≤ S1000x64.size a
  hwx2_5 : ∀ i : grid2.Coords, EltTy.bits .f32 = 32 ∨ (Rect.block (s := S1000x64) S1000x64.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x1000_S2000x64_S1000x64_0_0_1_1_n_n : DotDims S2000x1000 S2000x64 S1000x64 where
  lhsContracting := [0]
  rhsContracting := [0]
  lhsNonContracting := [1]
  rhsNonContracting := [1]
  lhsBatch := []
  rhsBatch := []
  wf := dot_S2000x1000_S2000x64_S1000x64_0_0_1_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v27) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v39) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v50) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v26) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v24) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v23) S1000x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S1000x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S64x64 : Shape := ⟨2, ![64, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1000 : Shape := ⟨1, ![1000]⟩
abbrev S100000x1 : Shape := ⟨2, ![100000, 1]⟩
abbrev S1000x64 : Shape := ⟨2, ![1000, 64]⟩
abbrev S1000x1 : Shape := ⟨2, ![1000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S1700000x1, .f32⟩
  | .hbm, ⟨44, _⟩ => ⟨S100000x64, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S100000x64, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x64, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S1000, .f32⟩
  | .hbm, ⟨92, _⟩ => ⟨S100000x1, .i32⟩
  | .hbm, ⟨93, _⟩ => ⟨S1000, .f32⟩
  | .hbm, ⟨94, _⟩ => ⟨S_, .f32⟩
  | .hbm, ⟨95, _⟩ => ⟨S1000x64, .f32⟩
  | .hbm, ⟨96, _⟩ => ⟨S100000x1, .i32⟩
  | .hbm, ⟨97, _⟩ => ⟨S1000x64, .f32⟩
  | .hbm, ⟨98, _⟩ => ⟨S_, .f32⟩
  | .hbm, ⟨99, _⟩ => ⟨S1000, .f32⟩
  | .hbm, ⟨100, _⟩ => ⟨S1000, .f32⟩
  | .hbm, ⟨101, _⟩ => ⟨S1000x1, .f32⟩
  | .hbm, ⟨102, _⟩ => ⟨S1000x64, .f32⟩
  | .hbm, ⟨103, _⟩ => ⟨S1000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_cst : Ref sig .tc := ⟨.hbm, 63, rfl⟩
abbrev main_call0_v0 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call1_cst : Ref sig .tc := ⟨.hbm, 85, rfl⟩
abbrev main_call1_v0 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000 : S_.BroadcastsInDim S1000 (![] : Fin 0 → Fin S1000.rank)
  bcast_S100000_S100000x1_0 : S100000.BroadcastsInDim S100000x1 (![0] : Fin 1 → Fin S100000x1.rank)
  bcast_S_S1000x64 : S_.BroadcastsInDim S1000x64 (![] : Fin 0 → Fin S1000x64.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S1000_S100000x1_S100000_n_0_0_1_wf : ScatterDims.WF S1000 S100000x1 S100000 [] [0] [0] 1
  scatter_S1000x64_S100000x1_S100000x64_1_0_0_1_wf : ScatterDims.WF S1000x64 S100000x1 S100000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf

class Facts : Prop extends Facts₀ where

variable [Facts]
-- ==== Proof.Fr.Region0.lean ====
/-
  The first kernel region (the linear layer with the source-side scale), at the contents `V` the unscoped buffers hold
  when the region is entered. Per grid point the body loads the row block of the node features, the whole weight
  matrix and the row block of the scale column, and stores ONE whole block: the product of the feature block with
  the weights, each row scaled by its entry of the column. So the output window's staging buffer after the body is
  that single store's value (`out0_3`), the inputs' buffers are left at their blocks, nothing is carried between
  points and nothing is owed: the proof data `dat0` says exactly this, and `body_obligation0` proves the body meets it.
-/
import proofs.«430571_j90941637525518_3_alg».proof.Proof.PatchedKernelIdealLaunch
import proofs.«430571_j90941637525518_3_alg».proof.Proof.Gen.KernelIdeal.Skeleton
import proofs.«430571_j90941637525518_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rx0 : Rect S5000x64 := Rect.unit (s := S5000x64) ![0, 0] S5000x64.size inb_S5000x64_S5000x64_0_0
abbrev rw0 : Rect S64x64 := Rect.unit (s := S64x64) ![0, 0] S64x64.size inb_S64x64_S64x64_0_0
abbrev rd0 : Rect S5000x1 := Rect.unit (s := S5000x1) ![0, 0] S5000x1.size inb_S5000x1_S5000x1_0_0

/-- The output window's staging buffer after the body, from the three input blocks: its one store. -/
def out0_3 (x0 : Vec F S5000x64 .f32) (x1 : Vec F S64x64 .f32) (x2 : Vec F S5000x1 .f32) : Vec F S5000x64 .bf16 :=
  View.canon [⟨rx0, k0_pay1 (View.ld x0 rx0) (View.ld x1 rw0) (View.ld x2 rd0)⟩]

/-- The one store covers the buffer. -/
theorem cover0_3 (p0 : Vec F S5000x64 .bf16) (y : S5000x64.Idx) :
    ∃ pc ∈ ([⟨rx0, p0⟩] : List (View.Piece (Elt F) S5000x64 .bf16)), y ∈ pc.1.set :=
  View.cover_of_tiled [⟨rx0, p0⟩] S5000x64.size (by rfl) y

/-! ## The body's triple -/

set_option maxHeartbeats 1000000 in
/-- On whole staging memrefs, the inputs' at contents `x0 x1 x2` and the output's at anything, the body runs to the
    continuation holding the inputs' as they were and the output's at `out0_3 x0 x1 x2`. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .bf16) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_scale_kernel i arg1 harg1 arg2 harg2 arg3 harg3 arg4 harg4) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Fr.Region1.lean ====
/-
  The second kernel region (the fused layer boundary), at the contents `V` the unscoped buffers hold when the region is
  entered. Per grid point the body loads the row block of the aggregated messages, the row block of the scale column,
  the bias row and the whole weight matrix, and stores ONE whole block: the rows scaled, the bias added, the rectifier
  applied, the product with the weights taken, and each row scaled again. The output window's staging buffer after the
  body is that single store's value (`out1_4`); the inputs' buffers are left at their blocks; nothing is carried between
  points and nothing is owed.
-/
import proofs.«430571_j90941637525518_3_alg».proof.Proof.PatchedKernelIdealLaunch
import proofs.«430571_j90941637525518_3_alg».proof.Proof.Gen.KernelIdeal.Skeleton
import proofs.«430571_j90941637525518_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev ra1 : Rect S5000x64 := Rect.unit (s := S5000x64) ![0, 0] S5000x64.size inb_S5000x64_S5000x64_0_0
abbrev rd1 : Rect S5000x1 := Rect.unit (s := S5000x1) ![0, 0] S5000x1.size inb_S5000x1_S5000x1_0_0
abbrev rb1 : Rect S1x64 := Rect.unit (s := S1x64) ![0, 0] S1x64.size inb_S1x64_S1x64_0_0
abbrev rw1 : Rect S64x64 := Rect.unit (s := S64x64) ![0, 0] S64x64.size inb_S64x64_S64x64_0_0

/-- The output window's staging buffer after the body, from the four input blocks (aggregate, scale column, bias row,
    weights): its one store. The scale column is loaded twice, once for each scaling. -/
def out1_4 (x0 : Vec F S5000x64 .f32) (x1 : Vec F S5000x1 .f32) (x2 : Vec F S1x64 .f32) (x3 : Vec F S64x64 .f32) : Vec F S5000x64 .bf16 :=
  View.canon [⟨ra1, k1_pay1 (View.ld x1 rd1) (View.ld x0 ra1) (View.ld x2 rb1) (View.ld x3 rw1) (View.ld x1 rd1)⟩]

/-- The one store covers the buffer. -/
theorem cover1_4 (p0 : Vec F S5000x64 .bf16) (y : S5000x64.Idx) :
    ∃ pc ∈ ([⟨ra1, p0⟩] : List (View.Piece (Elt F) S5000x64 .bf16)), y ∈ pc.1.set :=
  View.cover_of_tiled [⟨ra1, p0⟩] S5000x64.size (by rfl) y

/-! ## The body's triple -/

set_option maxHeartbeats 1000000 in
/-- On whole staging memrefs, the inputs' at contents `x0 … x3` and the output's at anything, the body runs to the
    continuation holding the inputs' as they were and the output's at `out1_4 x0 x1 x2 x3`. -/
theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gcn_mid_kernel i arg1 harg1 arg2 harg2 arg3 harg3 arg4 harg4 arg5 harg5) K := by
  simp only [cc1__gcn_mid_kernel_eq_skeleton]; unfold cc1__gcn_mid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this pipeline on core `c`: the arrays as the region finds them; after the body at point `t` each
    input's buffer at its block and the output's at `out1_4` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.Fr.Region2.lean ====
/-
  The third kernel region (the mean pool), at the contents `V` the unscoped buffers hold when the region is entered.
  The body keeps a running sum in a scratch buffer across the grid's points: at the first point it zeroes the scratch;
  at every point it adds, per graph, the sum of the rectified rows of the point's block that belong to the graph (a
  product with the block's one-hot membership matrix); at the last point it stores the scratch, each row scaled by
  the reciprocal of the graph's size, into the output window, which is written back only then. So the body has three
  control cases — first, middle, last point —, the scratch's contents after a point depend on what the point before
  left, and the output's buffer matters only at the last point.
-/
import proofs.«430571_j90941637525518_3_alg».proof.Proof.PatchedKernelIdealLaunch
import proofs.«430571_j90941637525518_3_alg».proof.Proof.Gen.KernelIdeal.Skeleton
import proofs.«430571_j90941637525518_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "this is the first point", as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 50 = 0 :=
  (by decide +kernel : ∀ t : Fin grid2.N, cond2_0 (grid2.coords t) ↔ t.val % 50 = 0)
/-- "this is the last point". -/
abbrev cond2_1 (i : grid2.Coords) : Prop := k2_cond2 i = 1#1
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle: the inputs never; the output everywhere but the last point, where alone it is written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The memrefs the body is called with -/

/-- One staging buffer of the output window, through which its contents are stated. -/
abbrev VO2_5 : View sig .tc .vmem S1000x64 .f32 := (Memref.whole cc2_stg5_0 : Memref sig .tc .vmem S1000x64 .f32).view
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1000x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1000x64 .f32 := win2_5.stage (cfg2.slots t 5)
abbrev hs2_5 (t : Fin cfg2.N) : (ms2_5 t).IsWhole := hstage2_5 ((cfg2.slots t 5).cast nbuf2_5)
/-- The scratch operand: a whole scoped buffer of the kernel's own, passed beside the windows. -/
abbrev scM2_0 : Memref sig .tc .vmem S1000x64 .f32 := Memref.whole cc2_scratch0
abbrev VS2_0 : View sig .tc .vmem S1000x64 .f32 := scM2_0.view

/-! ## The region's invariant before the first point, split: the scratch, the other scoped buffers, the generator register -/

/-- The core's scoped buffers that are neither a staging buffer of this pipeline nor its scratch, each whole at some
    contents: the body never touches them. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem scratch_some (c : Dev nD) :
    (iprop(∃ d, owns (c : Thread nD τ) scM2_0 fullShare d) : sProp 𝕄) = iprop((∃ f : Buf (Elt F) ((c : Thread nD τ).loc cc2_scratch0), ((c : Thread nD τ).loc cc2_scratch0) ↦{fullShare} f)) := by
  simp only [scM2_0, owns_whole]; rfl

theorem PhiA2_open (c : Dev nD) :
    (Pipeline.ΦA spec2 c : sProp 𝕄) ⊢ iprop((∃ d, owns (c : Thread nD τ) scM2_0 fullShare d) ∗ others2 c ∗ (∃ r, prngReg c r)) := by
  unfold Pipeline.ΦA others2; rw [scopedRest2_eq, scratch_some]
  iintro ⟨⟨B0, B1, B2, B3, B4, B5, B6, B7, B8, B9, B10, B11, B12, B13, B14, HS⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact Hg

theorem PhiA2_close (c : Dev nD) :
    iprop((∃ d, owns (c : Thread nD τ) scM2_0 fullShare d) ∗ others2 c ∗ (∃ r, prngReg c r)) ⊢ (Pipeline.ΦA spec2 c : sProp 𝕄) := by
  unfold Pipeline.ΦA others2; rw [scopedRest2_eq, scratch_some]
  iintro ⟨HS, ⟨B0, B1, B2, B3, B4, B5, B6, B7, B8, B9, B10, B11, B12, B13, B14⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact HS
  iexact Hg

/-! ## The body's runs, one per control case -/

set_option maxHeartbeats 2000000 in
/-- Case A of the body (the first point: the accumulator is reset, then added to; the output is not stored): the pieces the body's
    stores leave in the output's staging memref and in the scratch, WITH the proof that on whole memrefs — the inputs' at
    their contents, the output's at contents handed back untouched, the scratch at anything — the body runs
    to the continuation holding the inputs' as they were and each stored buffer with its pieces written. -/
noncomputable def kernelRun2_A (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : cond2_0 i) (hc1 : ¬cond2_1 i)
    (x0 : Vec F S2000x64 .f32) (x1 : Vec F S2000x1 .f32) (x2 : Vec F S1x64 .f32) (x3 : Vec F S2000x1 .i32) (x4 : Vec F S1000x1 .f32) :
    Σ' (L5 : List (View.Piece (Elt F) S1000x64 .f32)), { LS0 : List (View.Piece (Elt F) S1000x64 .f32) //
      ∀ (xi5 : Vec F S1000x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨[], ?_, fun xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 2000000 in
/-- Case B of the body (a middle point: the accumulator is added to; the output is not stored): the pieces the body's
    stores leave in the output's staging memref and in the scratch, WITH the proof that on whole memrefs — the inputs' at
    their contents, the output's at contents handed back untouched, the scratch at what the point before left — the body runs
    to the continuation holding the inputs' as they were and each stored buffer with its pieces written. -/
noncomputable def kernelRun2_B (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : ¬cond2_1 i)
    (x0 : Vec F S2000x64 .f32) (x1 : Vec F S2000x1 .f32) (x2 : Vec F S1x64 .f32) (x3 : Vec F S2000x1 .i32) (x4 : Vec F S1000x1 .f32) (xs0 : Vec F S1000x64 .f32) :
    Σ' (L5 : List (View.Piece (Elt F) S1000x64 .f32)), { LS0 : List (View.Piece (Elt F) S1000x64 .f32) //
      ∀ (xi5 : Vec F S1000x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨[], ?_, fun xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 2000000 in
/-- Case C of the body (the last point: the accumulator is added to, and the output is stored from it): the pieces the body's
    stores leave in the output's staging memref and in the scratch, WITH the proof that on whole memrefs — the inputs' at
    their contents, the output's at anything, the scratch at what the point before left — the body runs
    to the continuation holding the inputs' as they were and each stored buffer with its pieces written. -/
noncomputable def kernelRun2_C (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) :
    Σ' (L5 : List (View.Piece (Elt F) S1000x64 .f32)), { LS0 : List (View.Piece (Elt F) S1000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

/-! ## What each case leaves -/

/-- What case A leaves in the output's staging buffer: its pieces read back over junk (no piece: a placeholder nothing consults, the window being idle and not written back at the case's points). -/
def out2_A_5 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : cond2_0 i) (hc1 : ¬cond2_1 i)
    (x0 : Vec F S2000x64 .f32) (x1 : Vec F S2000x1 .f32) (x2 : Vec F S1x64 .f32) (x3 : Vec F S2000x1 .i32) (x4 : Vec F S1000x1 .f32) : Vec F S1000x64 .f32 :=
  VO2_5.read (Elt F) (VO2_5.writes (Elt F) VO2_5.junk (kernelRun2_A c i arg1 harg1 arg2 harg2 arg3 harg3 arg4 harg4 arg5 harg5 arg6 harg6 arg7 harg7 hc0 hc1 x0 x1 x2 x3 x4).1)
/-- Case A's pieces for the scratch tile it, so they cover it. -/
theorem scover2_A_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : cond2_0 i) (hc1 : ¬cond2_1 i)
    (x0 : Vec F S2000x64 .f32) (x1 : Vec F S2000x1 .f32) (x2 : Vec F S1x64 .f32) (x3 : Vec F S2000x1 .i32) (x4 : Vec F S1000x1 .f32) (y : S1000x64.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S1000x64.size (by sl_kernel_rfl) y
/-- What case A leaves in the scratch: its pieces read back over junk. -/
def sout2_A_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : cond2_0 i) (hc1 : ¬cond2_1 i)
    (x0 : Vec F S2000x64 .f32) (x1 : Vec F S2000x1 .f32) (x2 : Vec F S1x64 .f32) (x3 : Vec F S2000x1 .i32) (x4 : Vec F S1000x1 .f32) : Vec F S1000x64 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1 x2 x3 x4).2.1)

/-- What case B leaves in the output's staging buffer: its pieces read back over junk (no piece: a placeholder nothing consults, the window being idle and not written back at the case's points). -/
def out2_B_5 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : ¬cond2_1 i)
    (x0 : Vec F S2000x64 .f32) (x1 : Vec F S2000x1 .f32) (x2 : Vec F S1x64 .f32) (x3 : Vec F S2000x1 .i32) (x4 : Vec F S1000x1 .f32) (xs0 : Vec F S1000x64 .f32) : Vec F S1000x64 .f32 :=
  VO2_5.read (Elt F) (VO2_5.writes (Elt F) VO2_5.junk (kernelRun2_B c i arg1 harg1 arg2 harg2 arg3 harg3 arg4 harg4 arg5 harg5 arg6 harg6 arg7 harg7 hc0 hc1 x0 x1 x2 x3 x4 xs0).1)
/-- Case B's pieces for the scratch tile it, so they cover it. -/
theorem scover2_B_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : ¬cond2_1 i)
    (x0 : Vec F S2000x64 .f32) (x1 : Vec F S2000x1 .f32) (x2 : Vec F S1x64 .f32) (x3 : Vec F S2000x1 .i32) (x4 : Vec F S1000x1 .f32) (xs0 : Vec F S1000x64 .f32) (y : S1000x64.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S1000x64.size (by sl_kernel_rfl) y
/-- What case B leaves in the scratch: its pieces read back over junk. -/
def sout2_B_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : ¬cond2_1 i)
    (x0 : Vec F S2000x64 .f32) (x1 : Vec F S2000x1 .f32) (x2 : Vec F S1x64 .f32) (x3 : Vec F S2000x1 .i32) (x4 : Vec F S1000x1 .f32) (xs0 : Vec F S1000x64 .f32) : Vec F S1000x64 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 x2 x3 x4 xs0).2.1)

/-- What case C leaves in the output's staging buffer: its pieces read back over junk. -/
def out2_C_5 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) : Vec F S1000x64 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs0).1)
/-- Case C's pieces for the output tile its block, so they cover it. -/
theorem cover2_C_5 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) (y : S1000x64.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S1000x64.size (by sl_kernel_rfl) y
/-- Case C's pieces for the scratch tile it, so they cover it. -/
theorem scover2_C_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) (y : S1000x64.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S1000x64.size (by sl_kernel_rfl) y
/-- What case C leaves in the scratch: its pieces read back over junk. -/
def sout2_C_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) : Vec F S1000x64 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 x4 xs0).2.1)

/-! ## What the output's buffer and the scratch hold after each point -/

/-- THE ACCUMULATION. What the output's staging buffer and the scratch hold after the body at position `n` (a pair): the case the
    closed forms select at `n`, run at the point's memrefs and input blocks, the scratch it reads at what this leaves at `n - 1`. -/
def outsAt2 (c : Dev nD) : (n : ℕ) → n < cfg2.N → Vec F S1000x64 .f32 × Vec F S1000x64 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 50 = 0 then
      if h1 : (n + 1) % 50 = 49 then
        False.elim (by have hN : n + 1 < 50 := lt_of_lt_of_eq hn (show cfg2.N = 50 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 50 = 49 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 50 = 0) (h1 : ¬t.val % 50 = 49) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 50 = 0) (h1 : ¬t.val % 50 = 49) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 50 = 0) (h1 : t.val % 50 = 49) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region (every scoped buffer
    at anything, the generator register); afterwards the scratch at what the point before left in it, the other scoped
    buffers at anything, the generator register at some state. -/
def PhiS2 (c : Dev nD) : (n : ℕ) → n ≤ cfg2.N → sProp 𝕄
  | 0, _ => Pipeline.ΦA spec2 c
  | n + 1, hn => iprop(owns (c : Thread nD τ) scM2_0 fullShare ((outsAt2 V c n hn).2) ∗ others2 c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2_0 fullShare ((outsAt2 V c n hn).2) ∗ others2 c ∗ (∃ r, prngReg c r)) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2) ∗ others2 c ∗ (∃ r, prngReg c r)) := by
  cases n with
  | zero => exact absurd rfl hz
  | succ n => rfl

/-! ## The pipeline's proof data -/

/-- The proof data of this pipeline on core `c`: the arrays as the region finds them; after the body at point `t` each input's
    buffer at its block and the output's at the accumulation's first component; the invariant carrying the scratch at
    the accumulation's second component; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the closed forms say which case the point is in; the invariant
    hands the body the scratch at what the point before left (at anything at the first point) and takes it back at this
    point's contents; where the output is idle its buffer is handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 50 = 0
  · by_cases h1 : t.val % 50 = 49
    · exfalso; omega
    · rw [Dat.leavesExact_idle (dat2 V c) 5 t (idleAt2_5 t (fun h => h1 ((hcond2_1 t).mp h))) (noFlush2_5 t (fun h => h1 ((hcond2_1 t).mp h)))]
      rw [outsAt2_A V c t h0 h1]
      unfold sout2_A_0; (try dsimp only)
      have hz : t.val = 0 := by omega
      rw [PhiS2_castSucc V c t, PhiS2_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA2_open c) $$ HΦ
      icases HΦ' with ⟨HS0, Hoth, Hg⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 50 = 49
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_5 sout2_C_0; (try dsimp only)
      rw [PhiS2_castSucc V c t, PhiS2_pos V c _ _ hz]
      iintro ⟨⟨HS0, Hoth, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hoth Hg]
      · isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B_0; (try dsimp only)
      rw [PhiS2_castSucc V c t, PhiS2_pos V c _ _ hz]
      iintro ⟨⟨HS0, Hoth, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0]
        · unfold owns; iexists _; isplitr
          swap; · iexact HS0
          ipureintro; exact View.read_writes_of_cover _ _ _ _ _ (scover2_B_0 c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- The scratch at any named contents, the other scoped buffers and the generator register give back what the launch handed
    the region: the scratch's contents are forgotten. -/
theorem scratch_forget (c : Dev nD) (x : Vec F S1000x64 .f32) :
    (iprop(owns (c : Thread nD τ) scM2_0 fullShare x ∗ others2 c ∗ (∃ r, prngReg c r)) : sProp 𝕄) ⊢ Pipeline.ΦA spec2 c := by
  have h : (iprop(owns (c : Thread nD τ) scM2_0 fullShare x ∗ others2 c ∗ (∃ r, prngReg c r)) : sProp 𝕄)
      ⊢ iprop((∃ d, owns (c : Thread nD τ) scM2_0 fullShare d) ∗ others2 c ∗ (∃ r, prngReg c r)) := by
    iintro ⟨HS0, Hoth, Hg⟩
    isplitl [HS0]; · iexists _; iexact HS0
    isplitl [Hoth]; · iexact Hoth
    iexact Hg
  exact h.trans (PhiA2_close c)

/-- After the last point the invariant gives back what the launch handed the region. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 50 := N_2; omega)]
  exact scratch_forget c _

end Cert.KernelIdeal.Fr

end
-- ==== Proof.Fr.Run.lean ====
/-
  The run of the whole program: a stretch of host operations, the first kernel region, a second stretch, the second
  region, a third stretch, the third region. The contents of the core's unscoped buffers are followed through @main as
  a fold (`W0` … `W6`): a host stretch applies its operations; a region leaves its input arrays as entered and its output
  array at what its write-backs leave, and every other buffer as entered. Each region is entered from the boundary
  before it and left at the boundary after it; the last boundary's contents are read against the final memory. From
  that one run follow the frame (no stretch writes an argument and no region's output is one) and, for the value
  claim, what the result buffer holds: the last region's output array after its write-backs.
-/
import proofs.«430571_j90941637525518_3_alg».proof.Proof.PatchedKernelIdealLaunch
import proofs.«430571_j90941637525518_3_alg».proof.Proof.Gen.KernelIdeal.Skeleton
import proofs.«430571_j90941637525518_3_alg».proof.Proof.Gen.KernelIdeal.Points
import proofs.«430571_j90941637525518_3_alg».proof.Proof.PatchedKernelIdealRegions
import proofs.«430571_j90941637525518_3_alg».proof.Proof.Fr.Region0
import proofs.«430571_j90941637525518_3_alg».proof.Proof.Fr.Region1
import proofs.«430571_j90941637525518_3_alg».proof.Proof.Fr.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, the output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- The result buffer ends at what the last region's write-backs leave in its output array. -/
theorem W6_main_v0 (c : Dev nD) : W6 m ρ c (Proc.devRef .tc main_v0) = (dat2 (V5 m ρ) c).arrAt 5 cfg2.N :=
  W6_arr m ρ c 5

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are split out of
    the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out of
    the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩) (run_all m ρ)

/-- THE RUN WITH THE RESULT NAMED: besides the frame, the result buffer ends at what the last region's write-backs leave in
    its output array. -/
theorem run_value : θ_run defs (onTc (τ := τ) (main (F := F))) ⟨m, fun _ => 0, ρ⟩ (fun r => ∀ c : Dev nD,
      r.2.mem ((c.tc : Thread nD τ).loc main_v0) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v0 (by decide))).trans (W6_main_v0 m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩) (run_all m ρ)

end Cert.KernelIdeal.Fr

end
-- ==== Proof.FrK.Region0.lean ====
/-
  The first kernel region (the linear layer with the source-side scale), at the contents `V` the unscoped buffers hold
  when the region is entered. Per grid point the body loads the row block of the node features, the whole weight
  matrix and the row block of the scale column, and stores ONE whole block: the product of the feature block with
  the weights, each row scaled by its entry of the column. So the output window's staging buffer after the body is
  that single store's value (`out0_3`), the inputs' buffers are left at their blocks, nothing is carried between
  points and nothing is owed: the proof data `dat0` says exactly this, and `body_obligation0` proves the body meets it.
-/
import proofs.«430571_j90941637525518_3_alg».proof.Proof.PatchedKernelLaunch
import proofs.«430571_j90941637525518_3_alg».proof.Proof.Gen.Kernel.Skeleton
import proofs.«430571_j90941637525518_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched
    window's block index has not moved), for any proof data whose array is `V`'s and whose body leaves the block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole buffer -/

abbrev rx0 : Rect S5000x64 := Rect.unit (s := S5000x64) ![0, 0] S5000x64.size inb_S5000x64_S5000x64_0_0
abbrev rw0 : Rect S64x64 := Rect.unit (s := S64x64) ![0, 0] S64x64.size inb_S64x64_S64x64_0_0
abbrev rd0 : Rect S5000x1 := Rect.unit (s := S5000x1) ![0, 0] S5000x1.size inb_S5000x1_S5000x1_0_0

/-- The output window's staging buffer after the body, from the three input blocks: its one store. -/
def out0_3 (x0 : Vec F S5000x64 .f32) (x1 : Vec F S64x64 .f32) (x2 : Vec F S5000x1 .f32) : Vec F S5000x64 .bf16 :=
  View.canon [⟨rx0, k0_pay1 (View.ld x0 rx0) (View.ld x1 rw0) (View.ld x2 rd0)⟩]

/-- The one store covers the buffer. -/
theorem cover0_3 (p0 : Vec F S5000x64 .bf16) (y : S5000x64.Idx) :
    ∃ pc ∈ ([⟨rx0, p0⟩] : List (View.Piece (Elt F) S5000x64 .bf16)), y ∈ pc.1.set :=
  View.cover_of_tiled [⟨rx0, p0⟩] S5000x64.size (by rfl) y

/-! ## The body's triple -/

set_option maxHeartbeats 1000000 in
/-- On whole staging memrefs, the inputs' at contents `x0 x1 x2` and the output's at anything, the body runs to the
    continuation holding the inputs' as they were and the output's at `out0_3 x0 x1 x2`. -/
theorem sound_kernel0 (c : Dev nD) (E : Set ℕ) (i : grid0.Coords)
    (arg1 : Memref sig .tc .vmem S5000x64 .f32) (harg1 : arg1.IsWhole) (arg2 : Memref sig .tc .vmem S64x64 .f32) (harg2 : arg2.IsWhole)
    (arg3 : Memref sig .tc .vmem S5000x1 .f32) (harg3 : arg3.IsWhole) (arg4 : Memref sig .tc .vmem S5000x64 .bf16) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_scale_kernel i arg1 harg1 arg2 harg2 arg3 harg3 arg4 harg4) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this pipeline on core `c`: the arrays as the region finds them; after the body at point `t` each
    input's buffer at its block and the output's at `out0_3` of the input blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrK.Region1.lean ====
/-
  The second kernel region (the fused layer boundary), at the contents `V` the unscoped buffers hold when the region is
  entered. Per grid point the body loads the row block of the aggregated messages, the row block of the scale column,
  the bias row and the whole weight matrix, and stores ONE whole block: the rows scaled, the bias added, the rectifier
  applied, the product with the weights taken, and each row scaled again. The output window's staging buffer after the
  body is that single store's value (`out1_4`); the inputs' buffers are left at their blocks; nothing is carried between
  points and nothing is owed.
-/
import proofs.«430571_j90941637525518_3_alg».proof.Proof.PatchedKernelLaunch
import proofs.«430571_j90941637525518_3_alg».proof.Proof.Gen.Kernel.Skeleton
import proofs.«430571_j90941637525518_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole buffer -/

abbrev ra1 : Rect S5000x64 := Rect.unit (s := S5000x64) ![0, 0] S5000x64.size inb_S5000x64_S5000x64_0_0
abbrev rd1 : Rect S5000x1 := Rect.unit (s := S5000x1) ![0, 0] S5000x1.size inb_S5000x1_S5000x1_0_0
abbrev rb1 : Rect S1x64 := Rect.unit (s := S1x64) ![0, 0] S1x64.size inb_S1x64_S1x64_0_0
abbrev rw1 : Rect S64x64 := Rect.unit (s := S64x64) ![0, 0] S64x64.size inb_S64x64_S64x64_0_0

/-- The output window's staging buffer after the body, from the four input blocks (aggregate, scale column, bias row,
    weights): its one store. The scale column is loaded twice, once for each scaling. -/
def out1_4 (x0 : Vec F S5000x64 .f32) (x1 : Vec F S5000x1 .f32) (x2 : Vec F S1x64 .f32) (x3 : Vec F S64x64 .f32) : Vec F S5000x64 .bf16 :=
  View.canon [⟨ra1, k1_pay1 (View.ld x1 rd1) (View.ld x0 ra1) (View.ld x2 rb1) (View.ld x3 rw1) (View.ld x1 rd1)⟩]

/-- The one store covers the buffer. -/
theorem cover1_4 (p0 : Vec F S5000x64 .bf16) (y : S5000x64.Idx) :
    ∃ pc ∈ ([⟨ra1, p0⟩] : List (View.Piece (Elt F) S5000x64 .bf16)), y ∈ pc.1.set :=
  View.cover_of_tiled [⟨ra1, p0⟩] S5000x64.size (by rfl) y

/-! ## The body's triple -/

set_option maxHeartbeats 1000000 in
/-- On whole staging memrefs, the inputs' at contents `x0 … x3` and the output's at anything, the body runs to the
    continuation holding the inputs' as they were and the output's at `out1_4 x0 x1 x2 x3`. -/
theorem sound_kernel1 (c : Dev nD) (E : Set ℕ) (i : grid1.Coords)
    (arg1 : Memref sig .tc .vmem S5000x64 .f32) (harg1 : arg1.IsWhole) (arg2 : Memref sig .tc .vmem S5000x1 .f32) (harg2 : arg2.IsWhole)
    (arg3 : Memref sig .tc .vmem S1x64 .f32) (harg3 : arg3.IsWhole) (arg4 : Memref sig .tc .vmem S64x64 .f32) (harg4 : arg4.IsWhole)
    (arg5 : Memref sig .tc .vmem S5000x64 .bf16) (harg5 : arg5.IsWhole)
    (x0 : Vec F S5000x64 .f32) (x1 : Vec F S5000x1 .f32) (x2 : Vec F S1x64 .f32) (x3 : Vec F S64x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__gcn_mid_kernel i arg1 harg1 arg2 harg2 arg3 harg3 arg4 harg4 arg5 harg5) K := by
  simp only [cc1__gcn_mid_kernel_eq_skeleton]; unfold cc1__gcn_mid_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of this pipeline on core `c`: the arrays as the region finds them; after the body at point `t` each
    input's buffer at its block and the output's at `out1_4` of the input blocks; the invariant the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.FrK.Region2.lean ====
/-
  The third kernel region (the mean pool), at the contents `V` the unscoped buffers hold when the region is entered.
  The body keeps a running sum in a scratch buffer across the grid's points: at the first point it zeroes the scratch;
  at every point it adds, per graph, the sum of the rectified rows of the point's block that belong to the graph (a
  product with the block's one-hot membership matrix); at the last point it stores the scratch, each row scaled by
  the reciprocal of the graph's size, into the output window, which is written back only then. So the body has three
  control cases — first, middle, last point —, the scratch's contents after a point depend on what the point before
  left, and the output's buffer matters only at the last point.
-/
import proofs.«430571_j90941637525518_3_alg».proof.Proof.PatchedKernelLaunch
import proofs.«430571_j90941637525518_3_alg».proof.Proof.Gen.Kernel.Skeleton
import proofs.«430571_j90941637525518_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "this is the first point", as the body computes it from the grid coordinate. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 50 = 0 :=
  (by decide +kernel : ∀ t : Fin grid2.N, cond2_0 (grid2.coords t) ↔ t.val % 50 = 0)
/-- "this is the last point". -/
abbrev cond2_1 (i : grid2.Coords) : Prop := k2_cond2 i = 1#1
theorem hcond2_1 : ∀ t : Fin cfg2.N, cond2_1 (grid2.coords t) ↔ t.val % 50 = 49 :=
  (by decide +kernel : ∀ t : Fin grid2.N, cond2_1 (grid2.coords t) ↔ t.val % 50 = 49)

/-! ## Where the windows are idle: the inputs never; the output everywhere but the last point, where alone it is written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_5 : ∀ t : Fin cfg2.N, cond2_1 (grid2.coords t) → cfg2.idle 5 (grid2.coords t) = false := by decide +kernel

/-! ## The memrefs the body is called with -/

/-- One staging buffer of the output window, through which its contents are stated. -/
abbrev VO2_5 : View sig .tc .vmem S1000x64 .f32 := (Memref.whole cc2_stg5_0 : Memref sig .tc .vmem S1000x64 .f32).view
abbrev ms2_0 (t : Fin cfg2.N) : Memref sig .tc .vmem S2000x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1000x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1000x64 .f32 := win2_5.stage (cfg2.slots t 5)
abbrev hs2_5 (t : Fin cfg2.N) : (ms2_5 t).IsWhole := hstage2_5 ((cfg2.slots t 5).cast nbuf2_5)
/-- The scratch operand: a whole scoped buffer of the kernel's own, passed beside the windows. -/
abbrev scM2_0 : Memref sig .tc .vmem S1000x64 .f32 := Memref.whole cc2_scratch0
abbrev VS2_0 : View sig .tc .vmem S1000x64 .f32 := scM2_0.view

/-! ## The region's invariant before the first point, split: the scratch, the other scoped buffers, the generator register -/

/-- The core's scoped buffers that are neither a staging buffer of this pipeline nor its scratch, each whole at some
    contents: the body never touches them. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

theorem scratch_some (c : Dev nD) :
    (iprop(∃ d, owns (c : Thread nD τ) scM2_0 fullShare d) : sProp 𝕄) = iprop((∃ f : Buf (Elt F) ((c : Thread nD τ).loc cc2_scratch0), ((c : Thread nD τ).loc cc2_scratch0) ↦{fullShare} f)) := by
  simp only [scM2_0, owns_whole]; rfl

theorem PhiA2_open (c : Dev nD) :
    (Pipeline.ΦA spec2 c : sProp 𝕄) ⊢ iprop((∃ d, owns (c : Thread nD τ) scM2_0 fullShare d) ∗ others2 c ∗ (∃ r, prngReg c r)) := by
  unfold Pipeline.ΦA others2; rw [scopedRest2_eq, scratch_some]
  iintro ⟨⟨B0, B1, B2, B3, B4, B5, B6, B7, B8, B9, B10, B11, B12, B13, B14, HS⟩, Hg⟩
  isplitl [HS]; · iexact HS
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    iexact B14
  iexact Hg

theorem PhiA2_close (c : Dev nD) :
    iprop((∃ d, owns (c : Thread nD τ) scM2_0 fullShare d) ∗ others2 c ∗ (∃ r, prngReg c r)) ⊢ (Pipeline.ΦA spec2 c : sProp 𝕄) := by
  unfold Pipeline.ΦA others2; rw [scopedRest2_eq, scratch_some]
  iintro ⟨HS, ⟨B0, B1, B2, B3, B4, B5, B6, B7, B8, B9, B10, B11, B12, B13, B14⟩, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [B13]; · iexact B13
    isplitl [B14]; · iexact B14
    iexact HS
  iexact Hg

/-! ## The body's runs, one per control case -/

set_option maxHeartbeats 2000000 in
/-- Case A of the body (the first point: the accumulator is reset, then added to; the output is not stored): the pieces the body's
    stores leave in the output's staging memref and in the scratch, WITH the proof that on whole memrefs — the inputs' at
    their contents, the output's at contents handed back untouched, the scratch at anything — the body runs
    to the continuation holding the inputs' as they were and each stored buffer with its pieces written. -/
noncomputable def kernelRun2_A (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : cond2_0 i) (hc1 : ¬cond2_1 i)
    (x0 : Vec F S2000x64 .f32) (x1 : Vec F S2000x1 .f32) (x2 : Vec F S1x64 .f32) (x3 : Vec F S2000x1 .i32) (x4 : Vec F S1000x1 .f32) :
    Σ' (L5 : List (View.Piece (Elt F) S1000x64 .f32)), { LS0 : List (View.Piece (Elt F) S1000x64 .f32) //
      ∀ (xi5 : Vec F S1000x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨[], ?_, fun xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 2000000 in
/-- Case B of the body (a middle point: the accumulator is added to; the output is not stored): the pieces the body's
    stores leave in the output's staging memref and in the scratch, WITH the proof that on whole memrefs — the inputs' at
    their contents, the output's at contents handed back untouched, the scratch at what the point before left — the body runs
    to the continuation holding the inputs' as they were and each stored buffer with its pieces written. -/
noncomputable def kernelRun2_B (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : ¬cond2_1 i)
    (x0 : Vec F S2000x64 .f32) (x1 : Vec F S2000x1 .f32) (x2 : Vec F S1x64 .f32) (x3 : Vec F S2000x1 .i32) (x4 : Vec F S1000x1 .f32) (xs0 : Vec F S1000x64 .f32) :
    Σ' (L5 : List (View.Piece (Elt F) S1000x64 .f32)), { LS0 : List (View.Piece (Elt F) S1000x64 .f32) //
      ∀ (xi5 : Vec F S1000x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xi5 ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨[], ?_, fun xi5 E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact HS0

set_option maxHeartbeats 2000000 in
/-- Case C of the body (the last point: the accumulator is added to, and the output is stored from it): the pieces the body's
    stores leave in the output's staging memref and in the scratch, WITH the proof that on whole memrefs — the inputs' at
    their contents, the output's at anything, the scratch at what the point before left — the body runs
    to the continuation holding the inputs' as they were and each stored buffer with its pieces written. -/
noncomputable def kernelRun2_C (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) :
    Σ' (L5 : List (View.Piece (Elt F) S1000x64 .f32)), { LS0 : List (View.Piece (Elt F) S1000x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc2__pool_kernel i arg1 harg1 arg2 harg2 arg3 harg3 arg4 harg4 arg5 harg5 arg6 harg6 arg7 harg7) K } := by
  refine ⟨?_, ?_, fun E K => ?run⟩
  case run =>
    simp only [cc2__pool_kernel_eq_skeleton]; unfold cc2__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

/-! ## What each case leaves -/

/-- What case A leaves in the output's staging buffer: its pieces read back over junk (no piece: a placeholder nothing consults, the window being idle and not written back at the case's points). -/
def out2_A_5 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : cond2_0 i) (hc1 : ¬cond2_1 i)
    (x0 : Vec F S2000x64 .f32) (x1 : Vec F S2000x1 .f32) (x2 : Vec F S1x64 .f32) (x3 : Vec F S2000x1 .i32) (x4 : Vec F S1000x1 .f32) : Vec F S1000x64 .f32 :=
  VO2_5.read (Elt F) (VO2_5.writes (Elt F) VO2_5.junk (kernelRun2_A c i arg1 harg1 arg2 harg2 arg3 harg3 arg4 harg4 arg5 harg5 arg6 harg6 arg7 harg7 hc0 hc1 x0 x1 x2 x3 x4).1)
/-- Case A's pieces for the scratch tile it, so they cover it. -/
theorem scover2_A_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : cond2_0 i) (hc1 : ¬cond2_1 i)
    (x0 : Vec F S2000x64 .f32) (x1 : Vec F S2000x1 .f32) (x2 : Vec F S1x64 .f32) (x3 : Vec F S2000x1 .i32) (x4 : Vec F S1000x1 .f32) (y : S1000x64.Idx) :
    ∃ pc ∈ (kernelRun2_A c i arg1 harg1 arg2 harg2 arg3 harg3 arg4 harg4 arg5 harg5 arg6 harg6 arg7 harg7 hc0 hc1 x0 x1 x2 x3 x4).2.1, y ∈ pc.1.set :=
  View.cover_of_tiledL (kernelRun2_A c i arg1 harg1 arg2 harg2 arg3 harg3 arg4 harg4 arg5 harg5 arg6 harg6 arg7 harg7 hc0 hc1 x0 x1 x2 x3 x4).2.1 S1000x64.size (by sl_kernel_rfl) y
/-- What case A leaves in the scratch: its pieces read back over junk. -/
def sout2_A_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : cond2_0 i) (hc1 : ¬cond2_1 i)
    (x0 : Vec F S2000x64 .f32) (x1 : Vec F S2000x1 .f32) (x2 : Vec F S1x64 .f32) (x3 : Vec F S2000x1 .i32) (x4 : Vec F S1000x1 .f32) : Vec F S1000x64 .f32 :=
  VS2_0.read (Elt F) (VS2_0.writes (Elt F) VS2_0.junk (kernelRun2_A c i arg1 harg1 arg2 harg2 arg3 harg3 arg4 harg4 arg5 harg5 arg6 harg6 arg7 harg7 hc0 hc1 x0 x1 x2 x3 x4).2.1)

/-- What case B leaves in the output's staging buffer: its pieces read back over junk (no piece: a placeholder nothing consults, the window being idle and not written back at the case's points). -/
def out2_B_5 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : ¬cond2_1 i)
    (x0 : Vec F S2000x64 .f32) (x1 : Vec F S2000x1 .f32) (x2 : Vec F S1x64 .f32) (x3 : Vec F S2000x1 .i32) (x4 : Vec F S1000x1 .f32) (xs0 : Vec F S1000x64 .f32) : Vec F S1000x64 .f32 :=
  VO2_5.read (Elt F) (VO2_5.writes (Elt F) VO2_5.junk (kernelRun2_B c i arg1 harg1 arg2 harg2 arg3 harg3 arg4 harg4 arg5 harg5 arg6 harg6 arg7 harg7 hc0 hc1 x0 x1 x2 x3 x4 xs0).1)
/-- Case B's pieces for the scratch tile it, so they cover it. -/
theorem scover2_B_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : ¬cond2_1 i)
    (x0 : Vec F S2000x64 .f32) (x1 : Vec F S2000x1 .f32) (x2 : Vec F S1x64 .f32) (x3 : Vec F S2000x1 .i32) (x4 : Vec F S1000x1 .f32) (xs0 : Vec F S1000x64 .f32) (y : S1000x64.Idx) :
    ∃ pc ∈ (kernelRun2_B c i arg1 harg1 arg2 harg2 arg3 harg3 arg4 harg4 arg5 harg5 arg6 harg6 arg7 harg7 hc0 hc1 x0 x1 x2 x3 x4 xs0).2.1, y ∈ pc.1.set :=
  View.cover_of_tiledL (kernelRun2_B c i arg1 harg1 arg2 harg2 arg3 harg3 arg4 harg4 arg5 harg5 arg6 harg6 arg7 harg7 hc0 hc1 x0 x1 x2 x3 x4 xs0).2.1 S1000x64.size (by sl_kernel_rfl) y
/-- What case B leaves in the scratch: its pieces read back over junk. -/
def sout2_B_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : ¬cond2_1 i)
    (x0 : Vec F S2000x64 .f32) (x1 : Vec F S2000x1 .f32) (x2 : Vec F S1x64 .f32) (x3 : Vec F S2000x1 .i32) (x4 : Vec F S1000x1 .f32) (xs0 : Vec F S1000x64 .f32) : Vec F S1000x64 .f32 :=
  VS2_0.read (Elt F) (VS2_0.writes (Elt F) VS2_0.junk (kernelRun2_B c i arg1 harg1 arg2 harg2 arg3 harg3 arg4 harg4 arg5 harg5 arg6 harg6 arg7 harg7 hc0 hc1 x0 x1 x2 x3 x4 xs0).2.1)

/-- What case C leaves in the output's staging buffer: its pieces read back over junk. -/
def out2_C_5 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) : Vec F S1000x64 .f32 :=
  VO2_5.read (Elt F) (VO2_5.writes (Elt F) VO2_5.junk (kernelRun2_C c i arg1 harg1 arg2 harg2 arg3 harg3 arg4 harg4 arg5 harg5 arg6 harg6 arg7 harg7 hc0 hc1 x0 x1 x2 x3 x4 xs0).1)
/-- Case C's pieces for the output tile its block, so they cover it. -/
theorem cover2_C_5 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) (y : S1000x64.Idx) :
    ∃ pc ∈ (kernelRun2_C c i arg1 harg1 arg2 harg2 arg3 harg3 arg4 harg4 arg5 harg5 arg6 harg6 arg7 harg7 hc0 hc1 x0 x1 x2 x3 x4 xs0).1, y ∈ pc.1.set :=
  View.cover_of_tiledL (kernelRun2_C c i arg1 harg1 arg2 harg2 arg3 harg3 arg4 harg4 arg5 harg5 arg6 harg6 arg7 harg7 hc0 hc1 x0 x1 x2 x3 x4 xs0).1 S1000x64.size (by sl_kernel_rfl) y
/-- Case C's pieces for the scratch tile it, so they cover it. -/
theorem scover2_C_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) (y : S1000x64.Idx) :
    ∃ pc ∈ (kernelRun2_C c i arg1 harg1 arg2 harg2 arg3 harg3 arg4 harg4 arg5 harg5 arg6 harg6 arg7 harg7 hc0 hc1 x0 x1 x2 x3 x4 xs0).2.1, y ∈ pc.1.set :=
  View.cover_of_tiledL (kernelRun2_C c i arg1 harg1 arg2 harg2 arg3 harg3 arg4 harg4 arg5 harg5 arg6 harg6 arg7 harg7 hc0 hc1 x0 x1 x2 x3 x4 xs0).2.1 S1000x64.size (by sl_kernel_rfl) y
/-- What case C leaves in the scratch: its pieces read back over junk. -/
def sout2_C_0 (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) : Vec F S1000x64 .f32 :=
  VS2_0.read (Elt F) (VS2_0.writes (Elt F) VS2_0.junk (kernelRun2_C c i arg1 harg1 arg2 harg2 arg3 harg3 arg4 harg4 arg5 harg5 arg6 harg6 arg7 harg7 hc0 hc1 x0 x1 x2 x3 x4 xs0).2.1)

/-! ## What the output's buffer and the scratch hold after each point -/

/-- THE ACCUMULATION. What the output's staging buffer and the scratch hold after the body at position `n` (a pair): the case the
    closed forms select at `n`, run at the point's memrefs and input blocks, the scratch it reads at what this leaves at `n - 1`. -/
def outsAt2 (c : Dev nD) : (n : ℕ) → n < cfg2.N → Vec F S1000x64 .f32 × Vec F S1000x64 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 50 = 0 then
      if h1 : (n + 1) % 50 = 49 then
        False.elim (by have hN : n + 1 < 50 := lt_of_lt_of_eq hn (show cfg2.N = 50 from N_2); omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      if h1 : (n + 1) % 50 = 49 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

theorem outsAt2_A (c : Dev nD) (t : Fin cfg2.N) (h0 : t.val % 50 = 0) (h1 : ¬t.val % 50 = 49) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans ((dif_neg h1).trans rfl)

theorem outsAt2_B (c : Dev nD) (t : Fin cfg2.N) (h0 : ¬t.val % 50 = 0) (h1 : ¬t.val % 50 = 49) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 50 = 0) (h1 : t.val % 50 = 49) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands the region (every scoped buffer
    at anything, the generator register); afterwards the scratch at what the point before left in it, the other scoped
    buffers at anything, the generator register at some state. -/
def PhiS2 (c : Dev nD) : (n : ℕ) → n ≤ cfg2.N → sProp 𝕄
  | 0, _ => Pipeline.ΦA spec2 c
  | n + 1, hn => iprop(owns (c : Thread nD τ) scM2_0 fullShare ((outsAt2 V c n hn).2) ∗ others2 c ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(owns (c : Thread nD τ) scM2_0 fullShare ((outsAt2 V c n hn).2) ∗ others2 c ∗ (∃ r, prngReg c r)) := rfl
theorem PhiS2_pos (c : Dev nD) (n : ℕ) (h : n ≤ cfg2.N) (hz : n ≠ 0) :
    PhiS2 V c n h = iprop(owns (c : Thread nD τ) scM2_0 fullShare ((outsAt2 V c (n - 1) (by omega)).2) ∗ others2 c ∗ (∃ r, prngReg c r)) := by
  cases n with
  | zero => exact absurd rfl hz
  | succ n => rfl

/-! ## The pipeline's proof data -/

/-- The proof data of this pipeline on core `c`: the arrays as the region finds them; after the body at point `t` each input's
    buffer at its block and the output's at the accumulation's first component; the invariant carrying the scratch at
    the accumulation's second component; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point. The inputs' memrefs hold their blocks; the closed forms say which case the point is in; the invariant
    hands the body the scratch at what the point before left (at anything at the first point) and takes it back at this
    point's contents; where the output is idle its buffer is handed back as found; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 50 = 0
  · by_cases h1 : t.val % 50 = 49
    · exfalso; omega
    · rw [Dat.leavesExact_idle (dat2 V c) 5 t (idleAt2_5 t (fun h => h1 ((hcond2_1 t).mp h))) (noFlush2_5 t (fun h => h1 ((hcond2_1 t).mp h)))]
      rw [outsAt2_A V c t h0 h1]
      unfold sout2_A_0; (try dsimp only)
      have hz : t.val = 0 := by omega
      rw [PhiS2_castSucc V c t, PhiS2_zero V c _ _ hz]
      iintro ⟨HΦ, Ho, ⟨%d0, H0⟩, ⟨%d1, H1⟩, ⟨%d2, H2⟩, ⟨%d3, H3⟩, ⟨%d4, H4⟩, ⟨%d5, H5⟩⟩
      ihave HΦ' := (PhiA2_open c) $$ HΦ
      icases HΦ' with ⟨HS0, Hoth, Hg⟩
      iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0]
        · unfold owns; iexists _; isplitr
          swap; · iexact HS0
          ipureintro; exact View.read_writes_of_cover _ _ _ _ _ (scover2_A_0 c _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun h => h0 (by rw [h])
    by_cases h1 : t.val % 50 = 49
    · rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      unfold out2_C_5 sout2_C_0; (try dsimp only)
      rw [PhiS2_castSucc V c t, PhiS2_pos V c _ _ hz]
      iintro ⟨⟨HS0, Hoth, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hoth Hg]
      · isplitl [HS0]
        · unfold owns; iexists _; isplitr
          swap; · iexact HS0
          ipureintro; exact View.read_writes_of_cover _ _ _ _ _ (scover2_C_0 c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5 t (fun h => h1 ((hcond2_1 t).mp h))) (noFlush2_5 t (fun h => h1 ((hcond2_1 t).mp h)))]
      rw [outsAt2_B V c t h0 h1]
      unfold sout2_B_0; (try dsimp only)
      rw [PhiS2_castSucc V c t, PhiS2_pos V c _ _ hz]
      iintro ⟨⟨HS0, Hoth, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, ⟨%es0, HS0⟩⟩
      isplitl [HS0 Hoth Hg]
      · isplitl [HS0]
        · unfold owns; iexists _; isplitr
          swap; · iexact HS0
          ipureintro; exact View.read_writes_of_cover _ _ _ _ _ (scover2_B_0 c _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- The scratch at any named contents, the other scoped buffers and the generator register give back what the launch handed
    the region: the scratch's contents are forgotten. -/
theorem scratch_forget (c : Dev nD) (x : Vec F S1000x64 .f32) :
    (iprop(owns (c : Thread nD τ) scM2_0 fullShare x ∗ others2 c ∗ (∃ r, prngReg c r)) : sProp 𝕄) ⊢ Pipeline.ΦA spec2 c := by
  have h : (iprop(owns (c : Thread nD τ) scM2_0 fullShare x ∗ others2 c ∗ (∃ r, prngReg c r)) : sProp 𝕄)
      ⊢ iprop((∃ d, owns (c : Thread nD τ) scM2_0 fullShare d) ∗ others2 c ∗ (∃ r, prngReg c r)) := by
    iintro ⟨HS0, Hoth, Hg⟩
    isplitl [HS0]; · iexists _; iexact HS0
    isplitl [Hoth]; · iexact Hoth
    iexact Hg
  exact h.trans (PhiA2_close c)

/-- After the last point the invariant gives back what the launch handed the region. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 50 := N_2; omega)]
  exact scratch_forget c _

end Cert.Kernel.Fr

end
-- ==== Proof.FrK.Run.lean ====
/-
  The run of the whole program: a stretch of host operations, the first kernel region, a second stretch, the second
  region, a third stretch, the third region. The contents of the core's unscoped buffers are followed through @main as
  a fold (`W0` … `W6`): a host stretch applies its operations; a region leaves its input arrays as entered and its output
  array at what its write-backs leave, and every other buffer as entered. Each region is entered from the boundary
  before it and left at the boundary after it; the last boundary's contents are read against the final memory. From
  that one run follow the frame (no stretch writes an argument and no region's output is one) and, for the value
  claim, what the result buffer holds: the last region's output array after its write-backs.
-/
import proofs.«430571_j90941637525518_3_alg».proof.Proof.PatchedKernelLaunch
import proofs.«430571_j90941637525518_3_alg».proof.Proof.Gen.Kernel.Skeleton
import proofs.«430571_j90941637525518_3_alg».proof.Proof.Gen.Kernel.Points
import proofs.«430571_j90941637525518_3_alg».proof.Proof.PatchedKernelRegions
import proofs.«430571_j90941637525518_3_alg».proof.Proof.FrK.Region0
import proofs.«430571_j90941637525518_3_alg».proof.Proof.FrK.Region1
import proofs.«430571_j90941637525518_3_alg».proof.Proof.FrK.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves (the inputs as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves (the inputs as entered, the output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched -/

theorem W6_main_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl

theorem W6_main_arg1 (c : Dev nD) : W6 m ρ c (Proc.devRef .tc main_arg1) = m ((c : Thread nD τ).loc main_arg1) :=
  calc W6 m ρ c (Proc.devRef .tc main_arg1)
    _ = W5 m ρ c (Proc.devRef .tc main_arg1) := W6_of_ne m ρ c main_arg1 (by decide)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl

theorem W6_main_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W6_main_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := StableHlo.after_of_writes_sub hostOps2 _ hostOps2_writes (by decide)
    _ = W3 m ρ c (Proc.devRef .tc main_arg3) := (W4_arr m ρ c 3).trans (((dat1 (V3 m ρ) c).arrAt_in 3 rfl _).trans (A_eq1 (V3 m ρ) c 3))
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W6_main_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W6_main_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W6_main_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-- The result buffer ends at what the last region's write-backs leave in its output array. -/
theorem W6_main_v0 (c : Dev nD) : W6 m ρ c (Proc.devRef .tc main_v0) = (dat2 (V5 m ρ) c).arrAt 5 cfg2.N :=
  W6_arr m ρ c 5

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are split out of
    the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split out of
    the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split out of
    the unscoped buffers and put back at the exit contents; the generator register goes into the region's invariant and
    comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (hout2 (V5 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    every final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩) (run_all m ρ)

/-- THE RUN WITH THE RESULT NAMED: besides the frame, the result buffer ends at what the last region's write-backs leave in
    its output array. -/
theorem run_value : θ_run defs (onTc (τ := τ) (main (F := F))) ⟨m, fun _ => 0, ρ⟩ (fun r => ∀ c : Dev nD,
      r.2.mem ((c.tc : Thread nD τ).loc main_v0) = (dat2 (V5 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c _ (mem_uc main_v0 (by decide))).trans (W6_main_v0 m ρ c),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c)⟩) (run_all m ρ)

end Cert.Kernel.Fr

end
-- ==== Proof.LibGatherScatter.lean ====
/-
  ROWS READ AND ROWS SUMMED. A host `stablehlo.gather` whose start indices are an [n × 1] column and whose operand's
  leading axis is collapsed and start-indexed reads, at result row `e`, the operand's row named by start index `e` read
  signed and clamped into the operand (`gather_rows` for an [N × D] operand, `gather_row1` for an [N] one). A host float
  `stablehlo.scatter` with an `add` body over the same column of indices, its operand's leading axis inserted, adds to
  operand row `i` every update row whose start index read signed (not clamped) is `i` (`scatterAdd_rows`,
  `scatterAdd_row1`); an update row whose index is negative or past the end lands nowhere.
-/
import Idealize.ShloMosaic.Lib.StableHlo.Predicate
import Idealize.ShloMosaic.Lib.ValueIdx
import Idealize.ShloMosaic.PureOps.Ideal.Laws

open scoped BigOperators

namespace Idealize.ShloMosaic.RowOps

open Idealize.ShloMosaic Idealize.ShloMosaic.ValueIdx Idealize.ShloMosaic.StableHlo.Predicate

/-! ## The row a start index names -/

/-- Row `e` of an [n,1] column of start indices, read signed and clamped into [0, N-1]. -/
def clampRow {n w : Nat} (N : Nat) (hN : 0 < N) (idx : IVec ⟨2, ![n, 1]⟩ w) (e : Fin n) : Fin N :=
  ⟨min (idx (ixP e)).toInt.toNat (N - 1), by omega⟩

/-- update row `e` lands on operand row `i`: its start index read SIGNED and NOT clamped is `i`. -/
def lands {n w : Nat} (idx : IVec ⟨2, ![n, 1]⟩ w) (e : Fin n) (i : Nat) : Prop := (idx (ixP e)).toInt = (i : Int)

instance {n w : Nat} (idx : IVec ⟨2, ![n, 1]⟩ w) (e : Fin n) (i : Nat) : Decidable (lands idx e i) := by
  unfold lands; infer_instance

/-- A word that reads signed as `i < N` is not negative and is not clamped. -/
theorem clampRow_of_lands {n w N : Nat} (hN : 0 < N) (idx : IVec ⟨2, ![n, 1]⟩ w) (e : Fin n) (i : Fin N)
    (h : lands idx e i.val) : clampRow N hN idx e = i := by
  apply Fin.ext
  show min (idx (ixP e)).toInt.toNat (N - 1) = i.val
  unfold lands at h
  rw [h, Int.toNat_natCast]
  have := i.isLt
  omega

/-! ## Gathers of rows -/

/-- Every element of a one-element list is that element. -/
private theorem getElem_singleton_of_eq {β : Type} {l : List β} {b : β} (h : l = [b]) (k : Nat) (hk : k < l.length) :
    l[k] = b :=
  List.mem_singleton.1 (h ▸ List.getElem_mem hk)

/-- THE ROW TAKE. A `stablehlo.gather` of an [N × D] operand whose start indices are an [n × 1] column of row numbers:
    operand axis 0 collapsed and start-indexed, operand axis 1 whole (slice sizes [1, D]) and read by the result's
    offset axis 1, no batching axes, the index vector on axis 1. Result element (e, j) is the operand's element (r, j),
    r the start index of row `e` read signed and clamped into [0, N − 1]. -/
theorem gather_rows {α : Type} {N D n w : Nat} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1) (hss : d.sliceSizes = ![1, D])
    (x : (⟨2, ![N, D]⟩ : Shape).Idx → α) (idx : IVec ⟨2, ![n, 1]⟩ w) (e : Fin n) (j : Fin D) (hN : 0 < N) :
    Host.gather d x idx (ix2 e j) = x (ix2 (clampRow N hN idx e) j) := by
  have hb : ∀ a : Fin 2, a ∉ d.operandBatchingDims := fun a => by rw [hob]; exact List.not_mem_nil
  -- the result's batch axes: the one axis that is not the offset axis
  have hbd : d.batchDims = [0] := by
    show Shape.kept _ d.offsetDims = [0]
    rw [hoff]
    show (List.finRange 2).filter (fun a : Fin 2 => a ∉ [(1 : Fin 2)]) = [0]
    decide
  -- axis 0: collapsed and start-indexed, the clamped start alone
  have h0 : (d.operandIdx (ix2 e j) idx (0 : Fin 2)).val = (clampRow N hN idx e).val := by
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    show d.start (ix2 e j) idx 0 + d.batchCoord (ix2 e j) 0 + d.offCoord (ix2 e j) 0 = min (idx (ixP e)).toInt.toNat (N - 1)
    rw [GatherDims.batchCoord_eq_zero _ _ _ (hb 0), GatherDims.offCoord_eq_zero _ _ _ hk, Nat.add_zero]
    unfold GatherDims.start
    rw [dif_pos hm]
    show min (idx _).toInt.toNat (N - d.sliceSizes 0) = min (idx (ixP e)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      have he : ∀ X : Fin 2, X = 0 → ((ix2 e j : (⟨2, ![n, D]⟩ : Shape).Idx) X).val = e.val := fun X hX => by subst hX; rfl
      exact he _ (getElem_singleton_of_eq hbd _ _)
    | ⟨1, _⟩ =>
      unfold GatherDims.siIdx
      rw [dif_pos (by rw [hivd])]
      apply Fin.ext
      show List.idxOf (0 : Fin 2) d.startIndexMap = 0
      rw [hsim]; simp
  -- axis 1: neither start-indexed nor collapsed, the offset coordinate alone
  have h1 : (d.operandIdx (ix2 e j) idx (1 : Fin 2)).val = j.val := by
    have hk : (1 : Fin 2) ∈ d.sKept := by rw [GatherDims.mem_sKept, hcoll, hob]; simp
    have hm : (1 : Fin 2) ∉ d.startIndexMap := by rw [hsim]; simp
    show d.start (ix2 e j) idx 1 + d.batchCoord (ix2 e j) 1 + d.offCoord (ix2 e j) 1 = j.val
    rw [GatherDims.batchCoord_eq_zero _ _ _ (hb 1), Nat.add_zero]
    unfold GatherDims.start GatherDims.offCoord
    rw [dif_neg hm, dif_pos hk, Nat.zero_add]
    have hj : ∀ X : Fin 2, X = 1 → ((ix2 e j : (⟨2, ![n, D]⟩ : Shape).Idx) X).val = j.val := fun X hX => by subst hX; rfl
    exact hj _ (getElem_singleton_of_eq hoff _ _)
  unfold Host.gather
  congr 1
  funext a
  apply Fin.ext
  match a with
  | ⟨0, _⟩ => exact h0
  | ⟨1, _⟩ => exact h1

/-- The library's rank-1 index at coordinate `p` is `ix1 p`. -/
theorem ofFin_eq_ix1 {n : Nat} (p : Fin n) : Shape.Idx.ofFin p = ix1 p := by
  funext a
  match a with
  | ⟨0, _⟩ => rfl

/-- The take over a rank-1 table (the library's `gather_take`), its indices written by coordinates: result position `e`
    reads the table at start index `e` read signed and clamped into [0, N − 1]. -/
theorem gather_row1 {α : Type} {N n w : Nat} (d : GatherDims ⟨1, ![N]⟩ ⟨2, ![n, 1]⟩ ⟨1, ![n]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![n, 1]⟩ w) (e : Fin n) (hN : 0 < N) :
    Host.gather d x idx (ix1 e) = x (ix1 (clampRow N hN idx e)) := by
  have h := gather_take d hcoll hob hsim hivd x idx e hN
  rw [ofFin_eq_ix1, ofFin_eq_ix1] at h
  exact h

/-! ## Scatter-adds of rows -/

/-- An update index lands on operand index `r` exactly when, on every axis, its start plus its window coordinate is
    `r`'s coordinate (so is inside the operand there). -/
theorem resultIdx?_eq_some_iff {s si u : Shape} (d : ScatterDims s si u) {w : Nat} (j : u.Idx) (idx : IVec si w)
    (r : s.Idx) :
    d.resultIdx? j idx = some r ↔ ∀ a, d.start j idx a + (d.window j a : Int) = ((r a).val : Int) := by
  unfold ScatterDims.resultIdx?
  split
  · next h =>
    constructor
    · intro heq a
      have hr := Option.some.inj heq
      subst hr
      show _ = (((d.start j idx a + (d.window j a : Int)).toNat : Nat) : Int)
      rw [Int.toNat_of_nonneg (h a).1]
    · intro hall
      congr 1
      funext a
      apply Fin.ext
      show (d.start j idx a + (d.window j a : Int)).toNat = (r a).val
      rw [hall a]; exact Int.toNat_natCast _
  · next h =>
    constructor
    · intro heq; cases heq
    · intro hall
      exfalso
      apply h
      intro a
      rw [hall a]
      exact ⟨Int.natCast_nonneg _, by exact_mod_cast (r a).isLt⟩

/-- Rank 2, [n × 1] indices, operand axis 0 inserted and scattered to, update axis 1 the window: update index `u`
    lands on operand element (i, j) exactly when the start index of row `u 0` reads signed as `i` and `u`'s column is `j`. -/
theorem resultIdx?_rows_iff {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1) (idx : IVec ⟨2, ![n, 1]⟩ w) (u : (⟨2, ![n, D]⟩ : Shape).Idx) (i : Fin K) (j : Fin D) :
    d.resultIdx? u idx = some (ix2 i j) ↔ lands idx (u 0 : Fin n) i.val ∧ (u 1 : Fin D) = j := by
  -- the updates' scatter axes: the one axis that is not the window axis
  have hus : d.uScatter = [0] := by
    show Shape.kept _ d.updateWindowDims = [0]
    rw [huw]
    show (List.finRange 2).filter (fun a : Fin 2 => a ∉ [(1 : Fin 2)]) = [0]
    decide
  have hmem_sKept : ∀ a : Fin 2, a ∈ d.sKept ↔ a ≠ 0 := fun a => by
    show a ∈ Shape.kept _ d.insertedWindowDims ↔ a ≠ 0
    rw [hiw]; simp [Shape.kept, List.mem_filter, List.mem_finRange]
  -- axis 0: the start is the signed word of row `u 0`, the window coordinate 0
  have hs0 : d.start u idx (0 : Fin 2) = (idx (ixP (u 0 : Fin n))).toInt := by
    have hm : (0 : Fin 2) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 2, X = 0 → (u X).val = (u 0).val := fun X hX => by subst hX; rfl
      exact he _ (getElem_singleton_of_eq hus _ _)
    | ⟨1, _⟩ =>
      unfold ScatterDims.siIdx
      rw [dif_pos (by rw [hivd])]
      apply Fin.ext
      show List.idxOf (0 : Fin 2) d.scatterDimsToOperandDims = 0
      rw [hsd]; simp
  have hw0 : d.window u (0 : Fin 2) = 0 := by
    unfold ScatterDims.window
    rw [dif_neg (by rw [hmem_sKept]; simp)]
  -- axis 1: no start, the window coordinate `u`'s column
  have hs1 : d.start u idx (1 : Fin 2) = 0 := by
    unfold ScatterDims.start
    rw [dif_neg (by rw [hsd]; simp)]
  have hw1 : d.window u (1 : Fin 2) = (u 1).val := by
    unfold ScatterDims.window
    rw [dif_pos (by rw [hmem_sKept]; simp)]
    have he : ∀ X : Fin 2, X = 1 → (u X).val = (u 1).val := fun X hX => by subst hX; rfl
    exact he _ (getElem_singleton_of_eq huw _ _)
  rw [resultIdx?_eq_some_iff]
  constructor
  · intro h
    have h0 := h 0
    have h1 := h 1
    rw [hs0, hw0] at h0
    rw [hs1, hw1] at h1
    refine ⟨?_, ?_⟩
    · show (idx (ixP (u 0 : Fin n))).toInt = (i.val : Int)
      have : ((ix2 i j : (⟨2, ![K, D]⟩ : Shape).Idx) 0).val = i.val := rfl
      rw [this] at h0
      simpa using h0
    · apply Fin.ext
      have : ((ix2 i j : (⟨2, ![K, D]⟩ : Shape).Idx) 1).val = j.val := rfl
      rw [this] at h1
      have h1' : ((u 1).val : Int) = (j.val : Int) := by simpa using h1
      exact_mod_cast h1'
  · rintro ⟨hl, hj⟩ a
    match a with
    | ⟨0, _⟩ =>
      show d.start u idx (0 : Fin 2) + (d.window u (0 : Fin 2) : Int) = (i.val : Int)
      rw [hs0, hw0]
      unfold lands at hl
      rw [hl]; simp
    | ⟨1, _⟩ =>
      show d.start u idx (1 : Fin 2) + (d.window u (1 : Fin 2) : Int) = (j.val : Int)
      rw [hs1, hw1, ← hj]; simp

/-- THE ROW SCATTER-ADD. A float `stablehlo.scatter` with an `add` body of [n × D] updates into a [K × D] operand at an
    [n × 1] column of row numbers (operand axis 0 inserted and scattered to, update axis 1 the window, the index vector
    on axis 1): operand element (i, j) gains column `j` of every update row whose start index reads signed as `i`. -/
theorem scatterAdd_rows {K D n w : Nat} (d : ScatterDims ⟨2, ![K, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : (⟨2, ![K, D]⟩ : Shape).Idx → EReal) (idx : IVec ⟨2, ![n, 1]⟩ w) (upd : (⟨2, ![n, D]⟩ : Shape).Idx → EReal)
    (i : Fin K) (j : Fin D) :
    Ideal.hostScatterAdd d x idx upd (ix2 i j)
      = x (ix2 i j) + ∑ e ∈ Finset.univ.filter (fun e : Fin n => lands idx e i.val), upd (ix2 e j) := by
  have hiff := resultIdx?_rows_iff d huw hiw hsd hivd idx
  unfold Ideal.hostScatterAdd
  congr 1
  have hback : ∀ u : (⟨2, ![n, D]⟩ : Shape).Idx, (u 1 : Fin D) = j → ix2 (u 0 : Fin n) j = u := fun u hu => by
    rw [← hu]; exact (eq_ix2 u).symm
  refine Finset.sum_bij' (fun u _ => (u 0 : Fin n)) (fun e _ => ix2 e j) ?_ ?_ ?_ ?_ ?_
  · intro u hu
    exact Finset.mem_filter.2 ⟨Finset.mem_univ _, ((hiff u i j).1 (Finset.mem_filter.1 hu).2).1⟩
  · intro e he
    exact Finset.mem_filter.2 ⟨Finset.mem_univ _, (hiff (ix2 e j) i j).2 ⟨(Finset.mem_filter.1 he).2, rfl⟩⟩
  · intro u hu
    exact hback u ((hiff u i j).1 (Finset.mem_filter.1 hu).2).2
  · intro e _
    rfl
  · intro u hu
    exact (congrArg upd (hback u ((hiff u i j).1 (Finset.mem_filter.1 hu).2).2)).symm

/-- Rank 1, [n × 1] indices, the operand's one axis inserted and scattered to, no window axes: update index `u` lands on
    operand position `i` exactly when the start index of row `u 0` reads signed as `i`. -/
theorem resultIdx?_row1_iff {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1) (idx : IVec ⟨2, ![n, 1]⟩ w) (u : (⟨1, ![n]⟩ : Shape).Idx) (i : Fin K) :
    d.resultIdx? u idx = some (ix1 i) ↔ lands idx (u 0 : Fin n) i.val := by
  -- the start is the signed word of row `u 0` (the updates' one axis is their scatter axis), the window coordinate 0
  have hs0 : d.start u idx (0 : Fin 1) = (idx (ixP (u 0 : Fin n))).toInt := by
    have hm : (0 : Fin 1) ∈ d.scatterDimsToOperandDims := by rw [hsd]; exact List.mem_singleton.mpr rfl
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have he : ∀ X : Fin 1, (u X).val = (u 0).val := fun X => by
        have hX : X = 0 := Subsingleton.elim _ _
        subst hX; rfl
      exact he _
    | ⟨1, _⟩ =>
      unfold ScatterDims.siIdx
      rw [dif_pos (by rw [hivd])]
      apply Fin.ext
      show List.idxOf (0 : Fin 1) d.scatterDimsToOperandDims = 0
      rw [hsd]; simp
  have hw0 : d.window u (0 : Fin 1) = 0 := by
    have hk : (0 : Fin 1) ∉ d.sKept := by
      show (0 : Fin 1) ∉ Shape.kept _ d.insertedWindowDims
      rw [hiw]; simp [Shape.kept, List.mem_filter]
    unfold ScatterDims.window
    rw [dif_neg hk]
  rw [resultIdx?_eq_some_iff]
  constructor
  · intro h
    have h0 := h 0
    rw [hs0, hw0] at h0
    show (idx (ixP (u 0 : Fin n))).toInt = (i.val : Int)
    have : ((ix1 i : (⟨1, ![K]⟩ : Shape).Idx) 0).val = i.val := rfl
    rw [this] at h0
    simpa using h0
  · intro hl a
    have ha : a = 0 := Subsingleton.elim _ _
    subst ha
    show d.start u idx (0 : Fin 1) + (d.window u (0 : Fin 1) : Int) = (i.val : Int)
    rw [hs0, hw0]
    unfold lands at hl
    rw [hl]; simp

/-- THE SCATTER-ADD OF A VECTOR. A float `stablehlo.scatter` with an `add` body of [n] updates into a [K] operand at an
    [n × 1] column of positions (the operand's one axis inserted and scattered to, no window axes, the index vector on
    axis 1): operand position `i` gains every update whose start index reads signed as `i`. -/
theorem scatterAdd_row1 {K n w : Nat} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![K]⟩ : Shape).Idx → EReal) (idx : IVec ⟨2, ![n, 1]⟩ w) (upd : (⟨1, ![n]⟩ : Shape).Idx → EReal) (i : Fin K) :
    Ideal.hostScatterAdd d x idx upd (ix1 i)
      = x (ix1 i) + ∑ e ∈ Finset.univ.filter (fun e : Fin n => lands idx e i.val), upd (ix1 e) := by
  have hiff := resultIdx?_row1_iff d huw hiw hsd hivd idx
  unfold Ideal.hostScatterAdd
  congr 1
  refine Finset.sum_bij' (fun u _ => (u 0 : Fin n)) (fun e _ => ix1 e) ?_ ?_ ?_ ?_ ?_
  · intro u hu
    exact Finset.mem_filter.2 ⟨Finset.mem_univ _, (hiff u i).1 (Finset.mem_filter.1 hu).2⟩
  · intro e he
    exact Finset.mem_filter.2 ⟨Finset.mem_univ _, (hiff (ix1 e) i).2 (Finset.mem_filter.1 he).2⟩
  · intro u _
    exact (eq_ix1 u).symm
  · intro e _
    rfl
  · intro u _
    exact congrArg upd (eq_ix1 u)

end Idealize.ShloMosaic.RowOps
-- ==== Proof.Layer.Algebra.lean ====
import Mathlib.Data.EReal.Operations
import Mathlib.Algebra.BigOperators.Group.Finset.Basic
import Mathlib.Algebra.BigOperators.Group.Finset.Sigma
import Mathlib.Algebra.BigOperators.Fin
import Mathlib.Logic.Equiv.Fin.Basic
import Idealize.ShloMosaic.PureOps.Ideal

/-!
# The algebra of a normalised graph-convolution layer over the extended reals

One spelling of the layer scales each message by the product of the source and destination degree
factors and then sums; the other scales by the source factor before the sum and by the destination
factor after it. Over the reals the two agree by distributivity. In `EReal` distributivity fails at
the infinities (`⊤ + ⊥ = ⊥`), so every law here is stated for extended reals that are real numbers,
and the closure lemmas show that the quantities of a layer stay real numbers.
-/

namespace Cert.LayerAlgebra

open scoped BigOperators

/-- an extended real that is a real number -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- the larger of two reals is one of them -/
theorem IsReal.max {x y : EReal} (hx : IsReal x) (hy : IsReal y) : IsReal (max x y) := by
  rcases le_total x y with h | h
  · rw [max_eq_right h]; exact hy
  · rw [max_eq_left h]; exact hx

/-- a finite sum of reals is a real -/
theorem isReal_sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add
      (ih fun i hi => h i (Finset.mem_insert_of_mem hi))

/-- the inclusion of the reals commutes with finite sums -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- distributivity of a real over the sum of two reals -/
theorem mul_add_of_real {a x y : EReal} (ha : IsReal a) (hx : IsReal x) (hy : IsReal y) :
    a * (x + y) = a * x + a * y := by
  obtain ⟨a, rfl⟩ := ha
  obtain ⟨x, rfl⟩ := hx
  obtain ⟨y, rfl⟩ := hy
  rw [← EReal.coe_add, ← EReal.coe_mul, ← EReal.coe_mul, ← EReal.coe_mul, ← EReal.coe_add, mul_add]

/-- a real factor moves inside a finite sum of reals -/
theorem mul_sum_of_real {ι : Type*} (s : Finset ι) (a : EReal) (f : ι → EReal) (ha : IsReal a)
    (hf : ∀ i ∈ s, IsReal (f i)) : a * ∑ i ∈ s, f i = ∑ i ∈ s, a * f i := by
  classical
  induction s using Finset.induction_on with
  | empty => simp
  | insert b s hb ih =>
    have hs : ∀ i ∈ s, IsReal (f i) := fun i hi => hf i (Finset.mem_insert_of_mem hi)
    rw [Finset.sum_insert hb, Finset.sum_insert hb,
      mul_add_of_real ha (hf b (Finset.mem_insert_self b s)) (isReal_sum s f hs), ih hs]

/-! ### The layer law -/

/-- Scaling by the destination factor after the sum equals scaling each message by the product of
    the two factors, when everything is a real number. The left side carries the zero accumulators
    of a matrix product (`0 + H e`) and of a scatter-add (`0 + ∑`). -/
theorem layer_sum {ι : Type*} (s : Finset ι) (di : EReal) (H ds dd : ι → EReal) (hdi : IsReal di)
    (hH : ∀ e ∈ s, IsReal (H e)) (hds : ∀ e ∈ s, IsReal (ds e)) (hdd : ∀ e ∈ s, dd e = di) :
    di * (0 + ∑ e ∈ s, (0 + H e) * ds e) = 0 + ∑ e ∈ s, H e * (ds e * dd e) := by
  simp only [zero_add]
  rw [mul_sum_of_real s di (fun e => H e * ds e) hdi (fun e he => (hH e he).mul (hds e he))]
  refine Finset.sum_congr rfl fun e he => ?_
  rw [hdd e he, mul_comm di, mul_assoc]

/-- the layer law under the bias and the rectifier -/
theorem layer_relu {ι : Type*} (s : Finset ι) (di b : EReal) (H ds dd : ι → EReal) (hdi : IsReal di)
    (hH : ∀ e ∈ s, IsReal (H e)) (hds : ∀ e ∈ s, IsReal (ds e)) (hdd : ∀ e ∈ s, dd e = di) :
    max (di * (0 + ∑ e ∈ s, (0 + H e) * ds e) + b) 0
      = max ((0 + ∑ e ∈ s, H e * (ds e * dd e)) + b) 0 :=
  congrArg (fun z => max (z + b) 0) (layer_sum s di H ds dd hdi hH hds hdd)

/-- the output of a layer on real inputs is a real -/
theorem isReal_layer {ι : Type*} (s : Finset ι) (di b : EReal) (H ds dd : ι → EReal)
    (hdi : IsReal di) (hb : IsReal b) (hH : ∀ e ∈ s, IsReal (H e)) (hds : ∀ e ∈ s, IsReal (ds e))
    (hdd : ∀ e ∈ s, dd e = di) :
    IsReal (max ((0 + ∑ e ∈ s, H e * (ds e * dd e)) + b) 0) := by
  refine IsReal.max (IsReal.add (IsReal.add IsReal.zero (isReal_sum s _ fun e he => ?_)) hb)
    IsReal.zero
  exact (hH e he).mul ((hds e he).mul (hdd e he ▸ hdi))

/-! ### The one-hot sum -/

/-- Summing against a 0/1 mask keeps exactly the masked terms: `0 * x = 0` and `1 * x = x` hold
    for every extended real, so no hypothesis on `f` is needed. -/
theorem sum_indicator {ι : Type*} [DecidableEq ι] (s : Finset ι) (p : ι → Prop) [DecidablePred p]
    (f : ι → EReal) :
    ∑ i ∈ s, (if p i then (1 : EReal) else 0) * f i = ∑ i ∈ s.filter p, f i := by
  rw [Finset.sum_filter]
  refine Finset.sum_congr rfl fun i _ => ?_
  by_cases h : p i
  · rw [if_pos h, if_pos h, one_mul]
  · rw [if_neg h, if_neg h, zero_mul]

/-! ### Tiled and running sums -/

/-- the running sum a carried accumulator produces: start from `0 + g 0`, add `g (n+1)` at each
    further step -/
noncomputable def accTo (T : ℕ) (g : ℕ → EReal) : ℕ → EReal
  | 0 => 0 + g 0
  | n + 1 => accTo T g n + g (n + 1)

theorem accTo_eq {T : ℕ} (g : ℕ → EReal) (n : ℕ) :
    accTo T g n = 0 + ∑ t ∈ Finset.range (n + 1), g t := by
  induction n with
  | zero => rw [accTo, Finset.sum_range_one]
  | succ n ih => rw [accTo, ih, Finset.sum_range_succ _ (n + 1), add_assoc]

/-- a sum over `T * R` positions is the sum over `T` tiles of the sums over the `R` positions of
    each tile -/
theorem sum_tiles {M : Type*} [AddCommMonoid M] (T R : ℕ) (f : Fin (T * R) → M) :
    ∑ i, f i = ∑ t : Fin T, ∑ r : Fin R,
      f ⟨t.val * R + r.val, by nlinarith [t.isLt, r.isLt]⟩ := by
  rw [← finProdFinEquiv.sum_comp f, Fintype.sum_prod_type]
  refine Finset.sum_congr rfl fun t _ => Finset.sum_congr rfl fun r _ => ?_
  congr 1
  apply Fin.ext
  simp only [finProdFinEquiv_apply_val]
  rw [Nat.mul_comm, Nat.add_comm]

/-! ### The mean -/

open Idealize.ShloMosaic in
/-- dividing by a nonzero real is multiplying by its reciprocal, for every extended real `x` -/
theorem div_eq_mul_one_div (x : EReal) {y : ℝ} (hy : y ≠ 0) :
    Ideal.div x (y : EReal) = x * Ideal.div 1 (y : EReal) := by
  rw [Ideal.div_coe hy x, Ideal.div_coe hy 1, one_mul]

end Cert.LayerAlgebra
-- ==== Proof.Val.Spec.lean ====
/-
  The mathematics of the two programs, index by index, over the extended reals — no program is imported here.

  A graph-convolution layer. Every edge `e` (self loops included) carries a message from a source row to a destination
  row: it LANDS on row `i` when its destination index, read signed and not clamped, is `i`; its source row is its source
  index read signed and clamped into the table. With `d` the per-row degree factor and `A·W` the transformed features,
  the reference sums `(A·W)[src e] · (d[src e] · d[dst e])` over the edges landing on `i`, adds the bias and rectifies;
  the kernel scales the transformed row by `d[src]` before the sum and the sum by `d[i]` after it (`kerLayer`). They agree
  when every quantity is a real number (distributivity fails at infinities), because an edge that lands on `i` has
  `d[dst e] = d[i]`.

  The mean pool. A row `i` belongs to graph `g` when its graph id lands on `g`. The reference sums the rows of a graph and
  divides by the graph's size (at least one); the kernel sums, tile by tile of 2000 rows in a running total, the rows
  times their one-hot membership, and multiplies by the reciprocal of the size.
-/
import proofs.«430571_j90941637525518_3_alg».proof.Proof.LibGatherScatter
import proofs.«430571_j90941637525518_3_alg».proof.Proof.Layer.Algebra

noncomputable section

namespace Cert.GcnSpec

open Idealize.ShloMosaic Idealize.ShloMosaic.ValueIdx Idealize.ShloMosaic.RowOps Idealize.ShloMosaic.StableHlo.Predicate Cert.LayerAlgebra
open scoped BigOperators

/-- The column of 1 700 000 edge indices (one per edge), and the column of 100 000 graph ids (one per row). -/
abbrev ECol : Shape := ⟨2, ![1700000, 1]⟩
abbrev NCol : Shape := ⟨2, ![100000, 1]⟩

section Layer

variable (srcc dstc dstnc : IVec ECol 32) (dinv : Fin 100000 → EReal)

/-- The source row of edge `e`: its source index read signed and clamped into the table of 100 000 rows. -/
def srow (e : Fin 1700000) : Fin 100000 := clampRow 100000 (by norm_num) srcc e
/-- The row the reference reads the destination's degree factor at: the NORMALISED destination index, clamped. -/
def drow (e : Fin 1700000) : Fin 100000 := clampRow 100000 (by norm_num) dstnc e
/-- The edges that land on row `i`. -/
def into (i : Fin 100000) : Finset (Fin 1700000) := Finset.univ.filter (fun e : Fin 1700000 => lands dstc e i.val)

/-- The transformed features: row `s` of `A` times column `j` of `W`. -/
def mm (A : Fin 100000 → Fin 64 → EReal) (W : Fin 64 → Fin 64 → EReal) (s : Fin 100000) (j : Fin 64) : EReal :=
  ∑ k : Fin 64, A s k * W k j

/-- One layer as the reference computes it. -/
def refLayer (A : Fin 100000 → Fin 64 → EReal) (W : Fin 64 → Fin 64 → EReal) (b : Fin 64 → EReal) (i : Fin 100000) (j : Fin 64) : EReal :=
  max ((0 + ∑ e ∈ into dstc i, mm A W (srow srcc e) j * (dinv (srow srcc e) * dinv (drow dstnc e))) + b j) 0

/-- One layer as the kernel's program computes it: the product into a zero accumulator, scaled by the source factor, summed
    into zeros over the edges landing on `i`, scaled by the destination factor, the bias added, rectified. -/
def kerLayer (A : Fin 100000 → Fin 64 → EReal) (W : Fin 64 → Fin 64 → EReal) (b : Fin 64 → EReal) (i : Fin 100000) (j : Fin 64) : EReal :=
  max (dinv i * (0 + ∑ e ∈ into dstc i, (0 + mm A W (srow srcc e) j) * dinv (srow srcc e)) + b j) 0

/-- A product of real matrices has real entries. -/
theorem isReal_mm (A : Fin 100000 → Fin 64 → EReal) (W : Fin 64 → Fin 64 → EReal) (hA : ∀ s k, IsReal (A s k))
    (hW : ∀ k j, IsReal (W k j)) (s : Fin 100000) (j : Fin 64) : IsReal (mm A W s j) :=
  isReal_sum _ _ fun k _ => (hA s k).mul (hW k j)

/-- The two layers agree on real data when an edge landing on `i` reads the destination factor at `i`. -/
theorem layer_eq (A : Fin 100000 → Fin 64 → EReal) (W : Fin 64 → Fin 64 → EReal) (b : Fin 64 → EReal)
    (hA : ∀ s k, IsReal (A s k)) (hW : ∀ k j, IsReal (W k j)) (hd : ∀ i, IsReal (dinv i))
    (hdn : ∀ (e : Fin 1700000) (i : Fin 100000), lands dstc e i.val → drow dstnc e = i) (i : Fin 100000) (j : Fin 64) :
    kerLayer srcc dstc dinv A W b i j = refLayer srcc dstc dstnc dinv A W b i j := by
  unfold kerLayer refLayer
  exact layer_relu (into dstc i) (dinv i) (b j) (fun e => mm A W (srow srcc e) j)
    (fun e => dinv (srow srcc e)) (fun e => dinv (drow dstnc e)) (hd i)
    (fun e _ => isReal_mm A W hA hW (srow srcc e) j) (fun e _ => hd (srow srcc e))
    (fun e he => by rw [hdn e i (Finset.mem_filter.1 he).2])

/-- A layer of real data is real data. -/
theorem isReal_refLayer (A : Fin 100000 → Fin 64 → EReal) (W : Fin 64 → Fin 64 → EReal) (b : Fin 64 → EReal)
    (hA : ∀ s k, IsReal (A s k)) (hW : ∀ k j, IsReal (W k j)) (hb : ∀ j, IsReal (b j)) (hd : ∀ i, IsReal (dinv i))
    (i : Fin 100000) (j : Fin 64) : IsReal (refLayer srcc dstc dstnc dinv A W b i j) := by
  unfold refLayer
  refine IsReal.max (IsReal.add (IsReal.add IsReal.zero (isReal_sum _ _ fun e _ => ?_)) (hb j)) IsReal.zero
  exact (isReal_mm A W hA hW (srow srcc e) j).mul ((hd (srow srcc e)).mul (hd (drow dstnc e)))

end Layer

section Pool

variable (bcol : IVec NCol 32) (cnt : Fin 1000 → EReal)

/-- The rows of graph `g`. -/
def rowsOf (g : Fin 1000) : Finset (Fin 100000) := Finset.univ.filter (fun i : Fin 100000 => lands bcol i g.val)

/-- The mean pool as the reference computes it. -/
def refOut (h : Fin 100000 → Fin 64 → EReal) (g : Fin 1000) (j : Fin 64) : EReal :=
  Ideal.div (0 + ∑ i ∈ rowsOf bcol g, h i j) (max (cnt g) 1)

/-- Row `i`'s membership in graph `g` as the kernel computes it: the word compare of the row's graph id with the column
    number, widened and converted — one where they are the same word, zero elsewhere. -/
def member (i : Fin 100000) (g : Fin 1000) : EReal := if bcol (ixP i) = BitVec.ofNat 32 g.val then 1 else 0

/-- What tile `t` (2000 rows) adds to graph `g`'s running total: the product with the membership matrix into a zero accumulator. -/
def tileSum (h : Fin 100000 → Fin 64 → EReal) (g : Fin 1000) (j : Fin 64) (t : ℕ) : EReal :=
  if ht : t < 50 then 0 + ∑ r : Fin 2000, member bcol ⟨t * 2000 + r.val, by have := r.isLt; omega⟩ g * h ⟨t * 2000 + r.val, by have := r.isLt; omega⟩ j else 0

/-- The mean pool as the kernel's program computes it: the running total after the last of the 50 tiles (the first tile
    added to zeros), times the reciprocal of the graph's size. -/
def kerOut (h : Fin 100000 → Fin 64 → EReal) (g : Fin 1000) (j : Fin 64) : EReal :=
  accTo 50 (tileSum bcol h g j) 49 * Ideal.div 1 (max (cnt g) 1)

/-- A word below 1000 read signed is its value: membership by word compare is landing. -/
theorem member_eq (i : Fin 100000) (g : Fin 1000) : member bcol i g = if lands bcol i g.val then 1 else 0 := by
  have hg : (BitVec.ofNat 32 g.val).toInt = (g.val : Int) := by
    have := g.isLt
    rw [BitVec.toInt_eq_toNat_cond, BitVec.toNat_ofNat]
    omega
  unfold member
  by_cases hw : bcol (ixP i) = BitVec.ofNat 32 g.val
  · have hl : lands bcol i g.val := by
      show (bcol (ixP i)).toInt = (g.val : Int)
      rw [hw, hg]
    rw [if_pos hw, if_pos hl]
  · have hl : ¬ lands bcol i g.val := fun hl => hw (BitVec.eq_of_toInt_eq (hl.trans hg.symm))
    rw [if_neg hw, if_neg hl]

/-- The two pools agree when each graph's size is a real number (it is a count). -/
theorem out_eq (h : Fin 100000 → Fin 64 → EReal) (hc : ∀ g, IsReal (cnt g)) (g : Fin 1000) (j : Fin 64) :
    kerOut bcol cnt h g j = refOut bcol cnt h g j := by
  obtain ⟨c, hcg⟩ := hc g
  -- the graph's size, at least one, is a nonzero real
  have hmax : max (cnt g) 1 = ((max c 1 : ℝ) : EReal) := by
    rw [hcg]
    rcases le_total c 1 with h1 | h1
    · rw [max_eq_right h1, max_eq_right (by exact_mod_cast h1)]; rfl
    · rw [max_eq_left h1, max_eq_left (by exact_mod_cast h1)]
  have hne : max c 1 ≠ 0 := (lt_of_lt_of_le one_pos (le_max_right c 1)).ne'
  -- a tile's contribution: the rows of the tile that land on the graph
  have htile : ∀ t : Fin 50, tileSum bcol h g j t.val
      = ∑ r : Fin 2000, (fun i : Fin 100000 => (if lands bcol i g.val then (1 : EReal) else 0) * h i j)
          ⟨t.val * 2000 + r.val, by have := r.isLt; have := t.isLt; omega⟩ := by
    intro t
    unfold tileSum
    rw [dif_pos t.isLt, zero_add]
    refine Finset.sum_congr rfl fun r _ => ?_
    rw [member_eq]
  -- the running total over the 50 tiles is the sum over the graph's rows
  have hsum : accTo 50 (tileSum bcol h g j) 49 = 0 + ∑ i ∈ rowsOf bcol g, h i j := by
    have hall : ∑ i : Fin 100000, (if lands bcol i g.val then (1 : EReal) else 0) * h i j
        = ∑ t : Fin 50, ∑ r : Fin 2000,
            (fun i : Fin 100000 => (if lands bcol i g.val then (1 : EReal) else 0) * h i j)
              ⟨t.val * 2000 + r.val, by have := r.isLt; have := t.isLt; omega⟩ :=
      sum_tiles 50 2000 (fun i : Fin (50 * 2000) =>
        (if lands bcol (i : Fin 100000) g.val then (1 : EReal) else 0) * h i j)
    rw [accTo_eq, ← Fin.sum_univ_eq_sum_range (fun t => tileSum bcol h g j t) 50,
      Finset.sum_congr rfl fun t _ => htile t, ← hall]
    exact congrArg (fun z => (0 : EReal) + z)
      (sum_indicator Finset.univ (fun i : Fin 100000 => lands bcol i g.val) (fun i => h i j))
  unfold kerOut refOut
  rw [hsum, hmax, Cert.LayerAlgebra.div_eq_mul_one_div (0 + ∑ i ∈ rowsOf bcol g, h i j) hne]

end Pool

end Cert.GcnSpec

end
-- ==== Proof.Val.RefValue.lean ====
/-
  WHAT THE REFERENCE COMPUTES, INDEX BY INDEX. The reference program's result, read at graph `g` and feature `j`, is the
  mean pool of two graph-convolution layers in the closed form of the specification: each layer sums, over the edges that
  land on a row, the transformed source row times the product of the two degree factors, adds the bias and rectifies; the
  pool sums the rows of a graph and divides by the graph's size (at least one). The index columns and the degree factor
  the program derives from the edge list and the graph ids stay folded, as functions of those two inputs.
-/
import proofs.«430571_j90941637525518_3_alg».proof.Proof.Gen.ReferenceIdeal.Read
import proofs.«430571_j90941637525518_3_alg».proof.Proof.Val.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
  Idealize.ShloMosaic.RowOps Idealize.ShloMosaic.StableHlo.Predicate Cert.GcnSpec Cert.LayerAlgebra
open scoped BigOperators

/-! ## One column under several names

The program normalises the source column three times and broadcasts the destination column three times, the graph ids
twice; each copy is the same term. -/

section SameTerm
variable {F : FTy → Type} [FloatOps F]

/-- The source column normalised for the first layer's row take is the one normalised for the degree factor. -/
theorem v36_eq_v19 (x5 : (⟨S2x1600000, .i32⟩ : BufTy).Contents (Elt F)) :
    val_main_v36 (F := F) x5 = val_main_v19 (F := F) x5 := rfl

/-- So is the one normalised for the second layer's row take. -/
theorem v53_eq_v19 (x5 : (⟨S2x1600000, .i32⟩ : BufTy).Contents (Elt F)) :
    val_main_v53 (F := F) x5 = val_main_v19 (F := F) x5 := rfl

/-- The destination column the first layer scatters by is the one the degree count scatters by. -/
theorem v41_eq_v9 (x5 : (⟨S2x1600000, .i32⟩ : BufTy).Contents (Elt F)) :
    val_main_v41 (F := F) x5 = val_main_v9 (F := F) x5 := rfl

/-- So is the one the second layer scatters by. -/
theorem v58_eq_v9 (x5 : (⟨S2x1600000, .i32⟩ : BufTy).Contents (Elt F)) :
    val_main_v58 (F := F) x5 = val_main_v9 (F := F) x5 := rfl

/-- The column of graph ids the pool scatters by is the one the graph sizes are counted by. -/
theorem v69_eq_v66 (x6 : (⟨S100000, .i32⟩ : BufTy).Contents (Elt F)) :
    val_main_v69 (F := F) x6 = val_main_v66 (F := F) x6 := rfl

end SameTerm

/-! ## The per-edge factor -/

/-- Edge `e`'s factor: the degree factor at its source row times the degree factor at its (normalised) destination row. -/
theorem edge_factor (x5 : (⟨S2x1600000, .i32⟩ : BufTy).Contents (Elt Ideal)) (e : Fin 1700000) :
    val_main_v28 (F := Ideal) x5 (ix1 e)
      = val_main_v13 (F := Ideal) x5 (ix1 (srow (val_main_v19 (F := Ideal) x5) e))
        * val_main_v13 (F := Ideal) x5 (ix1 (drow (val_main_v26 (F := Ideal) x5) e)) := by
  rw [val_main_v28_apply]
  unfold val_main_v20 val_main_v27
  rw [gather_row1 gather_S100000_S1700000x1_S1700000_n_0_n_n_0_1_1 rfl rfl rfl rfl _ _ e (by norm_num),
    gather_row1 gather_S100000_S1700000x1_S1700000_n_0_n_n_0_1_1 rfl rfl rfl rfl _ _ e (by norm_num)]
  rfl

/-! ## One layer of the program, for any input rows

Both layers are the same operations: the rows times the weights, the product's rows taken at the source column, each
scaled by its edge's factor, summed into zeros at the destination column, the bias added, the result rectified. -/

section LayerTerm
variable {F : FTy → Type} [FloatOps F]

/-- A layer before the rectifier, as a function of its input rows `y`, weights `W`, bias `b` and the edge list. -/
def layerPre (y : (⟨S100000x64, .f32⟩ : BufTy).Contents (Elt F)) (W : (⟨S64x64, .f32⟩ : BufTy).Contents (Elt F))
    (b : (⟨S64, .f32⟩ : BufTy).Contents (Elt F)) (x5 : (⟨S2x1600000, .i32⟩ : BufTy).Contents (Elt F)) :
    (⟨S100000x64, .f32⟩ : BufTy).Contents (Elt F) :=
  addf (Host.scatterAdd scatter_S100000x64_S1700000x1_S1700000x64_1_0_0_1 (val_main_v40 (F := F)) (val_main_v9 (F := F) x5)
      (mulf (Host.gather gather_S100000x64_S1700000x1_S1700000x64_1_0_n_n_0_1_164
          (Host.dotGeneral dot_S100000x64_S64x64_S100000x64_1_0_0_1_n_n none y W) (val_main_v19 (F := F) x5))
        (val_main_v38 (F := F) x5)))
    (val_main_v44 (F := F) b)

/-- A layer: the rectifier over `layerPre`. -/
def layerOut (y : (⟨S100000x64, .f32⟩ : BufTy).Contents (Elt F)) (W : (⟨S64x64, .f32⟩ : BufTy).Contents (Elt F))
    (b : (⟨S64, .f32⟩ : BufTy).Contents (Elt F)) (x5 : (⟨S2x1600000, .i32⟩ : BufTy).Contents (Elt F)) :
    (⟨S100000x64, .f32⟩ : BufTy).Contents (Elt F) :=
  maximumf (layerPre y W b x5) (val_main_call0_v0 (F := F))

/-- The first layer's pre-activation is `layerPre` of the node features. -/
theorem v45_eq (x0 : (⟨S100000x64, .f32⟩ : BufTy).Contents (Elt F)) (x1 : (⟨S64x64, .f32⟩ : BufTy).Contents (Elt F))
    (x2 : (⟨S64, .f32⟩ : BufTy).Contents (Elt F)) (x5 : (⟨S2x1600000, .i32⟩ : BufTy).Contents (Elt F)) :
    val_main_v45 (F := F) x0 x1 x2 x5 = layerPre x0 x1 x2 x5 := rfl

/-- The first layer is `layerOut` of the node features. -/
theorem v46_eq (x0 : (⟨S100000x64, .f32⟩ : BufTy).Contents (Elt F)) (x1 : (⟨S64x64, .f32⟩ : BufTy).Contents (Elt F))
    (x2 : (⟨S64, .f32⟩ : BufTy).Contents (Elt F)) (x5 : (⟨S2x1600000, .i32⟩ : BufTy).Contents (Elt F)) :
    val_main_v46 (F := F) x0 x1 x2 x5 = layerOut x0 x1 x2 x5 := rfl

/-- The second layer's pre-activation is `layerPre` of the first layer. -/
theorem v62_eq (x0 : (⟨S100000x64, .f32⟩ : BufTy).Contents (Elt F)) (x1 : (⟨S64x64, .f32⟩ : BufTy).Contents (Elt F))
    (x2 : (⟨S64, .f32⟩ : BufTy).Contents (Elt F)) (x3 : (⟨S64x64, .f32⟩ : BufTy).Contents (Elt F))
    (x4 : (⟨S64, .f32⟩ : BufTy).Contents (Elt F)) (x5 : (⟨S2x1600000, .i32⟩ : BufTy).Contents (Elt F)) :
    val_main_v62 (F := F) x0 x1 x2 x3 x4 x5 = layerPre (val_main_v46 (F := F) x0 x1 x2 x5) x3 x4 x5 := rfl

/-- The second layer is `layerOut` of the first layer. -/
theorem v63_eq (x0 : (⟨S100000x64, .f32⟩ : BufTy).Contents (Elt F)) (x1 : (⟨S64x64, .f32⟩ : BufTy).Contents (Elt F))
    (x2 : (⟨S64, .f32⟩ : BufTy).Contents (Elt F)) (x3 : (⟨S64x64, .f32⟩ : BufTy).Contents (Elt F))
    (x4 : (⟨S64, .f32⟩ : BufTy).Contents (Elt F)) (x5 : (⟨S2x1600000, .i32⟩ : BufTy).Contents (Elt F)) :
    val_main_v63 (F := F) x0 x1 x2 x3 x4 x5 = layerOut (val_main_v46 (F := F) x0 x1 x2 x5) x3 x4 x5 := rfl

end LayerTerm

/-! ## A layer read at an index -/

/-- At the extended reals the host's accumulating scatter is the exact sum. -/
theorem hostScatterAdd_eq {s si u : Shape} {w : Nat} {φ : FTy} (d : ScatterDims s si u) (x : FVec Ideal s φ) (idx : IVec si w)
    (upd : FVec Ideal u φ) : Host.scatterAdd d x idx upd = Ideal.hostScatterAdd d x idx upd := rfl

/-- Row `s`, column `j` of the rows times the weights. -/
theorem dot_rows (y : (⟨S100000x64, .f32⟩ : BufTy).Contents (Elt Ideal)) (W : (⟨S64x64, .f32⟩ : BufTy).Contents (Elt Ideal))
    (s : Fin 100000) (j : Fin 64) :
    Host.dotGeneral (F := Ideal) (φ₁ := .f32) (φ₂ := .f32) dot_S100000x64_S64x64_S100000x64_1_0_0_1_n_n none y W (ix2 s j)
      = mm (fun s k => y (ix2 s k)) (fun k j => W (ix2 k j)) s j := by
  have h := val_main_v30_apply y W (ix2 s j)
  unfold val_main_v30 at h
  rw [h]
  unfold mm
  refine Finset.sum_congr rfl fun k _ => ?_
  have hl : lidx_main_v30 (ix2 s j) k = ix2 s k := funext fun a => by
    match a with
    | ⟨0, _⟩ => rfl
    | ⟨1, _⟩ => rfl
  have hr : ridx_main_v30 (ix2 s j) k = ix2 k j := funext fun a => by
    match a with
    | ⟨0, _⟩ => rfl
    | ⟨1, _⟩ => rfl
  rw [hl, hr]

/-- The zero the layer sums are scattered into. -/
theorem v40_apply (i : Fin 100000) (j : Fin 64) : val_main_v40 (F := Ideal) (ix2 i j) = 0 := by
  rw [val_main_v40_apply, val_main_cst_7_apply]
  exact Ideal.ofBits_zero_f32

/-- The zero the rectifier compares with. -/
theorem call0_v0_apply (i : Fin 100000) (j : Fin 64) : val_main_call0_v0 (F := Ideal) (ix2 i j) = 0 := by
  rw [val_main_call0_v0_apply, val_main_call0_cst_apply]
  exact Ideal.ofBits_zero_f32

/-- The bias broadcast over the rows reads the bias at the column. -/
theorem bias_apply (b : (⟨S64, .f32⟩ : BufTy).Contents (Elt Ideal)) (i : Fin 100000) (j : Fin 64) :
    val_main_v44 (F := Ideal) b (ix2 i j) = b (ix1 j) := by
  rw [val_main_v44_apply, val_main_v43_apply]
  exact congrArg b (funext fun a => by
    match a with
    | ⟨0, _⟩ => rfl)

/-- The edge factor broadcast over the columns reads the factor of the row's edge. -/
theorem v38_apply (x5 : (⟨S2x1600000, .i32⟩ : BufTy).Contents (Elt Ideal)) (e : Fin 1700000) (j : Fin 64) :
    val_main_v38 (F := Ideal) x5 (ix2 e j) = val_main_v28 (F := Ideal) x5 (ix1 e) := by
  rw [val_main_v38_apply, val_main_v29_apply]
  exact congrArg (val_main_v28 (F := Ideal) x5) (funext fun a => by
    match a with
    | ⟨0, _⟩ => rfl)

/-- A layer before the rectifier at row `i`, column `j`: the sum, over the edges landing on `i`, of the transformed
    source row times the edge's factor, into zero, plus the bias. -/
theorem layerPre_apply (y : (⟨S100000x64, .f32⟩ : BufTy).Contents (Elt Ideal)) (W : (⟨S64x64, .f32⟩ : BufTy).Contents (Elt Ideal))
    (b : (⟨S64, .f32⟩ : BufTy).Contents (Elt Ideal)) (x5 : (⟨S2x1600000, .i32⟩ : BufTy).Contents (Elt Ideal))
    (i : Fin 100000) (j : Fin 64) :
    layerPre (F := Ideal) y W b x5 (ix2 i j)
      = (0 + ∑ e ∈ into (val_main_v9 (F := Ideal) x5) i,
            mm (fun s k => y (ix2 s k)) (fun k j => W (ix2 k j)) (srow (val_main_v19 (F := Ideal) x5) e) j
              * (val_main_v13 (F := Ideal) x5 (ix1 (srow (val_main_v19 (F := Ideal) x5) e))
                  * val_main_v13 (F := Ideal) x5 (ix1 (drow (val_main_v26 (F := Ideal) x5) e))))
          + b (ix1 j) := by
  unfold layerPre
  rw [addf_apply, bias_apply, hostScatterAdd_eq,
    scatterAdd_rows scatter_S100000x64_S1700000x1_S1700000x64_1_0_0_1 rfl rfl rfl rfl _ _ _ i j, v40_apply]
  unfold into
  refine congrArg (fun z => 0 + z + b (ix1 j)) (Finset.sum_congr rfl fun e _ => ?_)
  rw [mulf_apply,
    gather_rows gather_S100000x64_S1700000x1_S1700000x64_1_0_n_n_0_1_164 rfl rfl rfl rfl rfl rfl _ _ e j (by norm_num),
    dot_rows, v38_apply, edge_factor]
  rfl

/-- A layer at row `i`, column `j` is the specification's reference layer. -/
theorem layerOut_apply (y : (⟨S100000x64, .f32⟩ : BufTy).Contents (Elt Ideal)) (W : (⟨S64x64, .f32⟩ : BufTy).Contents (Elt Ideal))
    (b : (⟨S64, .f32⟩ : BufTy).Contents (Elt Ideal)) (x5 : (⟨S2x1600000, .i32⟩ : BufTy).Contents (Elt Ideal))
    (i : Fin 100000) (j : Fin 64) :
    layerOut (F := Ideal) y W b x5 (ix2 i j)
      = refLayer (val_main_v19 (F := Ideal) x5) (val_main_v9 (F := Ideal) x5) (val_main_v26 (F := Ideal) x5)
          (fun i => val_main_v13 (F := Ideal) x5 (ix1 i)) (fun s k => y (ix2 s k)) (fun k j => W (ix2 k j))
          (fun j => b (ix1 j)) i j := by
  unfold layerOut refLayer
  rw [maximumf_apply, layerPre_apply, call0_v0_apply]

/-! ## The two layers -/

/-- The first layer's pre-activation at row `i`, column `j`. -/
theorem v45_at (x0 : (⟨S100000x64, .f32⟩ : BufTy).Contents (Elt Ideal)) (x1 : (⟨S64x64, .f32⟩ : BufTy).Contents (Elt Ideal))
    (x2 : (⟨S64, .f32⟩ : BufTy).Contents (Elt Ideal)) (x5 : (⟨S2x1600000, .i32⟩ : BufTy).Contents (Elt Ideal))
    (i : Fin 100000) (j : Fin 64) :
    val_main_v45 (F := Ideal) x0 x1 x2 x5 (ix2 i j)
      = (0 + ∑ e ∈ into (val_main_v9 (F := Ideal) x5) i,
            mm (fun s k => x0 (ix2 s k)) (fun k j => x1 (ix2 k j)) (srow (val_main_v19 (F := Ideal) x5) e) j
              * (val_main_v13 (F := Ideal) x5 (ix1 (srow (val_main_v19 (F := Ideal) x5) e))
                  * val_main_v13 (F := Ideal) x5 (ix1 (drow (val_main_v26 (F := Ideal) x5) e))))
          + x2 (ix1 j) := by
  rw [v45_eq, layerPre_apply]

/-- The first layer at row `i`, column `j` is the reference layer of the node features. -/
theorem v46_at (x0 : (⟨S100000x64, .f32⟩ : BufTy).Contents (Elt Ideal)) (x1 : (⟨S64x64, .f32⟩ : BufTy).Contents (Elt Ideal))
    (x2 : (⟨S64, .f32⟩ : BufTy).Contents (Elt Ideal)) (x5 : (⟨S2x1600000, .i32⟩ : BufTy).Contents (Elt Ideal))
    (i : Fin 100000) (j : Fin 64) :
    val_main_v46 (F := Ideal) x0 x1 x2 x5 (ix2 i j)
      = refLayer (val_main_v19 (F := Ideal) x5) (val_main_v9 (F := Ideal) x5) (val_main_v26 (F := Ideal) x5)
          (fun i => val_main_v13 (F := Ideal) x5 (ix1 i)) (fun s k => x0 (ix2 s k)) (fun k j => x1 (ix2 k j))
          (fun j => x2 (ix1 j)) i j := by
  rw [v46_eq, layerOut_apply]

/-- The second layer at row `i`, column `j` is the reference layer of the first. -/
theorem v63_at (x0 : (⟨S100000x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S2x1600000, .i32⟩ : BufTy).Contents (Elt Ideal))
    (i : Fin 100000) (j : Fin 64) :
    val_main_v63 (F := Ideal) x0 x1 x2 x3 x4 x5 (ix2 i j)
      = refLayer (val_main_v19 (F := Ideal) x5) (val_main_v9 (F := Ideal) x5) (val_main_v26 (F := Ideal) x5)
          (fun i => val_main_v13 (F := Ideal) x5 (ix1 i))
          (refLayer (val_main_v19 (F := Ideal) x5) (val_main_v9 (F := Ideal) x5) (val_main_v26 (F := Ideal) x5)
            (fun i => val_main_v13 (F := Ideal) x5 (ix1 i)) (fun s k => x0 (ix2 s k)) (fun k j => x1 (ix2 k j))
            (fun j => x2 (ix1 j)))
          (fun k j => x3 (ix2 k j)) (fun j => x4 (ix1 j)) i j := by
  have h : (fun (s : Fin 100000) (k : Fin 64) => val_main_v46 (F := Ideal) x0 x1 x2 x5 (ix2 s k))
      = refLayer (val_main_v19 (F := Ideal) x5) (val_main_v9 (F := Ideal) x5) (val_main_v26 (F := Ideal) x5)
          (fun i => val_main_v13 (F := Ideal) x5 (ix1 i)) (fun s k => x0 (ix2 s k)) (fun k j => x1 (ix2 k j))
          (fun j => x2 (ix1 j)) :=
    funext fun s => funext fun k => v46_at x0 x1 x2 x5 s k
  rw [v63_eq, layerOut_apply, h]

/-! ## The mean pool -/

/-- The zero the pooled sums are scattered into. -/
theorem v68_apply (g : Fin 1000) (j : Fin 64) : val_main_v68 (F := Ideal) (ix2 g j) = 0 := by
  rw [val_main_v68_apply, val_main_cst_13_apply]
  exact Ideal.ofBits_zero_f32

/-- The pooled sum of graph `g`, column `j`: the second layer's rows whose graph id lands on `g`, summed into zero. -/
theorem v70_at (x0 : (⟨S100000x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S2x1600000, .i32⟩ : BufTy).Contents (Elt Ideal))
    (x6 : (⟨S100000, .i32⟩ : BufTy).Contents (Elt Ideal)) (g : Fin 1000) (j : Fin 64) :
    val_main_v70 (F := Ideal) x0 x1 x2 x3 x4 x5 x6 (ix2 g j)
      = 0 + ∑ i ∈ rowsOf (val_main_v66 (F := Ideal) x6) g, val_main_v63 (F := Ideal) x0 x1 x2 x3 x4 x5 (ix2 i j) := by
  unfold val_main_v70
  rw [hostScatterAdd_eq, scatterAdd_rows scatter_S1000x64_S100000x1_S100000x64_1_0_0_1 rfl rfl rfl rfl _ _ _ g j, v68_apply,
    v69_eq_v66]
  rfl

/-- The divisor of graph `g`, at every column: the graph's size, at least one. -/
theorem v74_at (x6 : (⟨S100000, .i32⟩ : BufTy).Contents (Elt Ideal)) (g : Fin 1000) (j : Fin 64) :
    val_main_v74 (F := Ideal) x6 (ix2 g j) = max (val_main_v67 (F := Ideal) x6 (ix1 g)) 1 := by
  have hi : idx_main_v73 (idx_main_v74 (ix2 g j)) = ix1 g := funext fun a => by
    match a with
    | ⟨0, _⟩ => rfl
  rw [val_main_v74_apply, val_main_v73_apply, hi, val_main_v72_apply, val_main_v71_apply, val_main_cst_14_apply,
    Ideal.maximumf_def, Ideal.ofBits_def, Ideal.ofBits_one_f32]

/-! ## The result -/

/-- THE REFERENCE'S RESULT at graph `g`, column `j`: the mean pool of the two reference layers. -/
theorem ref_result (x0 : (⟨S100000x64, .f32⟩ : BufTy).Contents (Elt Ideal)) (x1 : (⟨S64x64, .f32⟩ : BufTy).Contents (Elt Ideal))
    (x2 : (⟨S64, .f32⟩ : BufTy).Contents (Elt Ideal)) (x3 : (⟨S64x64, .f32⟩ : BufTy).Contents (Elt Ideal))
    (x4 : (⟨S64, .f32⟩ : BufTy).Contents (Elt Ideal)) (x5 : (⟨S2x1600000, .i32⟩ : BufTy).Contents (Elt Ideal))
    (x6 : (⟨S100000, .i32⟩ : BufTy).Contents (Elt Ideal)) (g : Fin 1000) (j : Fin 64) :
    val_main_v75 (F := Ideal) x0 x1 x2 x3 x4 x5 x6 (ix2 g j)
      = refOut (val_main_v66 (F := Ideal) x6) (fun g => val_main_v67 (F := Ideal) x6 (ix1 g))
          (refLayer (val_main_v19 (F := Ideal) x5) (val_main_v9 (F := Ideal) x5) (val_main_v26 (F := Ideal) x5)
            (fun i => val_main_v13 (F := Ideal) x5 (ix1 i))
            (refLayer (val_main_v19 (F := Ideal) x5) (val_main_v9 (F := Ideal) x5) (val_main_v26 (F := Ideal) x5)
              (fun i => val_main_v13 (F := Ideal) x5 (ix1 i)) (fun s k => x0 (ix2 s k)) (fun k j => x1 (ix2 k j))
              (fun j => x2 (ix1 j)))
            (fun k j => x3 (ix2 k j)) (fun j => x4 (ix1 j))) g j := by
  unfold refOut
  rw [val_main_v75_apply, Ideal.hostDivf_def, v70_at, v74_at]
  exact congrArg (fun z => Ideal.div (0 + z) (max (val_main_v67 (F := Ideal) x6 (ix1 g)) 1))
    (Finset.sum_congr rfl fun i _ => v63_at x0 x1 x2 x3 x4 x5 i j)

end Cert.ReferenceIdeal.RefValue

end
-- ==== Proof.Val.Finite.lean ====
/-
  EVERY FLOAT INPUT IS A REAL NUMBER. The precondition states that a conjunction of five reductions by `and`, one per float
  argument array, of the comparison |x| < +∞ taken entry by entry, is the bit 1. Read back: an extended real whose absolute
  value is below +∞ is neither infinity, so it is a real number; a reduction by `and` over every axis that is 1 had a 1 at
  every entry; and a conjunction that is 1 has both sides 1. So every entry of each of the five arrays is a real number.
-/
import proofs.«430571_j90941637525518_3_alg».proof.Defs
import proofs.«430571_j90941637525518_3_alg».proof.Proof.Layer.Algebra
import Idealize.ShloMosaic.Lib.ReduceAll
import Idealize.ShloMosaic.Lib.ValueIdx

noncomputable section

namespace Cert.FiniteInputs

open Idealize.ShloMosaic Idealize.SL.Sem Cert.LayerAlgebra

/-- The rank-0 shape has one index. -/
instance : Subsingleton Cert.Pre_finite_inputs.S_.Idx := ⟨fun _ _ => funext fun d => d.elim0⟩

/-- The f32 pattern 0x7F800000 denotes +∞. -/
theorem ofBits_inf : Ideal.ofBits .f32 0x7F800000#32 = (⊤ : EReal) := by
  simp [Ideal.ofBits, Ideal.ieee]

/-- An extended real whose absolute value compares below +∞ is a real number. -/
theorem isReal_of_abs_lt_inf (x : EReal)
    (h : Ideal.cmp .olt (max x (-x)) (Ideal.ofBits .f32 0x7F800000#32) = 1#1) : IsReal x := by
  rw [ofBits_inf] at h
  have hb : ∀ b : Bool, BitVec.ofBool b = 1#1 → b = true := by decide
  have hlt : max x (-x) < ⊤ := of_decide_eq_true (hb _ h)
  induction x using EReal.rec with
  | bot => simp at hlt
  | coe r => exact ⟨r, rfl⟩
  | top => simp at hlt

/-- One array: if the reduction by `and`, over every axis, of |x| < +∞ taken entry by entry is 1, every entry is a real number. -/
theorem all_real {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel) (x : FVec Ideal s .f32)
    (h : Host.reduce IntOp.andi
        (cmpf .olt (Host.absf x) (broadcastInDim s ![] hb (constant Cert.Pre_finite_inputs.S_ .f32 0x7F800000#32)))
        (constantI Cert.Pre_finite_inputs.S_ 1 1#1) hr hu ValueIdx.ix0 = 1#1) (i : s.Idx) : IsReal (x i) :=
  isReal_of_abs_lt_inf (x i) (Host.reduce_andi_all _ _ hr hu ValueIdx.ix0 h i)

/-- THE FIVE FLOAT ARGUMENTS HOLD REAL NUMBERS: on every device, every entry of the [100000 × 64] array, of the two
    [64 × 64] arrays and of the two [64] arrays is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i))
    ∧ (∀ i, IsReal (m ((c.tc : Thread Cert.KernelIdeal.nD Cert.KernelIdeal.τ).loc Cert.KernelIdeal.main_arg4) i)) := by
  have h0 := congrFun (h c) ValueIdx.ix0
  dsimp only [Cert.Pre_finite_inputs.fn, Cert.Pre_finite_inputs.fn_part1] at h0
  -- the conjunction, outermost first: ((((arg0 ∧ arg1) ∧ arg2) ∧ arg3) ∧ arg4)
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real _ _ _ _ h0', all_real _ _ _ _ h1, all_real _ _ _ _ h2, all_real _ _ _ _ h3, all_real _ _ _ _ h4⟩

end Cert.FiniteInputs

end
-- ==== Proof.Val.HostFacts.lean ====
/-
  Facts about the host stages the two programs share, read at the exact-arithmetic instance.

  The destination column. An edge lands on row `i` when its raw destination word, read signed, is `i`. Such a word is
  not negative, so the wrap of negative indices (add the table's height to a word below zero) leaves it alone: the
  normalised column holds the same word, and its clamp into the table is `i`.

  The counts. The degree of a row and the size of a graph are each zero plus a finite sum of ones, so they are real
  numbers; the degree factor is the reciprocal square root of a real number that is at least one, which is again a real
  number.
-/
import proofs.«430571_j90941637525518_3_alg».proof.Proof.Gen.ReferenceIdeal.Read
import proofs.«430571_j90941637525518_3_alg».proof.Proof.Val.Spec
import Idealize.ShloMosaic.Lib.IdealHost

noncomputable section

namespace Cert.ReferenceIdeal.HostFacts

open Cert.ReferenceIdeal Cert.ReferenceIdeal.Gen Cert.ReferenceIdeal.Read
open Idealize.ShloMosaic Idealize.ShloMosaic.ValueIdx Idealize.ShloMosaic.RowOps Idealize.ShloMosaic.StableHlo.Predicate
open Cert.LayerAlgebra
open scoped BigOperators

/-! ## The destination column -/

/-- A word that reads signed as a natural number is not below zero: the signed compare with the zero word is the bit 0. -/
theorem slt_zero_of_toInt_natCast (w : BitVec 32) (n : ℕ) (h : w.toInt = (n : Int)) : IntOp.cmpi .slt w 0#32 = 0#1 := by
  have h0 : (0#32 : BitVec 32).toInt = 0 := by decide
  have hlt : ¬ w.toInt < (0#32 : BitVec 32).toInt := by rw [h, h0]; omega
  show BitVec.ofBool (w.slt 0#32) = 0#1
  rw [BitVec.slt, decide_eq_false hlt]
  rfl

/-- An edge whose raw destination word reads signed as `i` reads the destination's degree factor at row `i`: the wrap of
    negative indices does not touch the word, and a word that reads as `i < 100000` is not clamped. -/
theorem dst_norm (x5 : (⟨S2x1600000, .i32⟩ : BufTy).Contents (Elt Ideal)) (e : Fin 1700000) (i : Fin 100000)
    (h : lands (val_main_v9 (F := Ideal) x5) e i.val) : Cert.GcnSpec.drow (val_main_v26 (F := Ideal) x5) e = i := by
  unfold Cert.GcnSpec.drow
  apply clampRow_of_lands
  -- both columns lay the same vector along axis 0: row `e` of either reads position `e`
  have h9 : val_main_v9 (F := Ideal) x5 (ixP e) = val_main_v6 (F := Ideal) x5 (ix1 e) := by
    rw [val_main_v9_apply]
    exact congrArg _ (funext fun a => match a with | ⟨0, _⟩ => rfl)
  have h26 : val_main_v26 (F := Ideal) x5 (ixP e) = val_main_v25 (F := Ideal) x5 (ix1 e) := by
    rw [val_main_v26_apply]
    exact congrArg _ (funext fun a => match a with | ⟨0, _⟩ => rfl)
  -- the raw word at position `e` reads signed as `i`
  have hw : (val_main_v6 (F := Ideal) x5 (ix1 e)).toInt = (i.val : Int) := by
    have := h
    unfold lands at this
    rw [h9] at this
    exact this
  -- so the compare with zero fails and the select keeps the raw word
  have h25 : val_main_v25 (F := Ideal) x5 (ix1 e) = val_main_v6 (F := Ideal) x5 (ix1 e) := by
    rw [val_main_v25_apply, val_main_v22_apply, val_main_v21_apply, val_main_c_3_apply,
      slt_zero_of_toInt_natCast _ i.val hw, select_zero]
  show (val_main_v26 (F := Ideal) x5 (ixP e)).toInt = (i.val : Int)
  rw [h26, h25, hw]

/-! ## The counts -/

/-- The larger of a real number and one is a real number that is positive. -/
theorem max_one_eq_coe (r : ℝ) : ∃ m : ℝ, 0 < m ∧ max (r : EReal) 1 = (m : EReal) := by
  rcases le_total r 1 with h1 | h1
  · refine ⟨1, one_pos, ?_⟩
    rw [max_eq_right (by exact_mod_cast h1)]
    rfl
  · refine ⟨r, lt_of_lt_of_le one_pos h1, ?_⟩
    rw [max_eq_left (by exact_mod_cast h1)]

/-- The reciprocal square root of a positive real number is a real number (the conventions at zero, at the infinities and
    below zero are not met). -/
theorem isReal_rsqrt_of_pos (m : ℝ) (hm : 0 < m) : IsReal (Ideal.rsqrt (m : EReal)) := by
  rw [Ideal.rsqrt_coe, if_neg (not_lt.2 hm.le), if_neg hm.ne']
  exact IsReal.coe _

/-- In exact arithmetic the host's accumulating scatter is the exact sum, at any shapes. -/
theorem scatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-- Scatter-adding real updates into a vector of real numbers, at a column of positions, gives real numbers: each entry is
    its old value plus a finite sum of updates. Stated at any sizes `K`, `n`, so that nothing depends on how many updates
    there are. -/
theorem isReal_scatterAdd_row1 {K n w : Nat} {φ : FTy} (d : ScatterDims ⟨1, ![K]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![K]⟩ φ) (idx : IVec ⟨2, ![n, 1]⟩ w) (upd : FVec Ideal ⟨1, ![n]⟩ φ)
    (hx : ∀ i : Fin K, IsReal (x (ix1 i))) (hu : ∀ e : Fin n, IsReal (upd (ix1 e))) (i : Fin K) :
    IsReal (Host.scatterAdd d x idx upd (ix1 i)) := by
  rw [scatterAdd_ideal, scatterAdd_row1 d huw hiw hsd hivd]
  exact (hx i).add (isReal_sum _ _ fun e _ => hu e)

/-- The size of graph `g`: zero plus one for every row whose graph id lands on `g`. A real number. -/
theorem cnt_isReal (x6 : (⟨S100000, .i32⟩ : BufTy).Contents (Elt Ideal)) (g : Fin 1000) :
    IsReal (val_main_v67 (F := Ideal) x6 (ix1 g)) := by
  have h0 : ∀ i : Fin 1000, IsReal (val_main_v65 (F := Ideal) (ix1 i)) := fun i => by
    rw [val_main_v65_apply, val_main_cst_12_apply, Ideal.ofBits_def, Ideal.ofBits_zero_f32]
    exact IsReal.zero
  have h1 : ∀ e : Fin 100000, IsReal (val_main_v64 (F := Ideal) (ix1 e)) := fun e => by
    rw [val_main_v64_apply, val_main_cst_11_apply, Ideal.ofBits_def, Ideal.ofBits_one_f32]
    exact IsReal.one
  exact isReal_scatterAdd_row1 scatter_S1000_S100000x1_S100000_n_0_0_1 rfl rfl rfl rfl
    (val_main_v65 (F := Ideal)) (val_main_v66 (F := Ideal) x6) (val_main_v64 (F := Ideal)) h0 h1 g

/-- The degree of row `i`: zero plus one for every edge (self loops included) that lands on `i`. A real number. -/
theorem deg_isReal (x5 : (⟨S2x1600000, .i32⟩ : BufTy).Contents (Elt Ideal)) (i : Fin 100000) :
    IsReal (val_main_v10 (F := Ideal) x5 (ix1 i)) := by
  have h0 : ∀ k : Fin 100000, IsReal (val_main_v8 (F := Ideal) (ix1 k)) := fun k => by
    rw [val_main_v8_apply, val_main_cst_0_apply, Ideal.ofBits_def, Ideal.ofBits_zero_f32]
    exact IsReal.zero
  have h1 : ∀ e : Fin 1700000, IsReal (val_main_v7 (F := Ideal) (ix1 e)) := fun e => by
    rw [val_main_v7_apply, val_main_cst_apply, Ideal.ofBits_def, Ideal.ofBits_one_f32]
    exact IsReal.one
  exact isReal_scatterAdd_row1 scatter_S100000_S1700000x1_S1700000_n_0_0_1 rfl rfl rfl rfl
    (val_main_v8 (F := Ideal)) (val_main_v9 (F := Ideal) x5) (val_main_v7 (F := Ideal)) h0 h1 i

/-- The degree factor of row `i`: the reciprocal square root of the degree raised to at least one. A real number. -/
theorem dinv_isReal (x5 : (⟨S2x1600000, .i32⟩ : BufTy).Contents (Elt Ideal)) (i : Fin 100000) :
    IsReal (val_main_v13 (F := Ideal) x5 (ix1 i)) := by
  obtain ⟨r, hr⟩ := deg_isReal x5 i
  obtain ⟨m, hm, hmax⟩ := max_one_eq_coe r
  have hone : val_main_v11 (F := Ideal) (ix1 i) = 1 := by
    rw [val_main_v11_apply, val_main_cst_1_apply, Ideal.ofBits_def, Ideal.ofBits_one_f32]
  rw [val_main_v13_apply, Ideal.hostUnary_rsqrt_def, val_main_v12_apply, Ideal.maximumf_def, hr, hone, hmax]
  exact isReal_rsqrt_of_pos m hm

end Cert.ReferenceIdeal.HostFacts

end
-- ==== Proof.Val.Region01Value.lean ====
/-
  What the first two kernel regions leave in their output arrays, as one whole-array function of the arrays each region
  is entered with, index by index, over the extended reals (a change of float format is the identity there, and a block
  product into a zero accumulator is zero plus the sum over the contraction index of the operands' products).

  Region 0, the linear layer with the source-side scale: entry (s, j) of the output is the product of row s of the
  features with column j of the weights, times entry s of the scale column. Region 1, the fused layer boundary: row s
  of the aggregate is scaled by entry s of the column, the bias row is added, the result is rectified, multiplied into the
  weights, and scaled by entry s of the column again.

  The road for each region: the body's one stored value at an index of the block (the pointwise operations pushed
  through, the column and row broadcasts read at their one coordinate, the block product re-indexed over the 64
  contraction positions); the output buffer after the body is that value; the block a grid point writes back is its
  block of the whole-array function (block t holds rows 5000 t … 5000 t + 4999, the weights and the bias row are whole at
  every point); the twenty blocks cover the array (row r is in block r / 5000).
-/
import proofs.«430571_j90941637525518_3_alg».proof.Proof.Fr.Region0
import proofs.«430571_j90941637525518_3_alg».proof.Proof.Fr.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

/-! ## Layout operations and the block product at an index -/

theorem hz : (![0, 0] : Fin 2 → Nat) = fun _ => 0 := funext fun a => by fin_cases a <;> rfl

/-- A column `[a, 1]` broadcast to `[a, b]` reads, at `(p, q)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The operand indices of the block product `[5000, 64] × [64, 64]`, axis by axis: the left operand is read at the
    output's row and the contraction position, the right at the contraction position and the output's column. -/
theorem lhs_mm_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_mm_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_mm_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_mm_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into the zero accumulator, at `(p, q)`: the sum over the 64 contraction positions of the left
    operand's row `p` times the right operand's column `q`. -/
theorem mm_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhs_mm_0 _ _
    | ⟨1, _⟩ => exact (lhs_mm_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhs_mm_0 _ _).trans hk
    | ⟨1, _⟩ => exact rhs_mm_1 _ _)
  rw [el, er]

/-! ## Region 0: the stored value at an index of the block -/

/-- The body's one stored value at `(p, q)` of the block: row `p` of the feature block times column `q` of the weights,
    scaled by entry `p` of the column block. -/
theorem pay0_apply (x0 : Vec Ideal S5000x64 .f32) (x1 : Vec Ideal S64x64 .f32) (x2 : Vec Ideal S5000x1 .f32) (p : Fin 5000) (q : Fin 64) :
    (k0_pay1 x0 x1 x2 : S5000x64.Idx → EReal) (ix2 p q)
      = (0 + ∑ k : Fin 64, (x0 : S5000x64.Idx → EReal) (ix2 p k) * (x1 : S64x64.Idx → EReal) (ix2 k q)) * (x2 : S5000x1.Idx → EReal) (ix2 p (0 : Fin 1)) := by
  unfold k0_pay1
  rw [truncf_apply, mulf_apply, mm_apply, broadcastTo_a1_ab_apply, shapeCast_self, zero_add]
  rfl

/-- The same with the three blocks' entries named by whole-array entries: what a grid point's blocks give. -/
theorem blk0_value (A0 : S100000x64.Idx → EReal) (A1 : S64x64.Idx → EReal) (A2 : S100000x1.Idx → EReal)
    (x0 : Vec Ideal S5000x64 .f32) (x1 : Vec Ideal S64x64 .f32) (x2 : Vec Ideal S5000x1 .f32)
    (s : Fin 100000) (p : Fin 5000) (q : Fin 64)
    (h0 : ∀ k : Fin 64, (x0 : S5000x64.Idx → EReal) (ix2 p k) = A0 (ix2 s k))
    (h1 : ∀ k : Fin 64, (x1 : S64x64.Idx → EReal) (ix2 k q) = A1 (ix2 k q))
    (h2 : (x2 : S5000x1.Idx → EReal) (ix2 p (0 : Fin 1)) = A2 (ix2 s (0 : Fin 1))) :
    (k0_pay1 x0 x1 x2 : S5000x64.Idx → EReal) (ix2 p q)
      = (0 + ∑ k : Fin 64, A0 (ix2 s k) * A1 (ix2 k q)) * A2 (ix2 s (0 : Fin 1)) := by
  rw [pay0_apply, h2, Finset.sum_congr rfl fun k _ => by rw [h0 k, h1 k]]

/-- The output buffer after the body holds the stored value. -/
theorem out0_3_eq (x0 : Vec Ideal S5000x64 .f32) (x1 : Vec Ideal S64x64 .f32) (x2 : Vec Ideal S5000x1 .f32) :
    out0_3 x0 x1 x2 = k0_pay1 x0 x1 x2 := by
  unfold out0_3
  rw [View.canon_unit_zero hz]
  simp only [View.ld_unit_zero (S := S5000x64) hz, View.ld_unit_zero (S := S64x64) hz, View.ld_unit_zero (S := S5000x1) hz]

/-! ## Region 0: from the blocks to the array -/

-- the arrays as the region finds them
variable (V : (c : Dev nD) → (b : Ref sig .tc) → Buf (Elt Ideal) ((c : Thread nD τ).loc b))

/-- The arrays region 0 reads as it finds them: the node features, the first weight matrix, the scale column. -/
abbrev arrX (c : Dev nD) : S100000x64.Idx → EReal := V c main_arg0
abbrev arrW1 (c : Dev nD) : S64x64.Idx → EReal := V c main_arg1
abbrev arrD (c : Dev nD) : S100000x1.Idx → EReal := V c main_call0_v14

theorem N0 : cfg0.N = 20 := by decide

/-- The windows' index maps over the grid: at point `t` the feature block, the column block and the output block are
    block `t` of their arrays' rows; the weights are whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What the output array of region 0 ends holding: entry `(s, j)` is row `s` of the features times column `j` of the
    weights, scaled by entry `s` of the column. -/
def lin1 (c : Dev nD) : S100000x64.Idx → EReal := fun i =>
  (0 + ∑ k : Fin 64, arrX V c (ix2 (i 0 : Fin 100000) k) * arrW1 V c (ix2 k (i 1 : Fin 64))) * arrD V c (ix2 (i 0 : Fin 100000) (0 : Fin 1))

/-- What point `t` writes back is block `t` of that function. -/
theorem flushed0_eq (c : Dev nD) (t : Fin cfg0.N) :
    (dat0 V c).flushed 3 t = ((cfg0.win 3).blk t).view.read (Elt Ideal) (lin1 V c) := by
  show (cfg0.win 3).cut (grid0.coords t) ((dat0 V c).after 3 t) = _
  rw [after0_3, out0_3_eq]
  obtain ⟨e00, e01, e10, e11, e20, e21, e30, e31⟩ := idx_facts0 t
  have ht : t.val < 20 := lt_of_lt_of_eq t.isLt N0
  funext y
  obtain ⟨p, q, rfl⟩ : ∃ (p : Fin 5000) (q : Fin 64), y = ix2 p q := ⟨y 0, y 1, eq_ix2 y⟩
  have hp : p.val < 5000 := p.isLt
  have hemb : ((cfg0.win 3).blk t).view.emb (ix2 p q) = (ix2 (⟨t.val * 5000 + p.val, by omega⟩ : Fin 100000) q : S100000x64.Idx) :=
    funext fun a => Fin.ext (by
      match a with
      | ⟨0, _⟩ => show win0_3.index t (0 : Fin 2) * 5000 + 1 * p.val = t.val * 5000 + p.val; rw [e30]; omega
      | ⟨1, _⟩ => show win0_3.index t (1 : Fin 2) * 64 + 1 * q.val = q.val; rw [e31]; omega)
  show (k0_pay1 (iblk0 V c 0 t) (iblk0 V c 1 t) (iblk0 V c 2 t) : S5000x64.Idx → EReal) (ix2 p q) = lin1 V c (((cfg0.win 3).blk t).view.emb (ix2 p q))
  rw [hemb]
  refine blk0_value (arrX V c) (arrW1 V c) (arrD V c) (iblk0 V c 0 t) (iblk0 V c 1 t) (iblk0 V c 2 t)
    ⟨t.val * 5000 + p.val, by omega⟩ p q (fun k => ?_) (fun k => ?_) ?_
  · show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  · show V c main_arg1 (((cfg0.win 1).blk t).view.emb (ix2 k q)) = V c main_arg1 _
    refine congrArg _ (funext fun a => Fin.ext ?_)
    match a with
    | ⟨0, _⟩ => show win0_1.index t (0 : Fin 2) * 64 + 1 * k.val = k.val; rw [e10]; omega
    | ⟨1, _⟩ => show win0_1.index t (1 : Fin 2) * 64 + 1 * q.val = q.val; rw [e11]; omega
  · show V c main_call0_v14 (((cfg0.win 2).blk t).view.emb (ix2 p (0 : Fin 1))) = V c main_call0_v14 _
    refine congrArg _ (funext fun a => Fin.ext ?_)
    match a with
    | ⟨0, _⟩ => show win0_2.index t (0 : Fin 2) * 5000 + 1 * p.val = t.val * 5000 + p.val; rw [e20]; omega
    | ⟨1, _⟩ => show win0_2.index t (1 : Fin 2) * 1 + 1 * 0 = 0; rw [e21]

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_call0_v27).slice (win0_3.rect t)).set ↔ _
  rw [View.set_slice_whole, Rect.mem_set_unit]
  exact Iff.rfl

/-- Every index of the array is in some point's block: row `r` is in block `r / 5000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hlt : (i 0).val / 5000 < cfg0.N := by rw [N0]; omega
  obtain ⟨-, -, -, -, -, -, e30, e31⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e31]; omega

/-- The output array of region 0 after the region is that function. -/
theorem arr0_eq (c : Dev nD) : (dat0 V c).arrAt 3 cfg0.N = lin1 V c :=
  (dat0 V c).arrAt_eq_of_cover 3 (lin1 V c) (fun t _ => flushed0_eq V c t) cover0

/-- Region 0's output at `(s, j)`. -/
theorem lin1_apply (c : Dev nD) (s : Fin 100000) (j : Fin 64) :
    ((dat0 (F := Ideal) V c).arrAt 3 cfg0.N : S100000x64.Idx → EReal) (ix2 s j)
      = (0 + ∑ k : Fin 64, arrX V c (ix2 s k) * arrW1 V c (ix2 k j)) * arrD V c (ix2 s (0 : Fin 1)) := by
  rw [arr0_eq]
  rfl

/-! ## Region 1: the stored value at an index of the block -/

/-- The body's one stored value at `(p, q)` of the block: row `p` of the aggregate block scaled by entry `p` of the
    column block, the bias row added, rectified, times column `q` of the weights, scaled by entry `p` of the column again. -/
theorem pay1_apply (v0 : Vec Ideal S5000x1 .f32) (v2 : Vec Ideal S5000x64 .f32) (v6 : Vec Ideal S1x64 .f32)
    (v13 : Vec Ideal S64x64 .f32) (v16 : Vec Ideal S5000x1 .f32) (p : Fin 5000) (q : Fin 64) :
    (k1_pay1 v0 v2 v6 v13 v16 : S5000x64.Idx → EReal) (ix2 p q)
      = (0 + ∑ k : Fin 64, max ((v0 : S5000x1.Idx → EReal) (ix2 p (0 : Fin 1)) * (v2 : S5000x64.Idx → EReal) (ix2 p k)
            + (v6 : S1x64.Idx → EReal) (ix2 (0 : Fin 1) k)) 0 * (v13 : S64x64.Idx → EReal) (ix2 k q))
          * (v16 : S5000x1.Idx → EReal) (ix2 p (0 : Fin 1)) := by
  unfold k1_pay1
  rw [truncf_apply, mulf_apply, mm_apply, broadcastTo_a1_ab_apply, zero_add]
  simp only [shapeCast_self]
  refine congrArg (fun z : EReal => z * (v16 : S5000x1.Idx → EReal) (ix2 p (0 : Fin 1))) (Finset.sum_congr rfl fun k _ => ?_)
  rw [truncf_apply, truncf_apply, maximumf_apply, addf_apply, mulf_apply, broadcast_apply, broadcastTo_a1_ab_apply,
    broadcastTo_1b_ab_apply]
  show max _ (Ideal.ofBits .f32 0x00000000#32) * _ = _
  rw [Ideal.ofBits_zero_f32]

/-- The same with the blocks' entries named by whole-array entries: what a grid point's blocks give. -/
theorem blk1_value (H : S100000x64.Idx → EReal) (Dc : S100000x1.Idx → EReal) (B : S1x64.Idx → EReal) (W : S64x64.Idx → EReal)
    (v0 : Vec Ideal S5000x1 .f32) (v2 : Vec Ideal S5000x64 .f32) (v6 : Vec Ideal S1x64 .f32)
    (v13 : Vec Ideal S64x64 .f32) (v16 : Vec Ideal S5000x1 .f32)
    (s : Fin 100000) (p : Fin 5000) (q : Fin 64)
    (h0 : (v0 : S5000x1.Idx → EReal) (ix2 p (0 : Fin 1)) = Dc (ix2 s (0 : Fin 1)))
    (h2 : ∀ k : Fin 64, (v2 : S5000x64.Idx → EReal) (ix2 p k) = H (ix2 s k))
    (h6 : ∀ k : Fin 64, (v6 : S1x64.Idx → EReal) (ix2 (0 : Fin 1) k) = B (ix2 (0 : Fin 1) k))
    (h13 : ∀ k : Fin 64, (v13 : S64x64.Idx → EReal) (ix2 k q) = W (ix2 k q))
    (h16 : (v16 : S5000x1.Idx → EReal) (ix2 p (0 : Fin 1)) = Dc (ix2 s (0 : Fin 1))) :
    (k1_pay1 v0 v2 v6 v13 v16 : S5000x64.Idx → EReal) (ix2 p q)
      = (0 + ∑ k : Fin 64, max (Dc (ix2 s (0 : Fin 1)) * H (ix2 s k) + B (ix2 (0 : Fin 1) k)) 0 * W (ix2 k q)) * Dc (ix2 s (0 : Fin 1)) := by
  rw [pay1_apply, h0, h16, Finset.sum_congr rfl fun k _ => by rw [h2 k, h6 k, h13 k]]

/-- The output buffer after the body holds the stored value (the column block is loaded twice). -/
theorem out1_4_eq (x0 : Vec Ideal S5000x64 .f32) (x1 : Vec Ideal S5000x1 .f32) (x2 : Vec Ideal S1x64 .f32) (x3 : Vec Ideal S64x64 .f32) :
    out1_4 x0 x1 x2 x3 = k1_pay1 x1 x0 x2 x3 x1 := by
  unfold out1_4
  rw [View.canon_unit_zero hz]
  simp only [View.ld_unit_zero (S := S5000x64) hz, View.ld_unit_zero (S := S64x64) hz, View.ld_unit_zero (S := S5000x1) hz,
    View.ld_unit_zero (S := S1x64) hz]

/-! ## Region 1: from the blocks to the array -/

/-- The arrays region 1 reads as it finds them: the aggregated messages, the bias row, the second weight matrix (and the
    scale column, as region 0). -/
abbrev arrH (c : Dev nD) : S100000x64.Idx → EReal := V c main_call0_v38
abbrev arrB (c : Dev nD) : S1x64.Idx → EReal := V c main_call0_v25
abbrev arrW2 (c : Dev nD) : S64x64.Idx → EReal := V c main_arg3

theorem N1 : cfg1.N = 20 := by decide

/-- The windows' index maps over the grid: at point `t` the aggregate block, the column block and the output block are
    block `t` of their arrays' rows; the bias row and the weights are whole. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What the output array of region 1 ends holding: at `(s, j)`, row `s` of the aggregate scaled by entry `s` of the
    column, the bias row added, rectified, times column `j` of the weights, scaled by entry `s` of the column. -/
def lin2 (c : Dev nD) : S100000x64.Idx → EReal := fun i =>
  (0 + ∑ k : Fin 64, max (arrD V c (ix2 (i 0 : Fin 100000) (0 : Fin 1)) * arrH V c (ix2 (i 0 : Fin 100000) k) + arrB V c (ix2 (0 : Fin 1) k)) 0
      * arrW2 V c (ix2 k (i 1 : Fin 64))) * arrD V c (ix2 (i 0 : Fin 100000) (0 : Fin 1))

/-- What point `t` writes back is block `t` of that function. -/
theorem flushed1_eq (c : Dev nD) (t : Fin cfg1.N) :
    (dat1 V c).flushed 4 t = ((cfg1.win 4).blk t).view.read (Elt Ideal) (lin2 V c) := by
  show (cfg1.win 4).cut (grid1.coords t) ((dat1 V c).after 4 t) = _
  rw [after1_4, out1_4_eq]
  obtain ⟨e00, e01, e10, e11, e20, e21, e30, e31, e40, e41⟩ := idx_facts1 t
  have ht : t.val < 20 := lt_of_lt_of_eq t.isLt N1
  funext y
  obtain ⟨p, q, rfl⟩ : ∃ (p : Fin 5000) (q : Fin 64), y = ix2 p q := ⟨y 0, y 1, eq_ix2 y⟩
  have hp : p.val < 5000 := p.isLt
  have hemb : ((cfg1.win 4).blk t).view.emb (ix2 p q) = (ix2 (⟨t.val * 5000 + p.val, by omega⟩ : Fin 100000) q : S100000x64.Idx) :=
    funext fun a => Fin.ext (by
      match a with
      | ⟨0, _⟩ => show win1_4.index t (0 : Fin 2) * 5000 + 1 * p.val = t.val * 5000 + p.val; rw [e40]; omega
      | ⟨1, _⟩ => show win1_4.index t (1 : Fin 2) * 64 + 1 * q.val = q.val; rw [e41]; omega)
  show (k1_pay1 (iblk1 V c 1 t) (iblk1 V c 0 t) (iblk1 V c 2 t) (iblk1 V c 3 t) (iblk1 V c 1 t) : S5000x64.Idx → EReal) (ix2 p q)
    = lin2 V c (((cfg1.win 4).blk t).view.emb (ix2 p q))
  rw [hemb]
  have hd : (iblk1 V c 1 t : S5000x1.Idx → EReal) (ix2 p (0 : Fin 1)) = arrD V c (ix2 (⟨t.val * 5000 + p.val, by omega⟩ : Fin 100000) (0 : Fin 1)) := by
    show V c main_call0_v14 (((cfg1.win 1).blk t).view.emb (ix2 p (0 : Fin 1))) = V c main_call0_v14 _
    refine congrArg _ (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 1 + 1 * 0 = 0; rw [e11]
  refine blk1_value (arrH V c) (arrD V c) (arrB V c) (arrW2 V c) (iblk1 V c 1 t) (iblk1 V c 0 t) (iblk1 V c 2 t) (iblk1 V c 3 t) (iblk1 V c 1 t)
    ⟨t.val * 5000 + p.val, by omega⟩ p q hd (fun k => ?_) (fun k => ?_) (fun k => ?_) hd
  · show V c main_call0_v38 (((cfg1.win 0).blk t).view.emb (ix2 p k)) = V c main_call0_v38 _
    refine congrArg _ (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · show V c main_call0_v25 (((cfg1.win 2).blk t).view.emb (ix2 (0 : Fin 1) k)) = V c main_call0_v25 _
    refine congrArg _ (funext fun a => Fin.ext ?_)
    match a with
    | ⟨0, _⟩ => show win1_2.index t (0 : Fin 2) * 1 + 1 * 0 = 0; rw [e20]
    | ⟨1, _⟩ => show win1_2.index t (1 : Fin 2) * 64 + 1 * k.val = k.val; rw [e21]; omega
  · show V c main_arg3 (((cfg1.win 3).blk t).view.emb (ix2 k q)) = V c main_arg3 _
    refine congrArg _ (funext fun a => Fin.ext ?_)
    match a with
    | ⟨0, _⟩ => show win1_3.index t (0 : Fin 2) * 64 + 1 * k.val = k.val; rw [e30]; omega
    | ⟨1, _⟩ => show win1_3.index t (1 : Fin 2) * 64 + 1 * q.val = q.val; rw [e31]; omega

/-- An index of the array is in point `t`'s block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_call0_v39).slice (win1_4.rect t)).set ↔ _
  rw [View.set_slice_whole, Rect.mem_set_unit]
  exact Iff.rfl

/-- Every index of the array is in some point's block: row `r` is in block `r / 5000`. -/
theorem cover1 (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hlt : (i 0).val / 5000 < cfg1.N := by rw [N1]; omega
  obtain ⟨-, -, -, -, -, -, -, -, e40, e41⟩ := idx_facts1 ⟨(i 0).val / 5000, hlt⟩
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hlt⟩ (1 : Fin 2) * 64 ≤ (i 1).val ∧ (i 1).val < win1_4.index ⟨(i 0).val / 5000, hlt⟩ (1 : Fin 2) * 64 + 64
    rw [e41]; omega

/-- The output array of region 1 after the region is that function. -/
theorem arr1_eq (c : Dev nD) : (dat1 V c).arrAt 4 cfg1.N = lin2 V c :=
  (dat1 V c).arrAt_eq_of_cover 4 (lin2 V c) (fun t _ => flushed1_eq V c t) cover1

/-- Region 1's output at `(s, j)`. -/
theorem lin2_apply (c : Dev nD) (s : Fin 100000) (j : Fin 64) :
    ((dat1 (F := Ideal) V c).arrAt 4 cfg1.N : S100000x64.Idx → EReal) (ix2 s j)
      = (0 + ∑ k : Fin 64, max (arrD V c (ix2 s (0 : Fin 1)) * arrH V c (ix2 s k) + arrB V c (ix2 (0 : Fin 1) k)) 0 * arrW2 V c (ix2 k j))
          * arrD V c (ix2 s (0 : Fin 1)) := by
  rw [arr1_eq]
  rfl

end Cert.KernelIdeal.KV

end
-- ==== Proof.Val.Region2Value.lean ====
/-
  What the third kernel region (the mean pool) leaves in its output array, index by index, over the extended reals (a
  change of float format is the identity there, and a block product into a zero accumulator is zero plus the sum over the
  contraction index of the operands' products).

  The body keeps a running total in a scratch array across the 50 grid points. At the first point the scratch is set to
  zero; at every point the scratch at (g, j) grows by the sum, over the 2000 rows r of the point's tile, of the row's
  membership in graph g (one where the row's graph id is the word g, zero elsewhere) times the row's rectified entry j
  (the aggregate's row scaled by the row's column entry, the bias row added, the maximum with zero); at the last point
  the scratch, each row g scaled by entry g of the reciprocal-size column, is stored into the output, whose one block is
  the whole array and is written back at that point only.

  The road: each control case's stores read back as the stored values (generic in the float family); the stored values
  at an index over the extended reals (the pointwise operations pushed through, the column and row broadcasts read at
  their one coordinate, the product that contracts the 2000 rows of both operands re-indexed over those rows, the
  membership entry decided by the word compare); a tile's blocks named by the arrays' entries (block t holds rows
  2000 t … 2000 t + 1999); the scratch after point n is the running total up to n, by induction on n; the output array is
  the last point's one block.
-/
import proofs.«430571_j90941637525518_3_alg».proof.Proof.Fr.Region2
import proofs.«430571_j90941637525518_3_alg».proof.Proof.Val.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx Idealize.ShloMosaic.Tactic Idealize.SL.Sem
open Idealize.ShloMosaic.Pipeline (Dat)
open scoped BigOperators

variable {F : FTy → Type} [FloatOps F]

/-! ## What each control case's stores leave, as the stored values -/

theorem hz2 : (![0, 0] : Fin 2 → Nat) = fun _ => 0 := funext fun a => by fin_cases a <;> rfl

/-- A middle point leaves in the scratch the update of what it found there. -/
theorem sout2_B_0_eq (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : ¬cond2_1 i)
    (x0 : Vec F S2000x64 .f32) (x1 : Vec F S2000x1 .f32) (x2 : Vec F S1x64 .f32) (x3 : Vec F S2000x1 .i32) (x4 : Vec F S1000x1 .f32) (xs0 : Vec F S1000x64 .f32) :
    sout2_B_0 c i arg1 harg1 arg2 harg2 arg3 harg3 arg4 harg4 arg5 harg5 arg6 harg6 arg7 harg7 hc0 hc1 x0 x1 x2 x3 x4 xs0 = k2_pay2 x1 x0 x2 x3 xs0 := by
  unfold sout2_B_0
  rw [View.read_writes_eq_canon _ _ _ (scover2_B_0 c i arg1 harg1 arg2 harg2 arg3 harg3 arg4 harg4 arg5 harg5 arg6 harg6 arg7 harg7 hc0 hc1 x0 x1 x2 x3 x4 xs0)]
  unfold kernelRun2_B
  dsimp only
  sl_unfold_words
  rw [View.canon_unit_zero hz2]
  simp only [View.readAt_eq_ld, harg1.read_unread, harg2.read_unread, harg3.read_unread, harg4.read_unread, harg7.read_unread,
    View.ld_unit_zero (S := S2000x64) hz2, View.ld_unit_zero (S := S2000x1) hz2, View.ld_unit_zero (S := S1x64) hz2,
    View.ld_unit_zero (S := S1000x64) hz2]

/-- The last point leaves in the scratch the update of what it found there … -/
theorem sout2_C_0_eq (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) :
    sout2_C_0 c i arg1 harg1 arg2 harg2 arg3 harg3 arg4 harg4 arg5 harg5 arg6 harg6 arg7 harg7 hc0 hc1 x0 x1 x2 x3 x4 xs0 = k2_pay2 x1 x0 x2 x3 xs0 := by
  unfold sout2_C_0
  rw [View.read_writes_eq_canon _ _ _ (scover2_C_0 c i arg1 harg1 arg2 harg2 arg3 harg3 arg4 harg4 arg5 harg5 arg6 harg6 arg7 harg7 hc0 hc1 x0 x1 x2 x3 x4 xs0)]
  unfold kernelRun2_C
  dsimp only
  sl_unfold_words
  rw [View.canon_unit_zero hz2]
  simp only [View.readAt_eq_ld, harg1.read_unread, harg2.read_unread, harg3.read_unread, harg4.read_unread, harg7.read_unread,
    View.ld_unit_zero (S := S2000x64) hz2, View.ld_unit_zero (S := S2000x1) hz2, View.ld_unit_zero (S := S1x64) hz2,
    View.ld_unit_zero (S := S1000x64) hz2]

/-- … and in the output's buffer that update, read back, scaled by the reciprocal-size column. -/
theorem out2_C_5_eq (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : ¬cond2_0 i) (hc1 : cond2_1 i)
    (x0 : Vec F S2000x64 .f32) (x1 : Vec F S2000x1 .f32) (x2 : Vec F S1x64 .f32) (x3 : Vec F S2000x1 .i32) (x4 : Vec F S1000x1 .f32) (xs0 : Vec F S1000x64 .f32) :
    out2_C_5 c i arg1 harg1 arg2 harg2 arg3 harg3 arg4 harg4 arg5 harg5 arg6 harg6 arg7 harg7 hc0 hc1 x0 x1 x2 x3 x4 xs0 = k2_pay3 (k2_pay2 x1 x0 x2 x3 xs0) x4 := by
  unfold out2_C_5
  rw [View.read_writes_eq_canon _ _ _ (cover2_C_5 c i arg1 harg1 arg2 harg2 arg3 harg3 arg4 harg4 arg5 harg5 arg6 harg6 arg7 harg7 hc0 hc1 x0 x1 x2 x3 x4 xs0)]
  unfold kernelRun2_C
  dsimp only
  sl_unfold_words
  rw [View.canon_unit_zero hz2]
  simp only [View.readAt_eq_ld, harg1.read_unread, harg2.read_unread, harg3.read_unread, harg4.read_unread, harg5.read_unread, harg7.read_unread,
    View.readCov_unit_zero (S := S1000x64) _ hz2,
    View.ld_unit_zero (S := S2000x64) hz2, View.ld_unit_zero (S := S2000x1) hz2, View.ld_unit_zero (S := S1x64) hz2,
    View.ld_unit_zero (S := S1000x64) hz2, View.ld_unit_zero (S := S1000x1) hz2]

/-- The first point leaves in the scratch the update of the zero array: the reset, read back, then added to. -/
theorem sout2_A_0_eq (c : Dev nD) (i : grid2.Coords) (arg1 : Memref sig .tc .vmem S2000x64 .f32) (harg1 : arg1.IsWhole) (arg2 : Memref sig .tc .vmem S2000x1 .f32) (harg2 : arg2.IsWhole) (arg3 : Memref sig .tc .vmem S1x64 .f32) (harg3 : arg3.IsWhole) (arg4 : Memref sig .tc .vmem S2000x1 .i32) (harg4 : arg4.IsWhole) (arg5 : Memref sig .tc .vmem S1000x1 .f32) (harg5 : arg5.IsWhole) (arg6 : Memref sig .tc .vmem S1000x64 .f32) (harg6 : arg6.IsWhole) (arg7 : Memref sig .tc .vmem S1000x64 .f32) (harg7 : arg7.IsWhole) (hc0 : cond2_0 i) (hc1 : ¬cond2_1 i)
    (x0 : Vec F S2000x64 .f32) (x1 : Vec F S2000x1 .f32) (x2 : Vec F S1x64 .f32) (x3 : Vec F S2000x1 .i32) (x4 : Vec F S1000x1 .f32) :
    sout2_A_0 c i arg1 harg1 arg2 harg2 arg3 harg3 arg4 harg4 arg5 harg5 arg6 harg6 arg7 harg7 hc0 hc1 x0 x1 x2 x3 x4 = k2_pay2 x1 x0 x2 x3 (k2_pay1 (F := F)) := by
  unfold sout2_A_0
  rw [View.read_writes_eq_canon _ _ _ (scover2_A_0 c i arg1 harg1 arg2 harg2 arg3 harg3 arg4 harg4 arg5 harg5 arg6 harg6 arg7 harg7 hc0 hc1 x0 x1 x2 x3 x4)]
  unfold kernelRun2_A
  dsimp only
  sl_unfold_words
  rw [View.canon_cons_unit_zero (S := S1000x64) hz2, View.readCov_unit_zero (S := S1000x64) _ hz2]
  simp only [View.readAt_eq_ld, harg1.read_unread, harg2.read_unread, harg3.read_unread, harg4.read_unread,
    View.ld_unit_zero (S := S2000x64) hz2, View.ld_unit_zero (S := S2000x1) hz2, View.ld_unit_zero (S := S1x64) hz2]
/-! ## The payloads at an index, over the extended reals -/

/-- A column `[a, 1]` broadcast to `[a, b]` reads, at `(p, q)`, the column's entry `p`. -/
theorem bcast_col_apply2 {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row's entry `q`. -/
theorem bcast_row_apply2 {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The operand indices of the product that contracts the 2000 rows of both operands, axis by axis. -/
theorem lhs_pool_0 (i : S1000x64.Idx) (q : dot_S2000x1000_S2000x64_S1000x64_0_0_1_1_n_n.contr.Idx) :
    (dot_S2000x1000_S2000x64_S1000x64_0_0_1_1_n_n.lhsIdx i q 0).val = (q ⟨0, by decide⟩).val :=
  dot_S2000x1000_S2000x64_S1000x64_0_0_1_1_n_n.lhsIdx_val_of_single rfl i q
theorem lhs_pool_1 (i : S1000x64.Idx) (q : dot_S2000x1000_S2000x64_S1000x64_0_0_1_1_n_n.contr.Idx) :
    (dot_S2000x1000_S2000x64_S1000x64_0_0_1_1_n_n.lhsIdx i q 1).val = (i 0).val := by
  unfold DotDims.lhsIdx
  rw [dif_neg (show ¬(1 : Fin S2000x1000.rank) ∈ dot_S2000x1000_S2000x64_S1000x64_0_0_1_1_n_n.lhsBatch by decide), dif_pos (show (1 : Fin S2000x1000.rank) ∈ dot_S2000x1000_S2000x64_S1000x64_0_0_1_1_n_n.lhsNonContracting by decide)]
  rfl
theorem rhs_pool_0 (i : S1000x64.Idx) (q : dot_S2000x1000_S2000x64_S1000x64_0_0_1_1_n_n.contr.Idx) :
    (dot_S2000x1000_S2000x64_S1000x64_0_0_1_1_n_n.rhsIdx i q 0).val = (q ⟨0, by decide⟩).val :=
  dot_S2000x1000_S2000x64_S1000x64_0_0_1_1_n_n.rhsIdx_val_of_single rfl i q
theorem rhs_pool_1 (i : S1000x64.Idx) (q : dot_S2000x1000_S2000x64_S1000x64_0_0_1_1_n_n.contr.Idx) :
    (dot_S2000x1000_S2000x64_S1000x64_0_0_1_1_n_n.rhsIdx i q 1).val = (i 1).val := by
  unfold DotDims.rhsIdx
  rw [dif_neg (show ¬(1 : Fin S2000x64.rank) ∈ dot_S2000x1000_S2000x64_S1000x64_0_0_1_1_n_n.rhsBatch by decide), dif_pos (show (1 : Fin S2000x64.rank) ∈ dot_S2000x1000_S2000x64_S1000x64_0_0_1_1_n_n.rhsNonContracting by decide)]
  rfl

/-- That product into the zero accumulator, at `(g, j)`: the sum over the 2000 rows of the left operand's column `g`
    times the right operand's column `j`. -/
theorem pool_mm_apply (l : FVec Ideal S2000x1000 .bf16) (r : FVec Ideal S2000x64 .bf16) (g : Fin 1000) (j : Fin 64) :
    matmul dot_S2000x1000_S2000x64_S1000x64_0_0_1_1_n_n none l r (constant (F := Ideal) S1000x64 .f32 0x00000000#32) (ix2 g j)
      = ∑ k : Fin 2000, l (ix2 k g) * r (ix2 k j) := by
  simp only [matmul]
  rw [Ideal.matmul_constant_zero_apply, ← Equiv.sum_comp (contrEquiv1 dot_S2000x1000_S2000x64_S1000x64_0_0_1_1_n_n 2000 rfl rfl).symm]
  refine Finset.sum_congr rfl fun k _ => ?_
  have hk := contrEquiv1_symm_val dot_S2000x1000_S2000x64_S1000x64_0_0_1_1_n_n 2000 rfl rfl k
  have el : dot_S2000x1000_S2000x64_S1000x64_0_0_1_1_n_n.lhsIdx (ix2 g j) ((contrEquiv1 dot_S2000x1000_S2000x64_S1000x64_0_0_1_1_n_n 2000 rfl rfl).symm k) = ix2 k g := funext fun a => Fin.ext (by
    match a with
    | ⟨0, _⟩ => exact (lhs_pool_0 _ _).trans hk
    | ⟨1, _⟩ => exact lhs_pool_1 _ _)
  have er : dot_S2000x1000_S2000x64_S1000x64_0_0_1_1_n_n.rhsIdx (ix2 g j) ((contrEquiv1 dot_S2000x1000_S2000x64_S1000x64_0_0_1_1_n_n 2000 rfl rfl).symm k) = ix2 k j := funext fun a => Fin.ext (by
    match a with
    | ⟨0, _⟩ => exact (rhs_pool_0 _ _).trans hk
    | ⟨1, _⟩ => exact rhs_pool_1 _ _)
  rw [el, er]

/-- The membership entry: the word compare of the row's graph id with the column number, widened and converted, is one
    where the two words are equal and zero elsewhere. -/
theorem onehot_apply (x3 : IVec S2000x1 32) (r : Fin 2000) (g : Fin 1000) :
    (sitofp (F := Ideal) .f32 (extui 32 (cmpi .eq (broadcastTo S2000x1000 x3 broadcasts_S2000x1_S2000x1000) (iota .tc S2000x1000 32 [1] iota_S2000x1000_d1_w32)) natLt_1_32) : S2000x1000.Idx → EReal) (ix2 r g)
      = if x3 (ix2 r (0 : Fin 1)) = BitVec.ofNat 32 g.val then 1 else 0 := by
  rw [sitofp_apply, extui_apply]
  show FloatOps.sitofp (F := Ideal) .f32 ((IntOp.cmpi .eq (broadcastTo S2000x1000 x3 broadcasts_S2000x1_S2000x1000 (ix2 r g)) (iota .tc S2000x1000 32 [1] iota_S2000x1000_d1_w32 (ix2 r g))).setWidth 32) = _
  rw [bcast_col_apply2, iota_single_apply]
  show ((((IntOp.cmpi .eq (x3 (ix2 r (0 : Fin 1))) (BitVec.ofNat 32 g.val)).setWidth 32).toInt : ℝ) : EReal) = _
  by_cases h : x3 (ix2 r (0 : Fin 1)) = BitVec.ofNat 32 g.val
  · rw [if_pos h, (StableHlo.Predicate.cmpi_eq_iff).2 h]
    norm_num
  · rw [if_neg h, eq_zero_of_ne_one (fun hc => h ((StableHlo.Predicate.cmpi_eq_iff).1 hc))]
    norm_num

/-- The reset's stored value is the zero array. -/
theorem k2pay1_apply (g : Fin 1000) (j : Fin 64) : (k2_pay1 (F := Ideal) : S1000x64.Idx → EReal) (ix2 g j) = 0 := by
  unfold k2_pay1
  rw [shapeCast_self]
  show Ideal.ofBits .f32 0x00000000#32 = 0
  exact Ideal.ofBits_zero_f32

/-- The update's stored value at `(g, j)`: what the scratch held there, plus (zero plus) the sum over the block's 2000
    rows of the row's membership in graph `g` times the row's rectified entry `j` (scaled by the column block, the bias
    row added). -/
theorem k2pay2_apply (x1 : Vec Ideal S2000x1 .f32) (x0 : Vec Ideal S2000x64 .f32) (x2 : Vec Ideal S1x64 .f32)
    (x3 : Vec Ideal S2000x1 .i32) (xs : Vec Ideal S1000x64 .f32) (g : Fin 1000) (j : Fin 64) :
    (k2_pay2 x1 x0 x2 x3 xs : S1000x64.Idx → EReal) (ix2 g j)
      = (xs : S1000x64.Idx → EReal) (ix2 g j)
        + (0 + ∑ r : Fin 2000, (if (x3 : S2000x1.Idx → BitVec 32) (ix2 r (0 : Fin 1)) = BitVec.ofNat 32 g.val then (1 : EReal) else 0)
            * max ((x1 : S2000x1.Idx → EReal) (ix2 r (0 : Fin 1)) * (x0 : S2000x64.Idx → EReal) (ix2 r j) + (x2 : S1x64.Idx → EReal) (ix2 (0 : Fin 1) j)) 0) := by
  unfold k2_pay2
  simp only [shapeCast_self]
  rw [addf_apply, pool_mm_apply, zero_add]
  refine congrArg (fun z => (xs : S1000x64.Idx → EReal) (ix2 g j) + z) (Finset.sum_congr rfl fun r _ => ?_)
  rw [truncf_apply, truncf_apply, onehot_apply, maximumf_apply, addf_apply, mulf_apply, bcast_col_apply2, bcast_row_apply2, broadcast_apply]
  show _ * max _ (Ideal.ofBits .f32 0x00000000#32) = _
  rw [Ideal.ofBits_zero_f32]

/-- The output's stored value at `(g, j)`: the running total there times entry `g` of the reciprocal-size column. -/
theorem k2pay3_apply (y : Vec Ideal S1000x64 .f32) (x4 : Vec Ideal S1000x1 .f32) (g : Fin 1000) (j : Fin 64) :
    (k2_pay3 y x4 : S1000x64.Idx → EReal) (ix2 g j) = (y : S1000x64.Idx → EReal) (ix2 g j) * (x4 : S1000x1.Idx → EReal) (ix2 g (0 : Fin 1)) := by
  unfold k2_pay3
  rw [mulf_apply, bcast_col_apply2, shapeCast_self]

/-! ## The arrays the region is entered with, and the blocks a grid point reads -/

-- the arrays as the region finds them
variable (V : (c : Dev nD) → (b : Ref sig .tc) → Buf (Elt Ideal) ((c : Thread nD τ).loc b))

/-- The aggregate, the scale column, the bias row, the graph-id column and the reciprocal-size column. -/
abbrev aggA2 (c : Dev nD) : S100000x64.Idx → EReal := V c main_call0_v50
abbrev sclA2 (c : Dev nD) : S100000x1.Idx → EReal := V c main_call0_v14
abbrev biasA2 (c : Dev nD) : S1x64.Idx → EReal := V c main_call0_v26
abbrev batA2 (c : Dev nD) : IVec ⟨2, ![100000, 1]⟩ 32 := V c main_call0_v24
abbrev rcpA2 (c : Dev nD) : S1000x1.Idx → EReal := V c main_call0_v23

/-- Their blocks at grid point `t`. -/
abbrev aggB2 (c : Dev nD) (t : Fin cfg2.N) : Vec Ideal S2000x64 .f32 := iblk2 V c 0 t
abbrev sclB2 (c : Dev nD) (t : Fin cfg2.N) : Vec Ideal S2000x1 .f32 := iblk2 V c 1 t
abbrev biasB2 (c : Dev nD) (t : Fin cfg2.N) : Vec Ideal S1x64 .f32 := iblk2 V c 2 t
abbrev batB2 (c : Dev nD) (t : Fin cfg2.N) : Vec Ideal S2000x1 .i32 := iblk2 V c 3 t
abbrev rcpB2 (c : Dev nD) (t : Fin cfg2.N) : Vec Ideal S1000x1 .f32 := iblk2 V c 4 t

theorem N2 : cfg2.N = 50 := N_2

/-- The printed index maps over the grid: at point `t` the aggregate, the scale column and the graph-id column are read
    at block `t` of their rows; the bias row, the reciprocal-size column and the output are whole. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- Row `r` of the aggregate's block at point `t` is row `2000 t + r` of the aggregate. -/
theorem aggB2_apply (c : Dev nD) (t : Fin cfg2.N) (r : Fin 2000) (k : Fin 64) (h : t.val * 2000 + r.val < 100000) :
    (aggB2 V c t : S2000x64.Idx → EReal) (ix2 r k) = aggA2 V c (ix2 (⟨t.val * 2000 + r.val, h⟩ : Fin 100000) k) := by
  obtain ⟨e00, e01, -⟩ := idx_facts2 t
  show V c main_call0_v50 (((cfg2.win 0).blk t).view.emb (ix2 r k)) = V c main_call0_v50 _
  refine congrArg _ (funext fun a => Fin.ext ?_)
  match a with
  | ⟨0, _⟩ => show win2_0.index t (0 : Fin 2) * 2000 + 1 * r.val = t.val * 2000 + r.val; rw [e00]; omega
  | ⟨1, _⟩ => show win2_0.index t (1 : Fin 2) * 64 + 1 * k.val = k.val; rw [e01]; omega

/-- Entry `r` of the scale column's block at point `t` is entry `2000 t + r` of the column. -/
theorem sclB2_apply (c : Dev nD) (t : Fin cfg2.N) (r : Fin 2000) (h : t.val * 2000 + r.val < 100000) :
    (sclB2 V c t : S2000x1.Idx → EReal) (ix2 r (0 : Fin 1)) = sclA2 V c (ix2 (⟨t.val * 2000 + r.val, h⟩ : Fin 100000) (0 : Fin 1)) := by
  obtain ⟨-, -, e10, e11, -⟩ := idx_facts2 t
  show V c main_call0_v14 (((cfg2.win 1).blk t).view.emb (ix2 r (0 : Fin 1))) = V c main_call0_v14 _
  refine congrArg _ (funext fun a => Fin.ext ?_)
  match a with
  | ⟨0, _⟩ => show win2_1.index t (0 : Fin 2) * 2000 + 1 * r.val = t.val * 2000 + r.val; rw [e10]; omega
  | ⟨1, _⟩ => show win2_1.index t (1 : Fin 2) * 1 + 1 * 0 = 0; rw [e11]

/-- The bias row's block is the row at every point. -/
theorem biasB2_apply (c : Dev nD) (t : Fin cfg2.N) (k : Fin 64) :
    (biasB2 V c t : S1x64.Idx → EReal) (ix2 (0 : Fin 1) k) = biasA2 V c (ix2 (0 : Fin 1) k) := by
  obtain ⟨-, -, -, -, e20, e21, -⟩ := idx_facts2 t
  show V c main_call0_v26 (((cfg2.win 2).blk t).view.emb (ix2 (0 : Fin 1) k)) = V c main_call0_v26 _
  refine congrArg _ (funext fun a => Fin.ext ?_)
  match a with
  | ⟨0, _⟩ => show win2_2.index t (0 : Fin 2) * 1 + 1 * 0 = 0; rw [e20]
  | ⟨1, _⟩ => show win2_2.index t (1 : Fin 2) * 64 + 1 * k.val = k.val; rw [e21]; omega

/-- Entry `r` of the graph-id column's block at point `t` is entry `2000 t + r` of the column. -/
theorem batB2_apply (c : Dev nD) (t : Fin cfg2.N) (r : Fin 2000) (h : t.val * 2000 + r.val < 100000) :
    (batB2 V c t : S2000x1.Idx → BitVec 32) (ix2 r (0 : Fin 1)) = batA2 V c (ix2 (⟨t.val * 2000 + r.val, h⟩ : Fin 100000) (0 : Fin 1)) := by
  obtain ⟨-, -, -, -, -, -, e30, e31, -⟩ := idx_facts2 t
  show V c main_call0_v24 (((cfg2.win 3).blk t).view.emb (ix2 r (0 : Fin 1))) = V c main_call0_v24 _
  refine congrArg _ (funext fun a => Fin.ext ?_)
  match a with
  | ⟨0, _⟩ => show win2_3.index t (0 : Fin 2) * 2000 + 1 * r.val = t.val * 2000 + r.val; rw [e30]; omega
  | ⟨1, _⟩ => show win2_3.index t (1 : Fin 2) * 1 + 1 * 0 = 0; rw [e31]

/-- The reciprocal-size column's block is the column at every point. -/
theorem rcpB2_apply (c : Dev nD) (t : Fin cfg2.N) (g : Fin 1000) :
    (rcpB2 V c t : S1000x1.Idx → EReal) (ix2 g (0 : Fin 1)) = rcpA2 V c (ix2 g (0 : Fin 1)) := by
  obtain ⟨-, -, -, -, -, -, -, -, e40, e41, -⟩ := idx_facts2 t
  show V c main_call0_v23 (((cfg2.win 4).blk t).view.emb (ix2 g (0 : Fin 1))) = V c main_call0_v23 _
  refine congrArg _ (funext fun a => Fin.ext ?_)
  match a with
  | ⟨0, _⟩ => show win2_4.index t (0 : Fin 2) * 1000 + 1 * g.val = g.val; rw [e40]; omega
  | ⟨1, _⟩ => show win2_4.index t (1 : Fin 2) * 1 + 1 * 0 = 0; rw [e41]

/-! ## The running total: the scratch after each point -/

/-- The rectified row entries the pool sums: row `i` of the aggregate scaled by entry `i` of the column, the bias row
    added, rectified. -/
abbrev poolH (c : Dev nD) : Fin 100000 → Fin 64 → EReal := fun i k =>
  max (sclA2 V c (ix2 i (0 : Fin 1)) * aggA2 V c (ix2 i k) + biasA2 V c (ix2 (0 : Fin 1) k)) 0

theorem ixP_eq2 {n : ℕ} (p : Fin n) : StableHlo.Predicate.ixP p = ix2 p (0 : Fin 1) :=
  funext fun a => match a with
    | ⟨0, _⟩ => rfl
    | ⟨1, _⟩ => rfl

/-- What the update adds at point `t`, whatever the scratch held: the tile's contribution to the graph's total. -/
theorem k2pay2_blocks (c : Dev nD) (t : Fin cfg2.N) (xs : Vec Ideal S1000x64 .f32) (g : Fin 1000) (j : Fin 64) :
    (k2_pay2 (sclB2 V c t) (aggB2 V c t) (biasB2 V c t) (batB2 V c t) xs : S1000x64.Idx → EReal) (ix2 g j)
      = (xs : S1000x64.Idx → EReal) (ix2 g j) + Cert.GcnSpec.tileSum (batA2 V c) (poolH V c) g j t.val := by
  have ht : t.val < 50 := lt_of_lt_of_eq t.isLt N2
  rw [k2pay2_apply]
  unfold Cert.GcnSpec.tileSum
  rw [dif_pos ht]
  refine congrArg (fun z => (xs : S1000x64.Idx → EReal) (ix2 g j) + (0 + z)) (Finset.sum_congr rfl fun r _ => ?_)
  have hr : t.val * 2000 + r.val < 100000 := by have := r.isLt; omega
  rw [aggB2_apply V c t r j hr, sclB2_apply V c t r hr, biasB2_apply V c t j, batB2_apply V c t r hr]
  unfold Cert.GcnSpec.member
  rw [ixP_eq2]

/-- The scratch after the first point: the update of the zero array. -/
theorem scr2_A (c : Dev nD) (t : Fin cfg2.N) (h0 : t.val % 50 = 0) (h1 : ¬t.val % 50 = 49) :
    (outsAt2 V c t.val t.isLt).2 = k2_pay2 (sclB2 V c t) (aggB2 V c t) (biasB2 V c t) (batB2 V c t) (k2_pay1 (F := Ideal)) := by
  rw [outsAt2_A V c t h0 h1]
  dsimp only
  exact sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) ((hcond2_0 t).mpr h0) (fun h => h1 ((hcond2_1 t).mp h)) (iblk2 V c 0 t) (iblk2 V c 1 t) (iblk2 V c 2 t) (iblk2 V c 3 t) (iblk2 V c 4 t)

/-- The scratch after a middle point: the update of what the point before left. -/
theorem scr2_B (c : Dev nD) (t : Fin cfg2.N) (h0 : ¬t.val % 50 = 0) (h1 : ¬t.val % 50 = 49) :
    (outsAt2 V c t.val t.isLt).2 = k2_pay2 (sclB2 V c t) (aggB2 V c t) (biasB2 V c t) (batB2 V c t) (outsAt2 V c (t.val - 1) (Nat.lt_of_le_of_lt (Nat.sub_le _ _) t.isLt)).2 := by
  rw [outsAt2_B V c t h0 h1]
  dsimp only
  exact sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2

/-- The scratch after the last point: the same update … -/
theorem scr2_C (c : Dev nD) (t : Fin cfg2.N) (h0 : ¬t.val % 50 = 0) (h1 : t.val % 50 = 49) :
    (outsAt2 V c t.val t.isLt).2 = k2_pay2 (sclB2 V c t) (aggB2 V c t) (biasB2 V c t) (batB2 V c t) (outsAt2 V c (t.val - 1) (Nat.lt_of_le_of_lt (Nat.sub_le _ _) t.isLt)).2 := by
  rw [outsAt2_C V c t h0 h1]
  dsimp only
  exact sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2

/-- … and the output's buffer after the last point: that update scaled by the reciprocal-size column. -/
theorem out2_C (c : Dev nD) (t : Fin cfg2.N) (h0 : ¬t.val % 50 = 0) (h1 : t.val % 50 = 49) :
    (outsAt2 V c t.val t.isLt).1 = k2_pay3 (k2_pay2 (sclB2 V c t) (aggB2 V c t) (biasB2 V c t) (batB2 V c t) (outsAt2 V c (t.val - 1) (Nat.lt_of_le_of_lt (Nat.sub_le _ _) t.isLt)).2) (rcpB2 V c t) := by
  rw [outsAt2_C V c t h0 h1]
  dsimp only
  exact out2_C_5_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2

/-- THE INVARIANT. After point `n` the scratch holds, at `(g, j)`, the running total of the tiles' contributions up to `n`. -/
theorem scratch2_eq (c : Dev nD) (g : Fin 1000) (j : Fin 64) : ∀ (n : ℕ) (hn : n < cfg2.N),
    ((outsAt2 V c n hn).2 : S1000x64.Idx → EReal) (ix2 g j)
      = Cert.LayerAlgebra.accTo 50 (Cert.GcnSpec.tileSum (batA2 V c) (poolH V c) g j) n
  | 0, hn => by
    refine (congrFun (scr2_A V c ⟨0, hn⟩ (Nat.zero_mod _) (by show ¬(0 % 50 = 49); decide)) (ix2 g j)).trans ?_
    refine (k2pay2_blocks V c ⟨0, hn⟩ _ g j).trans ?_
    rw [k2pay1_apply]
    rfl
  | n + 1, hn => by
    have hN : n + 1 < 50 := lt_of_lt_of_eq hn N2
    have h0 : ¬(⟨n + 1, hn⟩ : Fin cfg2.N).val % 50 = 0 := by dsimp only; omega
    have ih := scratch2_eq c g j n (Nat.lt_of_succ_lt hn)
    by_cases h1 : (⟨n + 1, hn⟩ : Fin cfg2.N).val % 50 = 49
    · refine (congrFun (scr2_C V c ⟨n + 1, hn⟩ h0 h1) (ix2 g j)).trans ?_
      refine (k2pay2_blocks V c ⟨n + 1, hn⟩ _ g j).trans ?_
      exact congrArg (fun z => z + Cert.GcnSpec.tileSum (batA2 V c) (poolH V c) g j (n + 1)) ih
    · refine (congrFun (scr2_B V c ⟨n + 1, hn⟩ h0 h1) (ix2 g j)).trans ?_
      refine (k2pay2_blocks V c ⟨n + 1, hn⟩ _ g j).trans ?_
      exact congrArg (fun z => z + Cert.GcnSpec.tileSum (batA2 V c) (poolH V c) g j (n + 1)) ih

/-! ## The output array -/

/-- What the output array ends holding: at `(g, j)` the running total after the last tile times entry `g` of the
    reciprocal-size column. -/
def poolG (c : Dev nD) : S1000x64.Idx → EReal := fun i =>
  Cert.LayerAlgebra.accTo 50 (Cert.GcnSpec.tileSum (batA2 V c) (poolH V c) (i 0 : Fin 1000) (i 1 : Fin 64)) 49
    * rcpA2 V c (ix2 (i 0 : Fin 1000) (0 : Fin 1))

/-- The one write-back, at the last point, writes the whole array's one block of that function. -/
theorem flushed2_eq (c : Dev nD) (t : Fin cfg2.N) (hf : (cfg2.win 5).flush t = true) :
    (dat2 V c).flushed 5 t = ((cfg2.win 5).blk t).view.read (Elt Ideal) (poolG V c) := by
  have h49 : t.val % 50 = 49 := (flush2_5 t).mp hf
  have hN : t.val < 50 := lt_of_lt_of_eq t.isLt N2
  have h0 : ¬t.val % 50 = 0 := by omega
  have ht : t.val = 49 := by omega
  obtain ⟨-, -, -, -, -, -, -, -, -, -, e50, e51⟩ := idx_facts2 t
  show (cfg2.win 5).cut (grid2.coords t) ((dat2 V c).after 5 t) = _
  rw [after2_5]
  funext y
  obtain ⟨g, j, rfl⟩ : ∃ (g : Fin 1000) (j : Fin 64), y = ix2 g j := ⟨y 0, y 1, eq_ix2 y⟩
  have hemb : ((cfg2.win 5).blk t).view.emb (ix2 g j) = (ix2 g j : S1000x64.Idx) :=
    funext fun a => Fin.ext (by
      match a with
      | ⟨0, _⟩ => show win2_5.index t (0 : Fin 2) * 1000 + 1 * g.val = g.val; rw [e50]; omega
      | ⟨1, _⟩ => show win2_5.index t (1 : Fin 2) * 64 + 1 * j.val = j.val; rw [e51]; omega)
  show ((outsAt2 V c t.val t.isLt).1 : S1000x64.Idx → EReal) (ix2 g j) = poolG V c (((cfg2.win 5).blk t).view.emb (ix2 g j))
  rw [hemb]
  refine (congrFun (out2_C V c t h0 h49) (ix2 g j)).trans ?_
  refine (k2pay3_apply _ _ g j).trans ?_
  rw [rcpB2_apply V c t g, ← congrFun (scr2_C V c t h0 h49) (ix2 g j), scratch2_eq V c g j t.val t.isLt, ht]
  rfl

/-- An index of the array is in point `t`'s block iff each coordinate is in the block's range on its axis. -/
theorem mem_blk2 (t : Fin cfg2.N) (i : S1000x64.Idx) :
    i ∈ ((cfg2.win 5).blk t).view.set ↔ ∀ a : Fin 2, win2_5.index t a * S1000x64.size a ≤ (i a).val ∧ (i a).val < win2_5.index t a * S1000x64.size a + S1000x64.size a := by
  show i ∈ ((View.whole main_v0).slice (win2_5.rect t)).set ↔ _
  rw [View.set_slice_whole, Rect.mem_set_unit]
  exact Iff.rfl

/-- Every index of the array is in the last point's block, the whole array. -/
theorem cover2 (i : S1000x64.Idx) : ∃ t : Fin cfg2.N, (cfg2.win 5).flush t = true ∧ i ∈ ((cfg2.win 5).blk t).view.set := by
  have hi0 : (i 0).val < 1000 := (i 0).isLt
  have hi1 : (i 1).val < 64 := (i 1).isLt
  have hlt : 49 < cfg2.N := by rw [N2]; omega
  obtain ⟨-, -, -, -, -, -, -, -, -, -, e50, e51⟩ := idx_facts2 ⟨49, hlt⟩
  refine ⟨⟨49, hlt⟩, (flush2_5 _).mpr rfl, ?_⟩
  rw [mem_blk2]
  intro a
  match a with
  | ⟨0, _⟩ =>
    show win2_5.index ⟨49, hlt⟩ (0 : Fin 2) * 1000 ≤ (i 0).val ∧ (i 0).val < win2_5.index ⟨49, hlt⟩ (0 : Fin 2) * 1000 + 1000
    rw [e50]; omega
  | ⟨1, _⟩ =>
    show win2_5.index ⟨49, hlt⟩ (1 : Fin 2) * 64 ≤ (i 1).val ∧ (i 1).val < win2_5.index ⟨49, hlt⟩ (1 : Fin 2) * 64 + 64
    rw [e51]; omega

/-- The output array after the region is that function. -/
theorem arr2_eq (c : Dev nD) : (dat2 V c).arrAt 5 cfg2.N = poolG V c :=
  (dat2 V c).arrAt_eq_of_cover 5 (poolG V c) (flushed2_eq V c) cover2

/-- The region's output at `(g, j)`: the running total of the 50 tiles' contributions to graph `g`, times entry `g` of the
    reciprocal-size column. -/
theorem pool_apply (c : Dev nD) (g : Fin 1000) (j : Fin 64) :
    ((dat2 (F := Ideal) V c).arrAt 5 cfg2.N : S1000x64.Idx → EReal) (ix2 g j)
      = Cert.LayerAlgebra.accTo 50 (Cert.GcnSpec.tileSum (batA2 V c) (poolH V c) g j) 49 * rcpA2 V c (ix2 g (0 : Fin 1)) := by
  rw [arr2_eq]
  rfl

end Cert.KernelIdeal.KV

end
-- ==== Proof.Val.GlueHost.lean ====
/-
  WHAT THE REGIONS FIND. The run follows the core's buffers through a fold: a stretch of host operations, a region, a
  stretch, a region, a stretch, a region. Here the buffers the regions read are named at the regions' entries: the
  argument arrays are as launched; the column of degree factors, written once by the first stretch and only read by
  every region, is at every entry the degree factor of the edge list, row by row; the bias rows are the bias vectors;
  the column of graph ids is the id vector, row by row; and the column of reciprocal graph sizes is one over the larger
  of the graph's size and one.
-/
import proofs.«430571_j90941637525518_3_alg».proof.Proof.Fr.Run
import proofs.«430571_j90941637525518_3_alg».proof.Proof.Gen.ReferenceIdeal.Read
import proofs.«430571_j90941637525518_3_alg».proof.Proof.Val.Spec
import proofs.«430571_j90941637525518_3_alg».proof.Proof.LibGatherScatter
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The arguments at the regions' entries -/

/-- The node features at the first region's entry are as launched. -/
theorem arg0_V1 : (Fr.V1 m ρ c main_arg0 : S100000x64.Idx → EReal) = m ((c.tc : Thread nD τ).loc main_arg0) :=
  StableHlo.after_of_writes_sub hostOps0 _ hostOps0_writes (by decide)

/-- The first weight matrix at the first region's entry is as launched. -/
theorem arg1_V1 : (Fr.V1 m ρ c main_arg1 : S64x64.Idx → EReal) = m ((c.tc : Thread nD τ).loc main_arg1) :=
  StableHlo.after_of_writes_sub hostOps0 _ hostOps0_writes (by decide)

/-- The second weight matrix at the second region's entry is as launched. -/
theorem arg3_V3 : (Fr.V3 m ρ c main_arg3 : S64x64.Idx → EReal) = m ((c.tc : Thread nD τ).loc main_arg3) :=
  calc Fr.W3 m ρ c (Proc.devRef .tc main_arg3)
    _ = Fr.W2 m ρ c (Proc.devRef .tc main_arg3) := StableHlo.after_of_writes_sub hostOps1 _ hostOps1_writes (by decide)
    _ = Fr.W1 m ρ c (Proc.devRef .tc main_arg3) := Fr.W2_of_ne m ρ c main_arg3 (by decide)
    _ = Fr.W0 m ρ c (Proc.devRef .tc main_arg3) := StableHlo.after_of_writes_sub hostOps0 _ hostOps0_writes (by decide)
    _ = m ((c.tc : Thread nD τ).loc main_arg3) := rfl

/-! ## Reading a reshape to a column -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## What persists from one entry to the next -/

/-- A buffer the second stretch does not write and the first region does not hold is at the second region's entry what it
    was at the first's. -/
theorem W3_eq_W1 (b : Ref sig .tc) (h1 : b ∉ hostOps1_W) (h0 : ∀ w, Pipeline.arrRef spec0 w ≠ b) :
    Fr.W3 m ρ c (Proc.devRef .tc b) = Fr.W1 m ρ c (Proc.devRef .tc b) :=
  (StableHlo.after_of_writes_sub hostOps1 _ hostOps1_writes h1).trans (Fr.W2_of_ne m ρ c b h0)

/-- A buffer the third stretch does not write and the second region does not hold is at the third region's entry what it
    was at the second's. -/
theorem W5_eq_W3 (b : Ref sig .tc) (h2 : b ∉ hostOps2_W) (h1 : ∀ w, Pipeline.arrRef spec1 w ≠ b) :
    Fr.W5 m ρ c (Proc.devRef .tc b) = Fr.W3 m ρ c (Proc.devRef .tc b) :=
  (StableHlo.after_of_writes_sub hostOps2 _ hostOps2_writes h2).trans (Fr.W4_of_ne m ρ c b h1)

/-! ## The column of degree factors -/

section HostRead
variable {F : FTy → Type} [FloatOps F]

/-- Over any contents at the stretch's entry: the column of degree factors the first stretch leaves is the reference's
    degree factor of the entry's edge list, reshaped to a column. -/
theorem v14_after (W : Valuation τ sig (Elt F)) :
    (StableHlo.after (hostOps0 (F := F)) W (Proc.devRef .tc main_call0_v14) : (⟨S100000x1, .f32⟩ : BufTy).Contents (Elt F))
      = shapeCast _ (Cert.ReferenceIdeal.Read.val_main_v13 (F := F) (W (Proc.devRef .tc main_arg5))) shapeCasts_S100000_S100000x1 := by
  after_results
  rfl

end HostRead

/-- At the first region's entry, row `s` of the column of degree factors is the degree factor of row `s`. -/
theorem dinv_V1 (s : Fin 100000) :
    (Fr.V1 m ρ c main_call0_v14 : S100000x1.Idx → EReal) (ix2 s 0)
      = Cert.ReferenceIdeal.Read.val_main_v13 (F := Ideal) (m ((c.tc : Thread nD τ).loc main_arg5)) (ix1 s) :=
  (congrFun (v14_after (F := Ideal) (Fr.W0 m ρ c)) (ix2 s 0)).trans (shapeCast_a_a1_apply _ _ s 0)

/-- The column of degree factors is an input of the first region and no later stretch writes it: at the second region's
    entry it is what it was at the first's. -/
theorem v14_V3 : Fr.W3 m ρ c (Proc.devRef .tc main_call0_v14) = Fr.W1 m ρ c (Proc.devRef .tc main_call0_v14) :=
  (StableHlo.after_of_writes_sub hostOps1 _ hostOps1_writes (by decide)).trans
    ((Fr.W2_arr m ρ c 2).trans (((dat0 (Fr.V1 m ρ) c).arrAt_in 2 rfl _).trans (A_eq0 (Fr.V1 m ρ) c 2)))

/-- … and at the third region's entry what it was at the second's (it is an input of the second region too). -/
theorem v14_V5 : Fr.W5 m ρ c (Proc.devRef .tc main_call0_v14) = Fr.W3 m ρ c (Proc.devRef .tc main_call0_v14) :=
  (StableHlo.after_of_writes_sub hostOps2 _ hostOps2_writes (by decide)).trans
    ((Fr.W4_arr m ρ c 1).trans (((dat1 (Fr.V3 m ρ) c).arrAt_in 1 rfl _).trans (A_eq1 (Fr.V3 m ρ) c 1)))

theorem dinv_V3 (s : Fin 100000) :
    (Fr.V3 m ρ c main_call0_v14 : S100000x1.Idx → EReal) (ix2 s 0)
      = Cert.ReferenceIdeal.Read.val_main_v13 (F := Ideal) (m ((c.tc : Thread nD τ).loc main_arg5)) (ix1 s) :=
  (congrFun (v14_V3 m ρ c) (ix2 s 0)).trans (dinv_V1 m ρ c s)

theorem dinv_V5 (s : Fin 100000) :
    (Fr.V5 m ρ c main_call0_v14 : S100000x1.Idx → EReal) (ix2 s 0)
      = Cert.ReferenceIdeal.Read.val_main_v13 (F := Ideal) (m ((c.tc : Thread nD τ).loc main_arg5)) (ix1 s) :=
  (congrFun (v14_V5 m ρ c) (ix2 s 0)).trans (dinv_V3 m ρ c s)

/-! ## The bias rows, the column of graph ids, the column of reciprocal graph sizes -/

section HostRead2
variable {F : FTy → Type} [FloatOps F]

/-- Over any contents at the stretch's entry: the first bias row the first stretch leaves is the first bias vector as a row. -/
theorem v25_after (W : Valuation τ sig (Elt F)) :
    (StableHlo.after (hostOps0 (F := F)) W (Proc.devRef .tc main_call0_v25) : (⟨S1x64, .f32⟩ : BufTy).Contents (Elt F))
      = shapeCast _ (W (Proc.devRef .tc main_arg2) : (⟨S64, .f32⟩ : BufTy).Contents (Elt F)) shapeCasts_S64_S1x64 := by
  after_results
  rfl

/-- … the second bias row the second bias vector as a row. -/
theorem v26_after (W : Valuation τ sig (Elt F)) :
    (StableHlo.after (hostOps0 (F := F)) W (Proc.devRef .tc main_call0_v26) : (⟨S1x64, .f32⟩ : BufTy).Contents (Elt F))
      = shapeCast _ (W (Proc.devRef .tc main_arg4) : (⟨S64, .f32⟩ : BufTy).Contents (Elt F)) shapeCasts_S64_S1x64 := by
  after_results
  rfl

/-- … the column of graph ids the id vector as a column. -/
theorem v24_after (W : Valuation τ sig (Elt F)) :
    (StableHlo.after (hostOps0 (F := F)) W (Proc.devRef .tc main_call0_v24) : (⟨S100000x1, .i32⟩ : BufTy).Contents (Elt F))
      = shapeCast _ (W (Proc.devRef .tc main_arg6) : (⟨S100000, .i32⟩ : BufTy).Contents (Elt F)) shapeCasts_S100000_S100000x1 := by
  after_results
  rfl

/-- … and the column of reciprocal graph sizes is, as a column, one divided by the larger of the reference's graph sizes and one. -/
theorem v23_after (W : Valuation τ sig (Elt F)) :
    (StableHlo.after (hostOps0 (F := F)) W (Proc.devRef .tc main_call0_v23) : (⟨S1000x1, .f32⟩ : BufTy).Contents (Elt F))
      = shapeCast _ (Host.divf (broadcastInDim S1000 ![] bcast_S_S1000 (constant (F := F) S_ .f32 0x3F800000#32))
          (maximumf (Cert.ReferenceIdeal.Read.val_main_v67 (F := F) (W (Proc.devRef .tc main_arg6)))
            (broadcastInDim S1000 ![] bcast_S_S1000 (constant (F := F) S_ .f32 0x3F800000#32)))) shapeCasts_S1000_S1000x1 := by
  after_results
  rfl

end HostRead2

/-- At the second region's entry, entry `k` of the first bias row is entry `k` of the first bias vector. -/
theorem b1_V3 (k : Fin 64) :
    (Fr.V3 m ρ c main_call0_v25 : S1x64.Idx → EReal) (ix2 0 k) = m ((c.tc : Thread nD τ).loc main_arg2) (ix1 k) :=
  (congrFun ((W3_eq_W1 m ρ c main_call0_v25 (by decide) (by decide)).trans (v25_after (F := Ideal) (Fr.W0 m ρ c))) (ix2 0 k)).trans
    (shapeCast_a_1a_apply _ _ 0 k)

/-- At the third region's entry, entry `k` of the second bias row is entry `k` of the second bias vector. -/
theorem b2_V5 (k : Fin 64) :
    (Fr.V5 m ρ c main_call0_v26 : S1x64.Idx → EReal) (ix2 0 k) = m ((c.tc : Thread nD τ).loc main_arg4) (ix1 k) :=
  (congrFun (((W5_eq_W3 m ρ c main_call0_v26 (by decide) (by decide)).trans (W3_eq_W1 m ρ c main_call0_v26 (by decide) (by decide))).trans
    (v26_after (F := Ideal) (Fr.W0 m ρ c))) (ix2 0 k)).trans (shapeCast_a_1a_apply _ _ 0 k)

/-- At the third region's entry the column of graph ids is the reference's column of graph ids: the id vector read row by
    row (one program reshapes the vector to a column, the other broadcasts it along a new unit axis). -/
theorem bcol_V5 :
    (Fr.V5 m ρ c main_call0_v24 : IVec ⟨2, ![100000, 1]⟩ 32)
      = Cert.ReferenceIdeal.Read.val_main_v66 (F := Ideal) (m ((c.tc : Thread nD τ).loc main_arg6)) := by
  have h : Fr.W5 m ρ c (Proc.devRef .tc main_call0_v24)
      = shapeCast S100000x1 (m ((c.tc : Thread nD τ).loc main_arg6) : (⟨S100000, .i32⟩ : BufTy).Contents (Elt Ideal))
          shapeCasts_S100000_S100000x1 :=
    ((W5_eq_W3 m ρ c main_call0_v24 (by decide) (by decide)).trans
      (W3_eq_W1 m ρ c main_call0_v24 (by decide) (by decide))).trans (v24_after (F := Ideal) (Fr.W0 m ρ c))
  funext p
  obtain ⟨a, u, rfl⟩ : ∃ (a : Fin 100000) (u : Fin 1), p = ix2 a u := ⟨p 0, p 1, eq_ix2 p⟩
  have hi : Cert.ReferenceIdeal.Read.idx_main_v66 (ix2 a u) = ix1 a := by
    funext b
    match b with
    | ⟨0, _⟩ => rfl
  refine (congrFun h (ix2 a u)).trans ?_
  rw [shapeCast_a_a1_apply, Cert.ReferenceIdeal.Read.val_main_v66_apply, hi]

/-- At the third region's entry, row `g` of the column of reciprocal graph sizes is one divided by the larger of graph
    `g`'s size and one. -/
theorem recip_V5 (g : Fin 1000) :
    (Fr.V5 m ρ c main_call0_v23 : S1000x1.Idx → EReal) (ix2 g 0)
      = Ideal.div 1 (max (Cert.ReferenceIdeal.Read.val_main_v67 (F := Ideal) (m ((c.tc : Thread nD τ).loc main_arg6)) (ix1 g)) 1) := by
  have h : Fr.W5 m ρ c (Proc.devRef .tc main_call0_v23)
      = shapeCast S1000x1 (Host.divf (broadcastInDim S1000 ![] bcast_S_S1000 (constant (F := Ideal) S_ .f32 0x3F800000#32))
          (maximumf (Cert.ReferenceIdeal.Read.val_main_v67 (F := Ideal) (m ((c.tc : Thread nD τ).loc main_arg6)))
            (broadcastInDim S1000 ![] bcast_S_S1000 (constant (F := Ideal) S_ .f32 0x3F800000#32)))) shapeCasts_S1000_S1000x1 :=
    ((W5_eq_W3 m ρ c main_call0_v23 (by decide) (by decide)).trans
      (W3_eq_W1 m ρ c main_call0_v23 (by decide) (by decide))).trans (v23_after (F := Ideal) (Fr.W0 m ρ c))
  -- the graph sizes stay a name from here on
  generalize Cert.ReferenceIdeal.Read.val_main_v67 (F := Ideal) (m ((c.tc : Thread nD τ).loc main_arg6)) = sz at h ⊢
  refine (congrFun h (ix2 g 0)).trans ?_
  rw [shapeCast_a_a1_apply]
  show FloatOps.hostDivf (FloatOps.ofBits (F := Ideal) .f32 0x3F800000#32)
      (FloatOps.maximumf (sz (ix1 g)) (FloatOps.ofBits (F := Ideal) .f32 0x3F800000#32)) = _
  rw [Ideal.hostDivf_def, Ideal.maximumf_def, Ideal.ofBits_def, Ideal.ofBits_one_f32]

end Cert.KernelIdeal.KV

end
-- ==== Proof.Val.GlueEdges.lean ====
/-
  WHAT THE SECOND AND THIRD REGIONS FIND IN THEIR AGGREGATE ARRAYS. Before each of them a stretch of host operations takes the
  rows of the previous region's output at the edges' source indices (negative indices wrapped, then clamped into the
  table), widens them, and sums them into zeros at the edges' destination indices (read signed, not clamped: an edge
  lands on row `i` when its destination index is `i`). So entry (i, k) of the aggregate is zero plus the sum, over the
  edges landing on row `i`, of entry k of the previous output's row at the edge's source.

  The two index columns are the reference program's own stages of the edge list: the stretches compute them by the same
  operations, and the terms agree for any float family. The read at an index is made at the extended reals, where the
  accumulating scatter is the exact sum and the widening of a float format is the identity.
-/
import proofs.«430571_j90941637525518_3_alg».proof.Proof.Fr.Run
import proofs.«430571_j90941637525518_3_alg».proof.Proof.Gen.ReferenceIdeal.Read
import proofs.«430571_j90941637525518_3_alg».proof.Proof.Val.Spec
import proofs.«430571_j90941637525518_3_alg».proof.Proof.LibGatherScatter
import Idealize.ShloMosaic.Lib.StableHlo.Run
import Idealize.ShloMosaic.Lib.ValueIdx

set_option maxRecDepth 16384

noncomputable section

namespace Cert.KernelIdeal.KV

open Cert.KernelIdeal Cert.KernelIdeal.Gen Cert.KernelIdeal.Fr
open Idealize.ShloMosaic Idealize.ShloMosaic.TcCoe Idealize.ShloMosaic.ValueIdx Idealize.SL.Sem
open scoped BigOperators

section Generic
variable {F : FTy → Type} [FloatOps F]

/-- The first stretch leaves the source indices of the edges (self loops appended): the reference's stage of the edge list. -/
theorem after0_v3 (W : Valuation τ sig (Elt F)) :
    StableHlo.after (hostOps0 (F := F)) W (Proc.devRef .tc main_call0_v3)
      = Cert.ReferenceIdeal.Read.val_main_v3 (F := F) (W (Proc.devRef .tc main_arg5)) := by
  after_results
  rfl

/-- The first stretch leaves the destination indices of the edges (self loops appended). -/
theorem after0_v6 (W : Valuation τ sig (Elt F)) :
    StableHlo.after (hostOps0 (F := F)) W (Proc.devRef .tc main_call0_v6)
      = Cert.ReferenceIdeal.Read.val_main_v6 (F := F) (W (Proc.devRef .tc main_arg5)) := by
  after_results
  rfl

/-- The second stretch's aggregate: the rows of the previous region's output taken at the normalised source column,
    widened, summed into zeros at the destination column. -/
theorem after1_v38 (W : Valuation τ sig (Elt F)) (x5 : (⟨S2x1600000, .i32⟩ : BufTy).Contents (Elt F))
    (h3 : W (Proc.devRef .tc main_call0_v3) = Cert.ReferenceIdeal.Read.val_main_v3 (F := F) x5)
    (h6 : W (Proc.devRef .tc main_call0_v6) = Cert.ReferenceIdeal.Read.val_main_v6 (F := F) x5) :
    StableHlo.after (hostOps1 (F := F)) W (Proc.devRef .tc main_call0_v38)
      = Host.scatterAdd scatter_S100000x64_S1700000x1_S1700000x64_1_0_0_1
          (broadcastInDim S100000x64 ![] bcast_S_S100000x64 (constant (F := F) S_ .f32 0x00000000#32))
          (Cert.ReferenceIdeal.Read.val_main_v9 (F := F) x5)
          (extf .f32 (Host.gather gather_S100000x64_S1700000x1_S1700000x64_1_0_n_n_0_1_164
              (W (Proc.devRef .tc main_call0_v27)) (Cert.ReferenceIdeal.Read.val_main_v19 (F := F) x5)) bitsLt_bf16_f32) := by
  after_results
  rw [h3, h6]
  rfl

/-- The third stretch's aggregate: the same over the second region's output. -/
theorem after2_v50 (W : Valuation τ sig (Elt F)) (x5 : (⟨S2x1600000, .i32⟩ : BufTy).Contents (Elt F))
    (h3 : W (Proc.devRef .tc main_call0_v3) = Cert.ReferenceIdeal.Read.val_main_v3 (F := F) x5)
    (h6 : W (Proc.devRef .tc main_call0_v6) = Cert.ReferenceIdeal.Read.val_main_v6 (F := F) x5) :
    StableHlo.after (hostOps2 (F := F)) W (Proc.devRef .tc main_call0_v50)
      = Host.scatterAdd scatter_S100000x64_S1700000x1_S1700000x64_1_0_0_1
          (broadcastInDim S100000x64 ![] bcast_S_S100000x64 (constant (F := F) S_ .f32 0x00000000#32))
          (Cert.ReferenceIdeal.Read.val_main_v9 (F := F) x5)
          (extf .f32 (Host.gather gather_S100000x64_S1700000x1_S1700000x64_1_0_n_n_0_1_164
              (W (Proc.devRef .tc main_call0_v39)) (Cert.ReferenceIdeal.Read.val_main_v19 (F := F) x5)) bitsLt_bf16_f32) := by
  after_results
  rw [h3, h6]
  rfl

variable (m : (ℓ : Loc nD τ sig) → Buf (Elt F) ℓ) (ρ : Dev nD → PrngReg)

/-- The index vectors the first stretch leaves pass the regions and the later stretches untouched. -/
theorem W2_v3 (c : Dev nD) : W2 m ρ c (Proc.devRef .tc main_call0_v3)
    = Cert.ReferenceIdeal.Read.val_main_v3 (F := F) (m ((c.tc : Thread nD τ).loc main_arg5)) :=
  (W2_of_ne m ρ c main_call0_v3 (by decide)).trans (after0_v3 (W0 m ρ c))
theorem W2_v6 (c : Dev nD) : W2 m ρ c (Proc.devRef .tc main_call0_v6)
    = Cert.ReferenceIdeal.Read.val_main_v6 (F := F) (m ((c.tc : Thread nD τ).loc main_arg5)) :=
  (W2_of_ne m ρ c main_call0_v6 (by decide)).trans (after0_v6 (W0 m ρ c))
theorem W4_v3 (c : Dev nD) : W4 m ρ c (Proc.devRef .tc main_call0_v3)
    = Cert.ReferenceIdeal.Read.val_main_v3 (F := F) (m ((c.tc : Thread nD τ).loc main_arg5)) :=
  ((W4_of_ne m ρ c main_call0_v3 (by decide)).trans
    (StableHlo.after_of_writes_sub hostOps1 _ hostOps1_writes (by decide))).trans (W2_v3 m ρ c)
theorem W4_v6 (c : Dev nD) : W4 m ρ c (Proc.devRef .tc main_call0_v6)
    = Cert.ReferenceIdeal.Read.val_main_v6 (F := F) (m ((c.tc : Thread nD τ).loc main_arg5)) :=
  ((W4_of_ne m ρ c main_call0_v6 (by decide)).trans
    (StableHlo.after_of_writes_sub hostOps1 _ hostOps1_writes (by decide))).trans (W2_v6 m ρ c)

/-- Region 1 is entered with its aggregate array at the scatter-add of region 0's output rows. -/
theorem V3_v38 (c : Dev nD) : V3 m ρ c main_call0_v38
    = Host.scatterAdd scatter_S100000x64_S1700000x1_S1700000x64_1_0_0_1
        (broadcastInDim S100000x64 ![] bcast_S_S100000x64 (constant (F := F) S_ .f32 0x00000000#32))
        (Cert.ReferenceIdeal.Read.val_main_v9 (F := F) (m ((c.tc : Thread nD τ).loc main_arg5)))
        (extf .f32 (Host.gather gather_S100000x64_S1700000x1_S1700000x64_1_0_n_n_0_1_164
            ((dat0 (V1 m ρ) c).arrAt 3 cfg0.N)
            (Cert.ReferenceIdeal.Read.val_main_v19 (F := F) (m ((c.tc : Thread nD τ).loc main_arg5)))) bitsLt_bf16_f32) := by
  have h27 : W2 m ρ c (Proc.devRef .tc main_call0_v27) = (dat0 (V1 m ρ) c).arrAt 3 cfg0.N := W2_arr m ρ c 3
  have h := after1_v38 (W2 m ρ c) (m ((c.tc : Thread nD τ).loc main_arg5)) (W2_v3 m ρ c) (W2_v6 m ρ c)
  rw [h27] at h
  exact h

/-- Region 2 is entered with its aggregate array at the scatter-add of region 1's output rows. -/
theorem V5_v50 (c : Dev nD) : V5 m ρ c main_call0_v50
    = Host.scatterAdd scatter_S100000x64_S1700000x1_S1700000x64_1_0_0_1
        (broadcastInDim S100000x64 ![] bcast_S_S100000x64 (constant (F := F) S_ .f32 0x00000000#32))
        (Cert.ReferenceIdeal.Read.val_main_v9 (F := F) (m ((c.tc : Thread nD τ).loc main_arg5)))
        (extf .f32 (Host.gather gather_S100000x64_S1700000x1_S1700000x64_1_0_n_n_0_1_164
            ((dat1 (V3 m ρ) c).arrAt 4 cfg1.N)
            (Cert.ReferenceIdeal.Read.val_main_v19 (F := F) (m ((c.tc : Thread nD τ).loc main_arg5)))) bitsLt_bf16_f32) := by
  have h39 : W4 m ρ c (Proc.devRef .tc main_call0_v39) = (dat1 (V3 m ρ) c).arrAt 4 cfg1.N := W4_arr m ρ c 4
  have h := after2_v50 (W4 m ρ c) (m ((c.tc : Thread nD τ).loc main_arg5)) (W4_v3 m ρ c) (W4_v6 m ρ c)
  rw [h39] at h
  exact h

end Generic

section AtIdeal

/-- At the extended reals the accumulating scatter is the exact sum; stated at arbitrary shapes, where it holds by
    definition. -/
theorem scatterAdd_exact {s si u : Shape} {w : Nat} {φ : FTy} (d : ScatterDims s si u) (x : FVec Ideal s φ) (idx : IVec si w)
    (upd : FVec Ideal u φ) : Host.scatterAdd d x idx upd = Ideal.hostScatterAdd d x idx upd := rfl

/-- The array the aggregate is summed into is zero everywhere. -/
theorem zeros_apply (i : Fin 100000) (k : Fin 64) :
    (broadcastInDim S100000x64 ![] bcast_S_S100000x64 (constant (F := Ideal) S_ .f32 0x00000000#32)
      : S100000x64.Idx → EReal) (ix2 i k) = 0 := by
  rw [broadcastInDim_apply _ bcast_S_S100000x64 _ (ix2 i k) (fun a => a.elim0) (fun a => a.elim0), constant_apply]
  exact Ideal.ofBits_zero_f32

/-- Rows taken at a source column, widened, and summed into zeros at a destination column: entry (i, k) is zero plus the
    sum, over the edges landing on row `i`, of entry k of the edge's source row. -/
theorem gather_scatter_apply (y : FVec Ideal S100000x64 .bf16) (src dst : IVec S1700000x1 32) (i : Fin 100000) (k : Fin 64) :
    (Host.scatterAdd scatter_S100000x64_S1700000x1_S1700000x64_1_0_0_1
        (broadcastInDim S100000x64 ![] bcast_S_S100000x64 (constant (F := Ideal) S_ .f32 0x00000000#32)) dst
        (extf .f32 (Host.gather gather_S100000x64_S1700000x1_S1700000x64_1_0_n_n_0_1_164 y src) bitsLt_bf16_f32)
      : S100000x64.Idx → EReal) (ix2 i k)
      = 0 + ∑ e ∈ Cert.GcnSpec.into dst i, (y : S100000x64.Idx → EReal) (ix2 (Cert.GcnSpec.srow src e) k) := by
  rw [scatterAdd_exact,
    RowOps.scatterAdd_rows scatter_S100000x64_S1700000x1_S1700000x64_1_0_0_1 rfl rfl rfl rfl _ _ _ i k, zeros_apply]
  unfold Cert.GcnSpec.into
  refine congrArg (fun z => (0 : EReal) + z) (Finset.sum_congr rfl fun e _ => ?_)
  rw [extf_apply,
    RowOps.gather_rows gather_S100000x64_S1700000x1_S1700000x64_1_0_n_n_0_1_164 rfl rfl rfl rfl rfl rfl _ _ e k (by norm_num)]
  rfl

variable (m : (ℓ : Loc nD τ sig) → Buf (Elt Ideal) ℓ) (ρ : Dev nD → PrngReg) (c : Dev nD)

/-- Region 0's output array after its write-backs. -/
abbrev out0A : S100000x64.Idx → EReal := (dat0 (F := Ideal) (Fr.V1 m ρ) c).arrAt 3 cfg0.N
/-- Region 1's output array after its write-backs. -/
abbrev out1A : S100000x64.Idx → EReal := (dat1 (F := Ideal) (Fr.V3 m ρ) c).arrAt 4 cfg1.N
/-- The aggregate array region 1 is entered with. -/
abbrev aggIn1 : S100000x64.Idx → EReal := Fr.V3 m ρ c main_call0_v38
/-- The aggregate array region 2 is entered with. -/
abbrev aggIn2 : S100000x64.Idx → EReal := Fr.V5 m ρ c main_call0_v50

/-- REGION 1'S AGGREGATE. Entry (i, k) of the array region 1 is entered with: zero plus the sum, over the edges landing on
    row `i`, of entry k of region 0's output at the edge's source row. -/
theorem agg1_V3 (i : Fin 100000) (k : Fin 64) :
    aggIn1 m ρ c (ix2 i k)
      = 0 + ∑ e ∈ Cert.GcnSpec.into (Cert.ReferenceIdeal.Read.val_main_v9 (F := Ideal) (m ((c.tc : Thread nD τ).loc main_arg5))) i,
          out0A m ρ c (ix2 (Cert.GcnSpec.srow (Cert.ReferenceIdeal.Read.val_main_v19 (F := Ideal) (m ((c.tc : Thread nD τ).loc main_arg5))) e) k) := by
  have h : aggIn1 m ρ c = _ := V3_v38 (F := Ideal) m ρ c
  rw [h]
  exact gather_scatter_apply _ _ _ i k

/-- REGION 2'S AGGREGATE. The same one region later, over region 1's output. -/
theorem agg2_V5 (i : Fin 100000) (k : Fin 64) :
    aggIn2 m ρ c (ix2 i k)
      = 0 + ∑ e ∈ Cert.GcnSpec.into (Cert.ReferenceIdeal.Read.val_main_v9 (F := Ideal) (m ((c.tc : Thread nD τ).loc main_arg5))) i,
          out1A m ρ c (ix2 (Cert.GcnSpec.srow (Cert.ReferenceIdeal.Read.val_main_v19 (F := Ideal) (m ((c.tc : Thread nD τ).loc main_arg5))) e) k) := by
  have h : aggIn2 m ρ c = _ := V5_v50 (F := Ideal) m ρ c
  rw [h]
  exact gather_scatter_apply _ _ _ i k

end AtIdeal

end Cert.KernelIdeal.KV

end
-- ==== Proof.Val.Bridge.lean ====
/-
  The equivalence over the extended reals, assembled.

  The kernel's side. The first region leaves in its output array, row by row, the transformed features scaled by the row's
  degree factor; the host then gathers those rows at the edges' sources and adds them up at the edges' destinations; the
  second region scales by the destination's factor, adds the bias, rectifies — that is the first layer in the kernel's
  arrangement (`kerLayer`) — and transforms and scales again; the host gathers and adds again; the third region scales, adds
  the second bias, rectifies — the second layer — and pools by graph: a running sum over fifty tiles of one-hot products, times
  the reciprocal of the graph's size (`kerOut`). The index columns, the degree factor, the graph ids and the graph sizes are
  the same host stages in both programs, carried here as names.

  The reference's side is the specification's other arrangement (`refOut` of `refLayer` of `refLayer`).

  On finite inputs every entry is a real number, the degree factor and the graph sizes are real numbers, and an edge landing on a
  row reads the normalised destination at that row: so each layer agrees (a real factor distributes over a finite sum of
  reals) and the pool agrees (dividing by a nonzero real is multiplying by its reciprocal; a one-hot product summed over all
  rows is the sum over the graph's rows).
-/
import proofs.«430571_j90941637525518_3_alg».proof.Defs
import proofs.«430571_j90941637525518_3_alg».proof.Proof.Gen.Pre_finite_inputs
import proofs.«430571_j90941637525518_3_alg».proof.Proof.Gen.ReferenceIdeal.Run
import proofs.«430571_j90941637525518_3_alg».proof.Proof.Gen.ReferenceIdeal.Read
import proofs.«430571_j90941637525518_3_alg».proof.Proof.Fr.Run
import proofs.«430571_j90941637525518_3_alg».proof.Proof.Val.Spec
import proofs.«430571_j90941637525518_3_alg».proof.Proof.Val.RefValue
import proofs.«430571_j90941637525518_3_alg».proof.Proof.Val.Finite
import proofs.«430571_j90941637525518_3_alg».proof.Proof.Val.HostFacts
import proofs.«430571_j90941637525518_3_alg».proof.Proof.Val.Region01Value
import proofs.«430571_j90941637525518_3_alg».proof.Proof.Val.Region2Value
import proofs.«430571_j90941637525518_3_alg».proof.Proof.Val.GlueHost
import proofs.«430571_j90941637525518_3_alg».proof.Proof.Val.GlueEdges

noncomputable section

namespace Cert.Proof.Bridge

open Cert.KernelIdeal Idealize.ShloMosaic Idealize.SL.Sem Idealize.ShloMosaic.ValueIdx Idealize.ShloMosaic.TcCoe
open Cert.LayerAlgebra Cert.GcnSpec
open Cert.KernelIdeal.Fr (dat0 dat1 dat2)
open scoped BigOperators

variable (m : (ℓ : Loc nD τ sig) → Buf (Elt Ideal) ℓ) (ρ : Dev nD → PrngReg) (c : Dev nD)

/-! ## The arguments, by their literal types, and the host stages the two programs share -/

abbrev x0 : S100000x64.Idx → EReal := m ((c.tc : Thread nD τ).loc main_arg0)
abbrev x1 : S64x64.Idx → EReal := m ((c.tc : Thread nD τ).loc main_arg1)
abbrev x2 : S64.Idx → EReal := m ((c.tc : Thread nD τ).loc main_arg2)
abbrev x3 : S64x64.Idx → EReal := m ((c.tc : Thread nD τ).loc main_arg3)
abbrev x4 : S64.Idx → EReal := m ((c.tc : Thread nD τ).loc main_arg4)
abbrev x5 : IVec S2x1600000 32 := m ((c.tc : Thread nD τ).loc main_arg5)
abbrev x6 : IVec S100000 32 := m ((c.tc : Thread nD τ).loc main_arg6)

/-- The normalised source column, the raw and the normalised destination column, the degree factor, the column of graph ids
    and the graph sizes: the reference's named stages of the edge list and the id vector, which the kernel's host stretches
    compute by the same operations. -/
abbrev srcc : IVec ECol 32 := Cert.ReferenceIdeal.Read.val_main_v19 (F := Ideal) (x5 m c)
abbrev dstc : IVec ECol 32 := Cert.ReferenceIdeal.Read.val_main_v9 (F := Ideal) (x5 m c)
abbrev dstnc : IVec ECol 32 := Cert.ReferenceIdeal.Read.val_main_v26 (F := Ideal) (x5 m c)
abbrev dinv : Fin 100000 → EReal := fun i => Cert.ReferenceIdeal.Read.val_main_v13 (F := Ideal) (x5 m c) (ix1 i)
abbrev bcol : IVec NCol 32 := Cert.ReferenceIdeal.Read.val_main_v66 (F := Ideal) (x6 m c)
abbrev cnt : Fin 1000 → EReal := fun g => Cert.ReferenceIdeal.Read.val_main_v67 (F := Ideal) (x6 m c) (ix1 g)

abbrev X : Fin 100000 → Fin 64 → EReal := fun s k => x0 m c (ix2 s k)
abbrev W1c : Fin 64 → Fin 64 → EReal := fun k j => x1 m c (ix2 k j)
abbrev b1c : Fin 64 → EReal := fun j => x2 m c (ix1 j)
abbrev W2c : Fin 64 → Fin 64 → EReal := fun k j => x3 m c (ix2 k j)
abbrev b2c : Fin 64 → EReal := fun j => x4 m c (ix1 j)

/-! ## The kernel's side, region by region -/

/-- The first region's output: the transformed features of a row, scaled by the row's degree factor. -/
theorem lin1_at (s : Fin 100000) (k : Fin 64) :
    ((dat0 (F := Ideal) (Fr.V1 m ρ) c).arrAt 3 cfg0.N : S100000x64.Idx → EReal) (ix2 s k)
      = (0 + mm (X m c) (W1c m c) s k) * dinv m c s := by
  rw [KV.lin1_apply (Fr.V1 m ρ) c s k,
    show KV.arrX (Fr.V1 m ρ) c = x0 m c from KV.arg0_V1 m ρ c,
    show KV.arrW1 (Fr.V1 m ρ) c = x1 m c from KV.arg1_V1 m ρ c,
    show KV.arrD (Fr.V1 m ρ) c (ix2 s (0 : Fin 1)) = dinv m c s from KV.dinv_V1 m ρ c s]
  rfl

/-- The second region's aggregate: over the edges landing on a row, the first region's output at the edge's source. -/
theorem agg1_at (i : Fin 100000) (k : Fin 64) :
    KV.arrH (Fr.V3 m ρ) c (ix2 i k)
      = 0 + ∑ e ∈ into (dstc m c) i, (0 + mm (X m c) (W1c m c) (srow (srcc m c) e) k) * dinv m c (srow (srcc m c) e) := by
  rw [show KV.arrH (Fr.V3 m ρ) c (ix2 i k) = _ from KV.agg1_V3 m ρ c i k]
  exact congrArg (fun z => 0 + z) (Finset.sum_congr rfl fun e _ => lin1_at m ρ c _ _)

/-- What the second region rectifies is the first layer in the kernel's arrangement. -/
theorem h1_at (s : Fin 100000) (k : Fin 64) :
    max (KV.arrD (Fr.V3 m ρ) c (ix2 s (0 : Fin 1)) * KV.arrH (Fr.V3 m ρ) c (ix2 s k) + KV.arrB (Fr.V3 m ρ) c (ix2 (0 : Fin 1) k)) 0
      = kerLayer (srcc m c) (dstc m c) (dinv m c) (X m c) (W1c m c) (b1c m c) s k := by
  rw [show KV.arrD (Fr.V3 m ρ) c (ix2 s (0 : Fin 1)) = dinv m c s from KV.dinv_V3 m ρ c s, agg1_at m ρ c s k,
    show KV.arrB (Fr.V3 m ρ) c (ix2 (0 : Fin 1) k) = b1c m c k from KV.b1_V3 m ρ c k]
  rfl

/-- The second region's output: the first layer's rows transformed and scaled by the row's degree factor. -/
theorem lin2_at (s : Fin 100000) (k : Fin 64) :
    ((dat1 (F := Ideal) (Fr.V3 m ρ) c).arrAt 4 cfg1.N : S100000x64.Idx → EReal) (ix2 s k)
      = (0 + mm (kerLayer (srcc m c) (dstc m c) (dinv m c) (X m c) (W1c m c) (b1c m c)) (W2c m c) s k) * dinv m c s := by
  rw [KV.lin2_apply (Fr.V3 m ρ) c s k,
    show KV.arrD (Fr.V3 m ρ) c (ix2 s (0 : Fin 1)) = dinv m c s from KV.dinv_V3 m ρ c s]
  refine congrArg (fun z => (0 + z) * dinv m c s) (Finset.sum_congr rfl fun k' _ => ?_)
  have h := h1_at m ρ c s k'
  rw [show KV.arrD (Fr.V3 m ρ) c (ix2 s (0 : Fin 1)) = dinv m c s from KV.dinv_V3 m ρ c s] at h
  rw [h, show KV.arrW2 (Fr.V3 m ρ) c = x3 m c from KV.arg3_V3 m ρ c]

/-- The third region's aggregate. -/
theorem agg2_at (i : Fin 100000) (k : Fin 64) :
    KV.aggA2 (Fr.V5 m ρ) c (ix2 i k)
      = 0 + ∑ e ∈ into (dstc m c) i,
          (0 + mm (kerLayer (srcc m c) (dstc m c) (dinv m c) (X m c) (W1c m c) (b1c m c)) (W2c m c) (srow (srcc m c) e) k) * dinv m c (srow (srcc m c) e) := by
  rw [show KV.aggA2 (Fr.V5 m ρ) c (ix2 i k) = _ from KV.agg2_V5 m ρ c i k]
  exact congrArg (fun z => 0 + z) (Finset.sum_congr rfl fun e _ => lin2_at m ρ c _ _)

/-- What the third region pools is the second layer in the kernel's arrangement. -/
theorem h2_at (i : Fin 100000) (k : Fin 64) :
    KV.poolH (Fr.V5 m ρ) c i k
      = kerLayer (srcc m c) (dstc m c) (dinv m c) (kerLayer (srcc m c) (dstc m c) (dinv m c) (X m c) (W1c m c) (b1c m c)) (W2c m c) (b2c m c) i k := by
  show max (KV.sclA2 (Fr.V5 m ρ) c (ix2 i (0 : Fin 1)) * KV.aggA2 (Fr.V5 m ρ) c (ix2 i k) + KV.biasA2 (Fr.V5 m ρ) c (ix2 (0 : Fin 1) k)) 0 = _
  rw [show KV.sclA2 (Fr.V5 m ρ) c (ix2 i (0 : Fin 1)) = dinv m c i from KV.dinv_V5 m ρ c i, agg2_at m ρ c i k,
    show KV.biasA2 (Fr.V5 m ρ) c (ix2 (0 : Fin 1) k) = b2c m c k from KV.b2_V5 m ρ c k]
  rfl

/-- THE KERNEL'S RESULT in the specification's closed form. -/
theorem ker_out (g : Fin 1000) (j : Fin 64) :
    ((dat2 (F := Ideal) (Fr.V5 m ρ) c).arrAt 5 cfg2.N : S1000x64.Idx → EReal) (ix2 g j)
      = kerOut (bcol m c) (cnt m c)
          (kerLayer (srcc m c) (dstc m c) (dinv m c) (kerLayer (srcc m c) (dstc m c) (dinv m c) (X m c) (W1c m c) (b1c m c)) (W2c m c) (b2c m c)) g j := by
  rw [KV.pool_apply (Fr.V5 m ρ) c g j,
    show KV.batA2 (Fr.V5 m ρ) c = bcol m c from KV.bcol_V5 m ρ c,
    show KV.rcpA2 (Fr.V5 m ρ) c (ix2 g (0 : Fin 1)) = Ideal.div 1 (max (cnt m c g) 1) from KV.recip_V5 m ρ c g,
    show KV.poolH (Fr.V5 m ρ) c = _ from funext fun i => funext fun k => h2_at m ρ c i k]
  rfl

/-! ## The two programs agree -/

/-- On finite inputs the kernel's result is the reference's, index by index. -/
theorem ker_result (hpre : Cert.Pre_KernelIdeal m) (g : Fin 1000) (j : Fin 64) :
    ((dat2 (F := Ideal) (Fr.V5 m ρ) c).arrAt 5 cfg2.N : S1000x64.Idx → EReal) (ix2 g j)
      = Cert.ReferenceIdeal.Read.val_main_v75 (F := Ideal) (x0 m c) (x1 m c) (x2 m c) (x3 m c) (x4 m c) (x5 m c) (x6 m c) (ix2 g j) := by
  obtain ⟨hx0, hx1, hx2, hx3, hx4⟩ := Cert.FiniteInputs.finite_of_pre m hpre c
  have hX : ∀ s k, IsReal (X m c s k) := fun s k => hx0 (ix2 s k)
  have hW1 : ∀ k j, IsReal (W1c m c k j) := fun k j => hx1 (ix2 k j)
  have hb1 : ∀ j, IsReal (b1c m c j) := fun j => hx2 (ix1 j)
  have hW2 : ∀ k j, IsReal (W2c m c k j) := fun k j => hx3 (ix2 k j)
  have hd : ∀ i, IsReal (dinv m c i) := fun i => Cert.ReferenceIdeal.HostFacts.dinv_isReal (x5 m c) i
  have hc : ∀ g, IsReal (cnt m c g) := fun g => Cert.ReferenceIdeal.HostFacts.cnt_isReal (x6 m c) g
  have hdn : ∀ (e : Fin 1700000) (i : Fin 100000), Idealize.ShloMosaic.RowOps.lands (dstc m c) e i.val → drow (dstnc m c) e = i :=
    fun e i h => Cert.ReferenceIdeal.HostFacts.dst_norm (x5 m c) e i h
  have e1 : kerLayer (srcc m c) (dstc m c) (dinv m c) (X m c) (W1c m c) (b1c m c)
      = refLayer (srcc m c) (dstc m c) (dstnc m c) (dinv m c) (X m c) (W1c m c) (b1c m c) :=
    funext fun i => funext fun k => layer_eq (srcc m c) (dstc m c) (dstnc m c) (dinv m c) (X m c) (W1c m c) (b1c m c) hX hW1 hd hdn i k
  have hR1 : ∀ s k, IsReal (refLayer (srcc m c) (dstc m c) (dstnc m c) (dinv m c) (X m c) (W1c m c) (b1c m c) s k) :=
    fun s k => isReal_refLayer (srcc m c) (dstc m c) (dstnc m c) (dinv m c) (X m c) (W1c m c) (b1c m c) hX hW1 hb1 hd s k
  have e2 : kerLayer (srcc m c) (dstc m c) (dinv m c) (refLayer (srcc m c) (dstc m c) (dstnc m c) (dinv m c) (X m c) (W1c m c) (b1c m c)) (W2c m c) (b2c m c)
      = refLayer (srcc m c) (dstc m c) (dstnc m c) (dinv m c) (refLayer (srcc m c) (dstc m c) (dstnc m c) (dinv m c) (X m c) (W1c m c) (b1c m c)) (W2c m c) (b2c m c) :=
    funext fun i => funext fun k => layer_eq (srcc m c) (dstc m c) (dstnc m c) (dinv m c) _ (W2c m c) (b2c m c) hR1 hW2 hd hdn i k
  rw [ker_out m ρ c g j, e1, e2, out_eq (bcol m c) (cnt m c) _ hc g j]
  exact (Cert.ReferenceIdeal.RefValue.ref_result (x0 m c) (x1 m c) (x2 m c) (x3 m c) (x4 m c) (x5 m c) (x6 m c) g j).symm

/-- EQUIVALENCE OVER THE EXTENDED REALS: from memories agreeing on the arguments both programs run to the end, leave the arguments
    unchanged, and end with equal results, element by element. -/
theorem algebraic : Cert.algebraic_KernelIdeal_ReferenceIdeal := by
  intro m ρ m' ρ' hpre hagree
  refine ⟨fun c => (dat2 (F := Ideal) (Fr.V5 m ρ) c).arrAt 5 cfg2.N, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v75_eq, (hagree c).1, (hagree c).2.1, (hagree c).2.2.1, (hagree c).2.2.2.1,
    (hagree c).2.2.2.2.1, (hagree c).2.2.2.2.2.1, (hagree c).2.2.2.2.2.2]
  funext p
  rw [eq_ix2 p]
  exact (ker_result m ρ c hpre (p 0) (p 1)).symm

end Cert.Proof.Bridge

end
-- ==== Proof.lean ====
/-
  The certificate's five claims.

  The kernel's program is three kernel regions among three stretches of host operations: a linear layer with the source-side
  degree scale; a fused layer boundary (destination-side scale, bias, rectifier, the next linear layer, source-side scale);
  and a mean pool by graph (destination-side scale, bias, rectifier, a running per-graph sum over fifty tiles of rows,
  scaled by the reciprocal graph size at the last tile). Between the regions the host gathers the previous region's rows at
  the edges' sources and adds them up at the edges' destinations.

  Frames. For either reading of the kernel's program (words, extended reals) the run follows the contents of the core's
  unscoped buffers from the launch through each stretch and region to the return (Proof/Fr/Run.lean and its word-level
  sibling): every execution terminates without a fault, and no stretch writes an argument and no region's output array is
  one. The reference has no kernel: its frame is its run with the result dropped.

  Preservation. The ideal pass rewrote no operation: the claim is `True`.

  Equivalence over the extended reals. The reference scales each edge's message by the product of the two degree factors
  before summing; the kernel scales by the source factor before the sum and by the destination factor after it, and
  replaces the division by a graph's size with a product by its reciprocal and the per-graph sum with one-hot products
  summed tile by tile. On finite inputs every quantity is a real number (the degree factor is the reciprocal root of a
  count that is at least one), where a factor distributes over a finite sum, an edge landing on a row reads that row's
  factor, and dividing by a nonzero real is multiplying by its reciprocal.
-/
import proofs.«430571_j90941637525518_3_alg».proof.Defs
import proofs.«430571_j90941637525518_3_alg».proof.Proof.Gen.Kernel
import proofs.«430571_j90941637525518_3_alg».proof.Proof.Gen.KernelIdeal
import proofs.«430571_j90941637525518_3_alg».proof.Proof.Gen.ReferenceIdeal
import proofs.«430571_j90941637525518_3_alg».proof.Proof.Gen.Pre_finite_inputs
import proofs.«430571_j90941637525518_3_alg».proof.Proof.Gen.ReferenceIdeal.Run
import proofs.«430571_j90941637525518_3_alg».proof.Proof.Fr.Run
import proofs.«430571_j90941637525518_3_alg».proof.Proof.FrK.Run
import proofs.«430571_j90941637525518_3_alg».proof.Proof.Val.Bridge
import Idealize.ShloMosaic.Adequacy
import Idealize.ShloMosaic.Init

noncomputable section

namespace Cert.Proof

open Idealize.ShloMosaic Idealize.SL.Sem

/-- The word-level program runs to the end, faults nowhere and leaves its arguments unchanged. -/
theorem frame_k : Cert.frame_Kernel := fun m ρ _ => Cert.Kernel.Fr.frame m ρ

/-- So does its reading over the extended reals. -/
theorem frame_ki : Cert.frame_KernelIdeal := fun m ρ _ => Cert.KernelIdeal.Fr.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten by the ideal pass. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, Cert.Proof.Bridge.algebraic⟩

end Cert.Proof

end
